-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S16384x1024 : Shape := ⟨2, ![16384, 1024]⟩
abbrev S2x1024x1024 : Shape := ⟨3, ![2, 1024, 1024]⟩
abbrev S2 : Shape := ⟨1, ![2]⟩
abbrev S8 : Shape := ⟨1, ![8]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .local _ .vmem, ⟨0, _⟩ => ⟨S2x1024x1024, .f32⟩
  | _, _ => ⟨S8192x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_14 : BitVec 32 := 8#32
  let v21 : BitVec 32 := Scalar.muli v9 c8_i32_14
  let v22 : BitVec 32 := Scalar.addi c0_i32_15 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v23 : BitVec 32 := Scalar.muli v5 c4_i32_16
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v25 : BitVec 32 := Scalar.muli v8 c1_i32_17
  let v26 : BitVec 32 := Scalar.addi v24 v25
  v26.toNat
def k0_off1 (d0 : Dev nD) (c0_i32_25 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v32 : BitVec 32 := Scalar.muli v2 c8192_i32
  let v33 : BitVec 32 := Scalar.addi v32 c0_i32_25
  let c0_i32_33 : BitVec 32 := 0#32
  ![v33.toNat, 0]
def k0_dev2 (d0 : Dev nD) : Nat :=
  let c0_i32_30 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_29 : BitVec 32 := 8#32
  let v34 : BitVec 32 := Scalar.muli v9 c8_i32_29
  let v35 : BitVec 32 := Scalar.addi c0_i32_30 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v36 : BitVec 32 := Scalar.muli v5 c4_i32_31
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v38 : BitVec 32 := Scalar.muli v8 c1_i32_32
  let v39 : BitVec 32 := Scalar.addi v37 v38
  v39.toNat
def k0_dev3 (d0 : Dev nD) : Nat :=
  let c0_i32_55 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_54 : BitVec 32 := 8#32
  let v61 : BitVec 32 := Scalar.muli v9 c8_i32_54
  let v62 : BitVec 32 := Scalar.addi c0_i32_55 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v63 : BitVec 32 := Scalar.muli v5 c4_i32_56
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v65 : BitVec 32 := Scalar.muli v8 c1_i32_57
  let v66 : BitVec 32 := Scalar.addi v64 v65
  v66.toNat
def k0_dev4 (d0 : Dev nD) : Nat :=
  let c0_i32_97 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_96 : BitVec 32 := 8#32
  let v103 : BitVec 32 := Scalar.muli v9 c8_i32_96
  let v104 : BitVec 32 := Scalar.addi c0_i32_97 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v105 : BitVec 32 := Scalar.muli v5 c4_i32_98
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v107 : BitVec 32 := Scalar.muli v8 c1_i32_99
  let v108 : BitVec 32 := Scalar.addi v106 v107
  v108.toNat
def k0_dev5 (d0 : Dev nD) : Nat :=
  let c0_i32_138 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_137 : BitVec 32 := 8#32
  let v145 : BitVec 32 := Scalar.muli v9 c8_i32_137
  let v146 : BitVec 32 := Scalar.addi c0_i32_138 v145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_139 : BitVec 32 := 4#32
  let v147 : BitVec 32 := Scalar.muli v5 c4_i32_139
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v149 : BitVec 32 := Scalar.muli v8 c1_i32_140
  let v150 : BitVec 32 := Scalar.addi v148 v149
  v150.toNat
def k0_dev6 (d0 : Dev nD) : Nat :=
  let c0_i32_180 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_179 : BitVec 32 := 8#32
  let v187 : BitVec 32 := Scalar.muli v9 c8_i32_179
  let v188 : BitVec 32 := Scalar.addi c0_i32_180 v187
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_181 : BitVec 32 := 4#32
  let v189 : BitVec 32 := Scalar.muli v5 c4_i32_181
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v191 : BitVec 32 := Scalar.muli v8 c1_i32_182
  let v192 : BitVec 32 := Scalar.addi v190 v191
  v192.toNat
def k0_dev7 (d0 : Dev nD) : Nat :=
  let c0_i32_221 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_220 : BitVec 32 := 8#32
  let v229 : BitVec 32 := Scalar.muli v9 c8_i32_220
  let v230 : BitVec 32 := Scalar.addi c0_i32_221 v229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v231 : BitVec 32 := Scalar.muli v5 c4_i32_222
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v233 : BitVec 32 := Scalar.muli v8 c1_i32_223
  let v234 : BitVec 32 := Scalar.addi v232 v233
  v234.toNat
def k0_dev8 (d0 : Dev nD) : Nat :=
  let c0_i32_262 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_261 : BitVec 32 := 8#32
  let v271 : BitVec 32 := Scalar.muli v9 c8_i32_261
  let v272 : BitVec 32 := Scalar.addi c0_i32_262 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v273 : BitVec 32 := Scalar.muli v5 c4_i32_263
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v275 : BitVec 32 := Scalar.muli v8 c1_i32_264
  let v276 : BitVec 32 := Scalar.addi v274 v275
  v276.toNat
def k0_dev9 (d0 : Dev nD) : Nat :=
  let c0_i32_303 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_302 : BitVec 32 := 8#32
  let v313 : BitVec 32 := Scalar.muli v9 c8_i32_302
  let v314 : BitVec 32 := Scalar.addi c0_i32_303 v313
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_304 : BitVec 32 := 4#32
  let v315 : BitVec 32 := Scalar.muli v5 c4_i32_304
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v317 : BitVec 32 := Scalar.muli v8 c1_i32_305
  let v318 : BitVec 32 := Scalar.addi v316 v317
  v318.toNat

class Facts₀ : Prop where
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S8192x1024_S1024x1024_0_0 : ∀ a, (![0, 0] : Fin 2 → Nat) a + S1024x1024.size a ≤ S8192x1024.size a
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  inb_S8192x1024_S1024x1024_1024_0 : ∀ a, (![1024, 0] : Fin 2 → Nat) a + S1024x1024.size a ≤ S8192x1024.size a
  hamt_1 : (1#32 : BitVec 32).msb = false
  inb_S8_S1_0 : ∀ a, (![0] : Fin 1 → Nat) a + S1.size a ≤ S8.size a
  inb_S8_S1_1 : ∀ a, (![1] : Fin 1 → Nat) a + S1.size a ≤ S8.size a
  inb_S8192x1024_S1024x1024_2048_0 : ∀ a, (![2048, 0] : Fin 2 → Nat) a + S1024x1024.size a ≤ S8192x1024.size a
  inb_S8_S1_2 : ∀ a, (![2] : Fin 1 → Nat) a + S1.size a ≤ S8.size a
  inb_S8192x1024_S1024x1024_3072_0 : ∀ a, (![3072, 0] : Fin 2 → Nat) a + S1024x1024.size a ≤ S8192x1024.size a
  inb_S8_S1_3 : ∀ a, (![3] : Fin 1 → Nat) a + S1.size a ≤ S8.size a
  inb_S8192x1024_S1024x1024_4096_0 : ∀ a, (![4096, 0] : Fin 2 → Nat) a + S1024x1024.size a ≤ S8192x1024.size a
  inb_S8_S1_4 : ∀ a, (![4] : Fin 1 → Nat) a + S1.size a ≤ S8.size a
  inb_S8192x1024_S1024x1024_5120_0 : ∀ a, (![5120, 0] : Fin 2 → Nat) a + S1024x1024.size a ≤ S8192x1024.size a
  inb_S8_S1_5 : ∀ a, (![5] : Fin 1 → Nat) a + S1.size a ≤ S8.size a
  inb_S8192x1024_S1024x1024_6144_0 : ∀ a, (![6144, 0] : Fin 2 → Nat) a + S1024x1024.size a ≤ S8192x1024.size a
  inb_S8_S1_6 : ∀ a, (![6] : Fin 1 → Nat) a + S1.size a ≤ S8.size a
  inb_S8192x1024_S1024x1024_7168_0 : ∀ a, (![7168, 0] : Fin 2 → Nat) a + S1024x1024.size a ≤ S8192x1024.size a
  inb_S8_S1_7 : ∀ a, (![7] : Fin 1 → Nat) a + S1.size a ≤ S8.size a
  hcc0_scratch1 : 0 + S2.numel ≤ 20
  hcc0_scratch2 : 2 + S2.numel ≤ 20
  hcc0_scratch3 : 4 + S8.numel ≤ 20
  hcc0_scratch4 : 12 + S8.numel ≤ 20
  k0_dev1_lt : ∀ d0 : Dev nD, (k0_dev1 d0) < nD
  k0_off1_inb : ∀ d0 : Dev nD, ∀ (r : Fin 8), ∀ a, (k0_off1 d0 (BitVec.ofNat 32 (1024 * r.val))) a + S1024x1024.size a ≤ S16384x1024.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S8 := SemArray.consecutive 4 S8 hcc0_scratch3
abbrev cc0_scratch4 : DmaSems sig S8 := SemArray.consecutive 12 S8 hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Proto.lean ====
import proofs.«900681_g7700000000000682_dist_ag_v7x_xyz2x2x4_x_m8192_n1024_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic
import Idealize.ShloMosaic.Lib.ValueIdx

/-!
# The pairwise exchange: algebra, cells and schedule

Sixteen devices in pairs: device `c` and its partner `peer c` differ in the coordinate on the
first mesh axis only.  Each device copies its block of `x`, eight row chunks of 1024 rows, through
a two-slot staging buffer into its own result array and into its partner's, at the rows its first
mesh coordinate names.  One unit on the partner's barrier semaphore says "I am inside the kernel";
chunk `k` completes on the sender's send semaphore `k` and on the receiver's receive semaphore `k`.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own copy (one duty a round), the
local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

/-! ## The pairs -/

def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel
theorem dev6_eq (c : Dev nD) : (⟨k0_dev6 c, k0_dev6_lt c⟩ : Dev nD) = peer c := by revert c; decide +kernel
theorem dev7_eq (c : Dev nD) : (⟨k0_dev7 c, k0_dev7_lt c⟩ : Dev nD) = peer c := by revert c; decide +kernel
theorem dev8_eq (c : Dev nD) : (⟨k0_dev8 c, k0_dev8_lt c⟩ : Dev nD) = peer c := by revert c; decide +kernel
theorem dev9_eq (c : Dev nD) : (⟨k0_dev9 c, k0_dev9_lt c⟩ : Dev nD) = peer c := by revert c; decide +kernel

/-! ## The memrefs: the block of `x`, the result array, the two staging slots; their chunk slices -/

abbrev xM : Memref sig .tc .hbm S8192x1024 .f32 := Memref.whole main_arg0
abbrev oM : Memref sig .tc .hbm S16384x1024 .f32 := Memref.whole main_v1
abbrev gM : Memref sig .tc .vmem S2x1024x1024 .f32 := Memref.whole cc0_scratch0

theorem inb_x (k : Fin 8) : ∀ a, (![1024 * k.val, 0] : Fin 2 → Nat) a + S1024x1024.size a ≤ S8192x1024.size a := by revert k; decide
theorem inb_g (s : Fin 2) : ∀ a, (![s.val, 0, 0] : Fin 3 → Nat) a + S1x1024x1024.size a ≤ S2x1024x1024.size a := by revert s; decide
theorem inb_s2 (s : Fin 2) : ∀ a, (![s.val] : Fin 1 → Nat) a + S1.size a ≤ S2.size a := by revert s; decide
theorem inb_s8 (k : Fin 8) : ∀ a, (![k.val] : Fin 1 → Nat) a + S1.size a ≤ S8.size a := by revert k; decide

/-- Rows `1024 k … 1024 k + 1023` of the device's block of `x`. -/
abbrev xSl (k : Fin 8) : Memref sig .tc .hbm S1024x1024 .f32 :=
  xM.slice (Rect.unit (s := S8192x1024) ![1024 * k.val, 0] S1024x1024.size (inb_x k)) (fun _ => rfl)
/-- Staging slot `s`. -/
abbrev gSl (s : Fin 2) : Memref sig .tc .vmem S1024x1024 .f32 :=
  (gM.slice (Rect.unit (s := S2x1024x1024) ![s.val, 0, 0] S1x1024x1024.size (inb_g s)) (fun _ => rfl)).squeeze S1024x1024 squeezes_S1x1024x1024_S1024x1024
/-- The rows of a result array that chunk `k` of SENDER `d`'s block goes to: `8192 (d / 8) + 1024 k` onwards. -/
abbrev oSl (d : Dev nD) (k : Fin 8) : Memref sig .tc .hbm S1024x1024 .f32 :=
  oM.slice (Rect.unit (s := S16384x1024) (k0_off1 d (BitVec.ofNat 32 (1024 * k.val))) S1024x1024.size (k0_off1_inb d k)) (fun _ => rfl)

/-- The slot chunk `k` goes through. -/
def slot (k : Fin 8) : Fin 2 := ⟨k.val % 2, Nat.mod_lt _ (by decide)⟩

/-! ## The semaphores and cells -/

abbrev barS : Sem sig := (SemArray.scalar (sig.barrier 0 rfl) : Sems sig S_).sem
abbrev copyS (s : Fin 2) : DmaSem sig := ((cc0_scratch1.slice (Rect.unit (s := S2) ![s.val] S1.size (inb_s2 s))).squeeze S_ squeezes_S1_S_).sem
abbrev lclS (s : Fin 2) : DmaSem sig := ((cc0_scratch2.slice (Rect.unit (s := S2) ![s.val] S1.size (inb_s2 s))).squeeze S_ squeezes_S1_S_).sem
abbrev sendS (k : Fin 8) : DmaSem sig := ((cc0_scratch3.slice (Rect.unit (s := S8) ![k.val] S1.size (inb_s8 k))).squeeze S_ squeezes_S1_S_).sem
abbrev recvS (k : Fin 8) : DmaSem sig := ((cc0_scratch4.slice (Rect.unit (s := S8) ![k.val] S1.size (inb_s8 k))).squeeze S_ squeezes_S1_S_).sem

theorem copyS_val (s : Fin 2) : (copyS s).val = s.val := by revert s; decide
theorem lclS_val (s : Fin 2) : (lclS s).val = 2 + s.val := by revert s; decide
theorem sendS_val (k : Fin 8) : (sendS k).val = 4 + k.val := by revert k; decide
theorem recvS_val (k : Fin 8) : (recvS k).val = 12 + k.val := by revert k; decide

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- What a transfer of one chunk credits. -/
abbrev Nc : ℕ := (gSl 0).view.dmaCredit
theorem Nc_pos : 0 < Nc := View.dmaCredit_pos _ (by decide)

/-! ## Contents -/

variable (m : (ℓ : Loc nD τ sig) → Buf (Elt F) ℓ)

/-- Device `c`'s block of `x`, as launched. -/
def X (c : Dev nD) : S8192x1024.Idx → Elt F .f32 := m ((c : Thread nD τ).loc main_arg0)
/-- Device `c`'s result array, as launched (arbitrary). -/
def O0 (c : Dev nD) : S16384x1024.Idx → Elt F .f32 := m ((c : Thread nD τ).loc main_v1)

/-- A staging buffer holding chunk `k` of the device's block (in both slots: only slot `k % 2` is ever held at it). -/
def gC (c : Dev nD) (k : Fin 8) : S2x1024x1024.Idx → Elt F .f32 := fun i =>
  X m c (ValueIdx.ix2 (n0 := 8192) (n1 := 1024) ⟨1024 * k.val + (i 1).val, by have h : (i 1).val < 1024 := (i 1).isLt; have := k.isLt; omega⟩ (i 2))

/-- The gathered array on device `c`: rows `8192 j …` hold the block of the pair's member whose first mesh coordinate is `j`. -/
def outF (c : Dev nD) : S16384x1024.Idx → Elt F .f32 := fun i =>
  if (i 0).val / 8192 = c.val / 8
  then X m c (ValueIdx.ix2 (n0 := 8192) (n1 := 1024) ⟨(i 0).val % 8192, Nat.mod_lt _ (by decide)⟩ (i 1))
  else X m (peer c) (ValueIdx.ix2 (n0 := 8192) (n1 := 1024) ⟨(i 0).val % 8192, Nat.mod_lt _ (by decide)⟩ (i 1))

/-! ## The schedule -/

/-- What a semaphore is for. -/
inductive Role | bar | send (k : Fin 8) | recv (k : Fin 8) | other
  deriving DecidableEq

def role : SemLoc sig → Role
  | .reg s => if s = barS then .bar else .other
  | .dma q => if h : 4 ≤ q.val ∧ q.val < 12 then .send ⟨q.val - 4, by omega⟩
              else if h' : 12 ≤ q.val ∧ q.val < 20 then .recv ⟨q.val - 12, by omega⟩ else .other

theorem role_bar : role (.reg barS) = .bar := by decide
theorem role_send (k : Fin 8) : role (.dma (sendS k)) = .send k := by revert k; decide
theorem role_recv (k : Fin 8) : role (.dma (recvS k)) = .recv k := by revert k; decide

/-- One unit on `c`'s barrier, from its partner `peer c`: the partner is inside the kernel, and lends `c` the rows of ITS
    result array that `c`'s eight chunks go to, as launched. -/
def barPay (c : Dev nD) : sProp 𝕄 :=
  bigSep Finset.univ fun k : Fin 8 =>
    ((oSl c k).view.loc (peer c : Thread nD τ) ↦[(oSl c k).view.set]{fullShare} (O0 m (peer c)) : sProp 𝕄)
/-- Chunk `k` has left slot `k % 2` of `c`'s staging buffer for the partner: the half share lent comes back. -/
def sendPay (c : Dev nD) (k : Fin 8) : sProp 𝕄 :=
  (gSl (slot k)).view.loc (c : Thread nD τ) ↦[(gSl (slot k)).view.set]{fullShare.left} (gC m c k)
/-- Chunk `k` of the partner's block has landed in `c`'s result array: those rows hold the gathered array's. -/
def recvPay (c : Dev nD) (k : Fin 8) : sProp 𝕄 :=
  (oSl (peer c) k).view.loc (c : Thread nD τ) ↦[(oSl (peer c) k).view.set]{fullShare} (outF m c)

/-- One round, one duty a cell: the barrier's unit; a send or receive cell's chunk credit. -/
def Rd : Rounds.Schedule (GSem nD τ sig) Unit 𝕄 where
  duties g r := if r = 0 ∧ g.1.2 = .tc ∧ role g.2 ≠ .other then {()} else ∅
  amount g _ _ := if role g.2 = .bar then 1 else Nc
  payload g _ _ := match role g.2 with
    | .bar => barPay m g.1.1
    | .send k => sendPay m g.1.1 k
    | .recv k => recvPay m g.1.1 k
    | .other => iprop(emp)
  amount_pos g _ _ _ := by
    by_cases h : role g.2 = .bar
    · rw [if_pos h]; exact Nat.one_pos
    · rw [if_neg h]; exact Nc_pos

instance Rd_payload_storable (g : GSem nD τ sig) (r : ℕ) (d : Unit) :
    BI.Storable (upEmb : UEmb _ 𝕄) ((Rd (F := F) m).payload g r d) := by
  show BI.Storable upEmb (match role g.2 with
    | .bar => barPay m g.1.1 | .send k => sendPay m g.1.1 k | .recv k => recvPay m g.1.1 k | .other => iprop(emp))
  unfold barPay sendPay recvPay
  split <;> infer_instance

section Sched
variable (c : Dev nD) (k : Fin 8)

omit [FloatOps F] in
theorem duties_bar : (Rd (F := F) m).duties (barCell c) 0 = {()} := by
  dsimp only [Rd]; exact if_pos ⟨rfl, rfl, by rw [role_bar]; exact fun h => by cases h⟩
omit [FloatOps F] in
theorem duties_send : (Rd (F := F) m).duties (sendCell c k) 0 = {()} := by
  dsimp only [Rd]; exact if_pos ⟨rfl, rfl, by rw [role_send]; exact fun h => by cases h⟩
omit [FloatOps F] in
theorem duties_recv : (Rd (F := F) m).duties (recvCell c k) 0 = {()} := by
  dsimp only [Rd]; exact if_pos ⟨rfl, rfl, by rw [role_recv]; exact fun h => by cases h⟩
omit [FloatOps F] in
theorem duties_later (g : GSem nD τ sig) : ∀ r, 1 ≤ r → (Rd (F := F) m).duties g r = ∅ :=
  fun r hr => by dsimp only [Rd]; rw [if_neg fun h => by omega]

omit [FloatOps F] in
theorem amount_bar (d : Unit) : (Rd (F := F) m).amount (barCell c) 0 d = 1 := by dsimp only [Rd]; rw [role_bar]; rfl
omit [FloatOps F] in
theorem amount_send (d : Unit) : (Rd (F := F) m).amount (sendCell c k) 0 d = Nc := by
  dsimp only [Rd]; rw [role_send]; exact if_neg (fun h => by cases h)
omit [FloatOps F] in
theorem amount_recv (d : Unit) : (Rd (F := F) m).amount (recvCell c k) 0 d = Nc := by
  dsimp only [Rd]; rw [role_recv]; exact if_neg (fun h => by cases h)

omit [FloatOps F] in
theorem expect_bar : (Rd (F := F) m).expect (barCell c) 0 = 1 := by
  unfold Schedule.expect Schedule.amountOf; rw [duties_bar, Finset.sum_singleton, amount_bar]
omit [FloatOps F] in
theorem expect_send : (Rd (F := F) m).expect (sendCell c k) 0 = Nc := by
  unfold Schedule.expect Schedule.amountOf; rw [duties_send, Finset.sum_singleton, amount_send]
omit [FloatOps F] in
theorem expect_recv : (Rd (F := F) m).expect (recvCell c k) 0 = Nc := by
  unfold Schedule.expect Schedule.amountOf; rw [duties_recv, Finset.sum_singleton, amount_recv]

omit [FloatOps F] in
theorem payload_bar (d : Unit) : (Rd (F := F) m).payload (barCell c) 0 d = barPay m c := by dsimp only [Rd]; rw [role_bar]
omit [FloatOps F] in
theorem payload_send (d : Unit) : (Rd (F := F) m).payload (sendCell c k) 0 d = sendPay m c k := by dsimp only [Rd]; rw [role_send]
omit [FloatOps F] in
theorem payload_recv (d : Unit) : (Rd (F := F) m).payload (recvCell c k) 0 d = recvPay m c k := by dsimp only [Rd]; rw [role_recv]

omit [FloatOps F] in
theorem rest_bar : bigSep ((Rd (F := F) m).duties (barCell c) 0 \ ∅) (fun d => (Rd (F := F) m).payload (barCell c) 0 d) = barPay m c := by
  rw [Finset.sdiff_empty, duties_bar, bigSep_singleton, payload_bar]
omit [FloatOps F] in
theorem rest_send : bigSep ((Rd (F := F) m).duties (sendCell c k) 0 \ ∅) (fun d => (Rd (F := F) m).payload (sendCell c k) 0 d) = sendPay m c k := by
  rw [Finset.sdiff_empty, duties_send, bigSep_singleton, payload_send]
omit [FloatOps F] in
theorem rest_recv : bigSep ((Rd (F := F) m).duties (recvCell c k) 0 \ ∅) (fun d => (Rd (F := F) m).payload (recvCell c k) 0 d) = recvPay m c k := by
  rw [Finset.sdiff_empty, duties_recv, bigSep_singleton, payload_recv]

end Sched

/-! ## What each device owes at launch; the levels -/

/-- The receive credits of the partner's cells `8 - n … 7`, the highest chunk first, so that sending chunk `k` peels the last summand. -/
def Orec (c : Dev nD) : ℕ → CellTallies nD τ sig Unit
  | 0 => 0
  | n + 1 => Orec c n + tallyAt (recvCell (peer c) ⟨(7 - n) % 8, Nat.mod_lt _ (by decide)⟩) () Nc
/-- Device `c` owes its partner eight chunk credits and one barrier unit (the signal comes first, so it is the last summand). -/
def O₀ (c : Dev nD) : CellTallies nD τ sig Unit := Orec c 8 + tallyAt (barCell (peer c)) () 1

/-- Everything in `O` is owed to a receive cell of the partner. -/
def OnlyRecv (c : Dev nD) (O : CellTallies nD τ sig Unit) : Prop := ∀ g u, 0 < O g u → ∃ k, g = recvCell (peer c) k

theorem onlyRecv_Orec (c : Dev nD) : ∀ n, OnlyRecv c (Orec c n)
  | 0 => fun g u h => absurd h (by simp [Orec])
  | n + 1 => fun g u h => by
    unfold Orec at h
    rw [Pi.add_apply, Finsupp.add_apply, tallyAt_apply] at h
    by_cases hg : g = recvCell (peer c) ⟨(7 - n) % 8, Nat.mod_lt _ (by decide)⟩ ∧ u = ()
    · exact ⟨_, hg.1⟩
    · rw [if_neg hg, Nat.add_zero] at h; exact onlyRecv_Orec c n g u h

def L (g : GSem nD τ sig) : Finset Unit := if g.1.2 = .tc then {()} else ∅
/-- Barrier cells at 1, receive cells at 2, everything else (staging and local cells, send cells) at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device owing only receive credits may wait on any of its cells that is no receive cell. -/
theorem mayWait_low (c : Dev nD) (sm : SemLoc sig) (hsm : ∀ k, role sm ≠ .recv k) (O : CellTallies nD τ sig Unit) (hO : OnlyRecv c O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨k, rfl⟩ := hO g u hg; rw [L_tc]; exact Finset.mem_singleton_self _)
    (fun p hp => by
      rw [Finset.mem_singleton.mp hp]; dsimp only [lv]
      cases hr : role sm with
      | bar => exact le_rfl
      | recv k => exact absurd hr (hsm k)
      | send k => exact Nat.zero_le _
      | other => exact Nat.zero_le _)
    (fun g u hg => by obtain ⟨k, rfl⟩ := hO g u hg; dsimp only [lv]; rw [role_recv]; exact Nat.one_lt_two)

/-! ## The cells, indexed; what every device reads -/

/-- The exchange's seventeen cells of a device: its barrier, its eight send cells, its eight receive cells. -/
def csem (j : Fin 17) : SemLoc sig :=
  if h0 : j.val = 0 then .reg barS
  else if h1 : j.val ≤ 8 then .dma (sendS ⟨j.val - 1, by omega⟩)
  else .dma (recvS ⟨j.val - 9, by omega⟩)
abbrev kcell (ck : Dev nD × Fin 17) : GSem nD τ sig := ((ck.1 : Thread nD τ), csem ck.2)
def jBar : Fin 17 := 0
def jSend (k : Fin 8) : Fin 17 := ⟨1 + k.val, by omega⟩
def jRecv (k : Fin 8) : Fin 17 := ⟨9 + k.val, by omega⟩
theorem csem_bar : csem jBar = .reg barS := by decide
theorem csem_send (k : Fin 8) : csem (jSend k) = .dma (sendS k) := by revert k; decide
theorem csem_recv (k : Fin 8) : csem (jRecv k) = .dma (recvS k) := by revert k; decide

/-- Every cell's invariant, under the names `K`, and that round 0 of every cell is reached. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-- What every step reads: the records and the levels. -/
def ctx (K : Dev nD × Fin 17 → ℕ) : sProp 𝕄 := iprop(records m K ∗ levAts L lv)

instance ctx_persistent (K : Dev nD × Fin 17 → ℕ) : BI.Persistent (ctx m K) := by unfold ctx; infer_instance

section Ctx
variable (K : Dev nD × Fin 17 → ℕ) (c : Dev nD) (k : Fin 8)

omit [FloatOps F] in
theorem ctx_inv (ck : Dev nD × Fin 17) : ctx m K ⊢ cellInv ER (Rd m) (K ck) (kcell ck) := by
  have h1 : (bigSep Finset.univ fun ck : Dev nD × Fin 17 => (cellInv ER (Rd m) (K ck) (kcell ck) : sProp 𝕄)) ⊢ cellInv ER (Rd m) (K ck) (kcell ck) :=
    bigSep_elim (Finset.mem_univ ck)
  unfold ctx records; iintro ⟨⟨HI, -⟩, -⟩; iapply h1; iexact HI
omit [FloatOps F] in
theorem ctx_reached (ck : Dev nD × Fin 17) : ctx m K ⊢ reached ER (kcell ck) 0 := by
  have h1 : (bigSep Finset.univ fun ck : Dev nD × Fin 17 => (reached ER (kcell ck) 0 : sProp 𝕄)) ⊢ reached ER (kcell ck) 0 :=
    bigSep_elim (Finset.mem_univ ck)
  unfold ctx records; iintro ⟨⟨-, HR⟩, -⟩; iapply h1; iexact HR
omit [FloatOps F] in
theorem ctx_lev : ctx m K ⊢ (levAts L lv : sProp 𝕄) := by
  unfold ctx; iintro ⟨-, H⟩; iexact H

omit [FloatOps F] in
theorem ctx_inv_bar : ctx m K ⊢ cellInv ER (Rd m) (K (c, jBar)) (barCell c) := by
  have h := ctx_inv m K (c, jBar); unfold kcell at h; rw [csem_bar] at h; exact h
omit [FloatOps F] in
theorem ctx_inv_send : ctx m K ⊢ cellInv ER (Rd m) (K (c, jSend k)) (sendCell c k) := by
  have h := ctx_inv m K (c, jSend k); unfold kcell at h; rw [csem_send] at h; exact h
omit [FloatOps F] in
theorem ctx_inv_recv : ctx m K ⊢ cellInv ER (Rd m) (K (c, jRecv k)) (recvCell c k) := by
  have h := ctx_inv m K (c, jRecv k); unfold kcell at h; rw [csem_recv] at h; exact h
omit [FloatOps F] in
theorem ctx_reached_bar : ctx m K ⊢ reached ER (barCell c) 0 := by
  have h := ctx_reached m K (c, jBar); unfold kcell at h; rw [csem_bar] at h; exact h
omit [FloatOps F] in
theorem ctx_reached_send : ctx m K ⊢ reached ER (sendCell c k) 0 := by
  have h := ctx_reached m K (c, jSend k); unfold kcell at h; rw [csem_send] at h; exact h
omit [FloatOps F] in
theorem ctx_reached_recv : ctx m K ⊢ reached ER (recvCell c k) 0 := by
  have h := ctx_reached m K (c, jRecv k); unfold kcell at h; rw [csem_recv] at h; exact h

end Ctx

/-! ## What a device holds, piece by piece -/

abbrev EC : UEmb Counters (MT nD τ sig Unit (Elt F) ℕ UU ℕ) := countersEmb

/-- In device `c`'s result array, the rows chunk `k` of sender `d`'s block goes to, at contents `f`. -/
def rows (c d : Dev nD) (k : Fin 8) (f : S16384x1024.Idx → Elt F .f32) : sProp 𝕄 :=
  (oSl d k).view.loc (c : Thread nD τ) ↦[(oSl d k).view.set]{fullShare} f
/-- Staging slot `s` of device `c` at share `q` and contents `f`. -/
def slotAt (c : Dev nD) (s : Fin 2) (q : PosShare TreeShare) (f : S2x1024x1024.Idx → Elt F .f32) : sProp 𝕄 :=
  (gSl s).view.loc (c : Thread nD τ) ↦[(gSl s).view.set]{q} f
/-- Device `c`'s block of `x`: whole, chunk `k` of it, and all but chunk `k`, at share `q`. -/
def xAt (c : Dev nD) (q : PosShare TreeShare) : sProp 𝕄 := ((c : Thread nD τ).loc main_arg0) ↦{q} X m c
def xChunk (c : Dev nD) (k : Fin 8) (q : PosShare TreeShare) : sProp 𝕄 := (xSl k).view.loc (c : Thread nD τ) ↦[(xSl k).view.set]{q} X m c
def xRest (c : Dev nD) (k : Fin 8) (q : PosShare TreeShare) : sProp 𝕄 :=
  (xSl k).view.loc (c : Thread nD τ) ↦[Finset.univ \ (xSl k).view.set]{q} X m c

/-- The copy of chunk `k` of `x` into its slot, in flight: at its wait the slot holds the chunk, and the chunk's share of `x` is back. -/
def copyFlight (c : Dev nD) (k : Fin 8) (q : PosShare TreeShare) : sProp 𝕄 :=
  Transfers.Flight EC (c : Thread nD τ) (.dma (copyS (slot k))) () Nc iprop(slotAt c (slot k) fullShare (gC m c k) ∗ xChunk m c k q)
/-- The copy of chunk `k` from its slot into the device's own result rows, in flight. -/
def lclFlight (c : Dev nD) (k : Fin 8) : sProp 𝕄 :=
  Transfers.Flight EC (c : Thread nD τ) (.dma (lclS (slot k))) () Nc iprop(rows c c k (outF m c) ∗ slotAt c (slot k) fullShare.right (gC m c k))

/-- Chunk `k` pushed and not yet drained: the send credit, the send cell's position, the local copy in flight. -/
def Pending (c : Dev nD) (k : Fin 8) : sProp 𝕄 :=
  iprop(cred (tallyAt (sendCell c k) () Nc) ∗ atPos ER (sendCell c k) 0 ∅ 0 ∗ lclFlight m c k)
/-- Chunk `k` drained: the device's own rows hold it, the send cell is closed. -/
def Done (c : Dev nD) (k : Fin 8) : sProp 𝕄 := iprop(rows c c k (outF m c) ∗ semVal (sendCell c k) 0)
/-- The two duty tokens chunk `k`'s transfer to the partner pays with. -/
def Tok (c : Dev nD) (k : Fin 8) : sProp 𝕄 := iprop(dutyTok ER (sendCell c k) 0 () ∗ dutyTok ER (recvCell (peer c) k) 0 ())
/-- The rows chunk `k` goes to, here and on the partner, as launched. -/
def Rows (c : Dev nD) (k : Fin 8) : sProp 𝕄 := iprop(rows c c k (O0 m c) ∗ rows (peer c) c k (O0 m (peer c)))
/-- What the device owes, whatever waits it has recorded. -/
def owesX (c : Dev nD) (O : CellTallies nD τ sig Unit) : sProp 𝕄 := iprop(∃ W, owes (c : Thread nD τ) O W)

/-! ## The proof data -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The exchange's ghost state device `c` starts from (the records apart): its positions on its own seventeen cells, and the
    tokens of the duties IT pays — its partner's barrier unit, and for each chunk its own send cell's and its partner's
    receive cell's. -/
def linear (c : Dev nD) : sProp 𝕄 :=
  iprop(atPos ER (barCell c) 0 ∅ 0 ∗ dutyTok ER (barCell (peer c)) 0 ()
    ∗ (bigSep Finset.univ fun k : Fin 8 => iprop(atPos ER (sendCell c k) 0 ∅ 0 ∗ Tok c k))
    ∗ (bigSep Finset.univ fun k : Fin 8 => atPos ER (recvCell c k) 0 ∅ 0))

/-- The credit the launch deals device `c`: its barrier's unit, its eight receive cells' chunk credits. -/
def creds (c : Dev nD) : sProp 𝕄 :=
  iprop(cred (tallyAt (barCell c) () 1) ∗ bigSep Finset.univ fun k : Fin 8 => cred (tallyAt (recvCell c k) () Nc))

/-- The four local cells' counters at zero. -/
def localSems (c : Dev nD) : sProp 𝕄 :=
  iprop(semVal ((c : Thread nD τ), SemLoc.dma (copyS 0)) 0 ∗ semVal ((c : Thread nD τ), SemLoc.dma (copyS 1)) 0
    ∗ semVal ((c : Thread nD τ), SemLoc.dma (lclS 0)) 0 ∗ semVal ((c : Thread nD τ), SemLoc.dma (lclS 1)) 0)

/-- What the launch hands device `c` outside the kernel's scoped storage. -/
def start (c : Dev nD) : sProp 𝕄 :=
  iprop((∃ K, ctx m K ∗ linear c) ∗ creds c ∗ localSems c ∗ xAt m c fullShare
    ∗ (((c : Thread nD τ).loc main_v1) ↦{fullShare} O0 m c))

def stageAny (c : Dev nD) : sProp 𝕄 := iprop(∃ f : S2x1024x1024.Idx → Elt F .f32, ((c : Thread nD τ).loc cc0_scratch0) ↦{fullShare} f)

def Φ₀ (c : Dev nD) : sProp 𝕄 := iprop(start m c ∗ stageAny c)
/-- After the body: `x` as launched, the result array gathered, the staging buffer at anything, all twenty own counters at zero. -/
def Φ₁ (c : Dev nD) : sProp 𝕄 :=
  iprop(xAt m c fullShare ∗ (((c : Thread nD τ).loc main_v1) ↦{fullShare} outF m c) ∗ stageAny c ∗ localSems c
    ∗ (bigSep Finset.univ fun k : Fin 8 => semVal (sendCell c k) 0) ∗ (bigSep Finset.univ fun k : Fin 8 => semVal (recvCell c k) 0))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.Values.lean ====
import proofs.«900681_g7700000000000682_dist_ag_v7x_xyz2x2x4_x_m8192_n1024_f32_1_alg».proof.Proof.Proto
import Idealize.ShloMosaic.Lib.Pipeline.Value
import Idealize.ShloMosaic.Lib.Layout

/-!
# Values and pieces

The staging buffer is its two slots; a result array is the sixteen row blocks the pair's sixteen chunks go to; a piece
written whole by a chunk's transfer holds what the canonical contents hold there; and the gathered array is the whole `x`
when each device's block is its part of it.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ) (c : Dev nD)

/-! ## Where the pieces sit, and which elements each holds -/

namespace Pieces

/-- Chunk `k`'s rows of `x`: local index `y` sits at row `1024 k + y 0`. -/
theorem xSl_emb (k : Fin 8) (y : S1024x1024.Idx) :
    (xSl k).view.emb y
      = ValueIdx.ix2 (n0 := 8192) (n1 := 1024)
          ⟨1024 * k.val + (y 0).val, by have h : (y 0).val < 1024 := (y 0).isLt; have := k.isLt; omega⟩ (y 1) := by
  refine funext fun (a : Fin 2) => Fin.ext ?_
  match a with
  | ⟨0, _⟩ => show 1024 * k.val + 1 * (y 0).val = 1024 * k.val + (y 0).val; rw [Nat.one_mul]
  | ⟨1, _⟩ => show 0 + 1 * (y 1).val = (y 1).val; rw [Nat.one_mul, Nat.zero_add]

/-- Staging slot `s`: local index `y` sits at `(s, y 0, y 1)` (the squeeze puts the unit axis back in front, the slice adds `s` there). -/
theorem gSl_emb (s : Fin 2) (y : S1024x1024.Idx) :
    (gSl s).view.emb y = ValueIdx.ix3 (n0 := 2) (n1 := 1024) (n2 := 1024) s (y 0) (y 1) := by
  have e := Shape.reshapeEquiv_cons_one (n := 2) (d := ![1024, 1024]) squeezes_S1x1024x1024_S1024x1024.numel_eq y
  have e2 : (gSl s).view.emb y = _ :=
    congrArg (Rect.unit (s := S2x1024x1024) ![s.val, 0, 0] S1x1024x1024.size (inb_g s)).emb e
  refine e2.trans (funext fun (a : Fin 3) => Fin.ext ?_)
  match a with
  | ⟨0, _⟩ => show s.val + 1 * 0 = s.val; rw [Nat.mul_zero, Nat.add_zero]
  | ⟨1, _⟩ => show 0 + 1 * (y 0).val = (y 0).val; rw [Nat.one_mul, Nat.zero_add]
  | ⟨2, _⟩ => show 0 + 1 * (y 1).val = (y 1).val; rw [Nat.one_mul, Nat.zero_add]

/-- The rows chunk `k` of sender `d` goes to: local index `y` sits at row `8192 (d / 8) + 1024 k + y 0`. -/
theorem oSl_emb (d : Dev nD) (k : Fin 8) (y : S1024x1024.Idx) :
    (oSl d k).view.emb y
      = ValueIdx.ix2 (n0 := 16384) (n1 := 1024)
          ⟨8192 * (d.val / 8) + 1024 * k.val + (y 0).val, by
            have h : (y 0).val < 1024 := (y 0).isLt; have := k.isLt; have hd : d.val < 16 := d.isLt; omega⟩ (y 1) := by
  have hoff := Gen.k0_off1_eq d k
  refine funext fun (a : Fin 2) => Fin.ext ?_
  match a with
  | ⟨0, _⟩ =>
    show (k0_off1 d (BitVec.ofNat 32 (1024 * k.val))) 0 + 1 * (y 0).val = 8192 * (d.val / 8) + 1024 * k.val + (y 0).val
    rw [hoff, Nat.one_mul]; rfl
  | ⟨1, _⟩ =>
    show (k0_off1 d (BitVec.ofNat 32 (1024 * k.val))) 1 + 1 * (y 1).val = (y 1).val
    rw [hoff, Nat.one_mul]; exact Nat.zero_add _

/-- A block's element depends on its row only through the row's number. -/
theorem X_congr (d : Dev nD) {a a' : Fin 8192} (b : Fin 1024) (h : a.val = a'.val) :
    X m d (ValueIdx.ix2 a b) = X m d (ValueIdx.ix2 a' b) := by rw [Fin.ext h]

omit [FloatOps F] in
/-- The partner's number. -/
theorem peer_val (d : Dev nD) : (peer d).val = (d.val + 8) % 16 := rfl

/-- The gathered array at a row of the device's own half. -/
theorem outF_own (d : Dev nD) (i : S16384x1024.Idx) (h : (i 0).val / 8192 = d.val / 8) :
    outF m d i = X m d (ValueIdx.ix2 (n0 := 8192) (n1 := 1024) ⟨(i 0).val % 8192, Nat.mod_lt _ (by decide)⟩ (i 1)) := if_pos h
/-- The gathered array at a row of the partner's half. -/
theorem outF_other (d : Dev nD) (i : S16384x1024.Idx) (h : ¬ (i 0).val / 8192 = d.val / 8) :
    outF m d i = X m (peer d) (ValueIdx.ix2 (n0 := 8192) (n1 := 1024) ⟨(i 0).val % 8192, Nat.mod_lt _ (by decide)⟩ (i 1)) := if_neg h

omit [FloatOps F] in
/-- An element of the staging buffer is in slot `s` exactly when its first coordinate is `s`. -/
theorem mem_gSl (s : Fin 2) (i : S2x1024x1024.Idx) : i ∈ (gSl s).view.set ↔ (i 0).val = s.val := by
  have e : (gSl s).view.set = (Rect.unit (s := S2x1024x1024) ![s.val, 0, 0] S1x1024x1024.size (inb_g s)).set :=
    (View.set_reshape _ _).trans (View.set_slice_whole cc0_scratch0 _)
  rw [e, Rect.mem_set_unit]
  have h1 : (i 1).val < 1024 := (i 1).isLt
  have h2 : (i 2).val < 1024 := (i 2).isLt
  constructor
  · intro h
    have h0 : s.val ≤ (i 0).val ∧ (i 0).val < s.val + 1 := h (0 : Fin 3)
    omega
  · intro h (a : Fin 3)
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

omit [FloatOps F] in
/-- An element of a result array is in the rows chunk `k` of sender `d` goes to exactly when its row is one of the
    1024 rows from `8192 (d / 8) + 1024 k`. -/
theorem mem_oSl (d : Dev nD) (k : Fin 8) (i : S16384x1024.Idx) :
    i ∈ (oSl d k).view.set
      ↔ 8192 * (d.val / 8) + 1024 * k.val ≤ (i 0).val ∧ (i 0).val < 8192 * (d.val / 8) + 1024 * k.val + 1024 := by
  have e : (oSl d k).view.set
      = (Rect.unit (s := S16384x1024) (k0_off1 d (BitVec.ofNat 32 (1024 * k.val))) S1024x1024.size (k0_off1_inb d k)).set :=
    View.set_slice_whole main_v1 _
  rw [e, Rect.mem_set_unit, Gen.k0_off1_eq d k]
  have h1 : (i 1).val < 1024 := (i 1).isLt
  constructor
  · intro h
    exact h (0 : Fin 2)
  · intro h (a : Fin 2)
    match a with
    | ⟨0, _⟩ => exact h
    | ⟨1, _⟩ => show 0 ≤ (i 1).val ∧ (i 1).val < 0 + 1024; omega

omit [FloatOps F] in
/-- The two slots are apart. -/
theorem gSl_disjoint : Disjoint (gSl 0).view.set (gSl 1).view.set := by
  rw [Finset.disjoint_left]
  intro i h0 h1
  have a0 : (i 0).val = 0 := (mem_gSl 0 i).mp h0
  have a1 : (i 0).val = 1 := (mem_gSl 1 i).mp h1
  omega

omit [FloatOps F] in
/-- Every element of the staging buffer is in one of the two slots. -/
theorem gSl_cover : (gSl 0).view.set ∪ (gSl 1).view.set = Finset.univ := by
  ext i
  simp only [Finset.mem_union, Finset.mem_univ, iff_true]
  have h0 : (i 0).val < 2 := (i 0).isLt
  by_cases h : (i 0).val = 0
  · exact Or.inl ((mem_gSl 0 i).mpr h)
  · exact Or.inr ((mem_gSl 1 i).mpr (show (i 0).val = 1 by omega))

omit [FloatOps F] in
/-- The rows of two different chunks of one sender are apart. -/
theorem oSl_disjoint (d : Dev nD) (k k' : Fin 8) (h : k ≠ k') : Disjoint (oSl d k).view.set (oSl d k').view.set := by
  rw [Finset.disjoint_left]
  intro i h0 h1
  have a0 := (mem_oSl d k i).mp h0
  have a1 := (mem_oSl d k' i).mp h1
  have : k.val ≠ k'.val := fun e => h (Fin.ext e)
  omega

/-- The elements of a result array in the eight chunk row blocks of sender `d`. -/
def half (d : Dev nD) : Finset S16384x1024.Idx :=
  Finset.univ.biUnion fun k : Fin 8 => ((oSl d k).view.set : Finset S16384x1024.Idx)

omit [FloatOps F] in
/-- They are the rows of the half of the array that `d`'s first mesh coordinate names. -/
theorem mem_half (d : Dev nD) (i : S16384x1024.Idx) : i ∈ half d ↔ (i 0).val / 8192 = d.val / 8 := by
  have hi : (i 0).val < 16384 := (i 0).isLt
  have hd : d.val < 16 := d.isLt
  unfold half
  rw [Finset.mem_biUnion]
  constructor
  · rintro ⟨k, -, hk⟩
    have a0 := (mem_oSl d k i).mp hk
    have := k.isLt
    omega
  · intro h
    have hk : (i 0).val % 8192 / 1024 < 8 := by omega
    refine ⟨⟨(i 0).val % 8192 / 1024, hk⟩, Finset.mem_univ _, (mem_oSl d _ i).mpr ?_⟩
    show 8192 * (d.val / 8) + 1024 * ((i 0).val % 8192 / 1024) ≤ (i 0).val
      ∧ (i 0).val < 8192 * (d.val / 8) + 1024 * ((i 0).val % 8192 / 1024) + 1024
    omega

omit [FloatOps F] in
/-- Senders in different halves write apart. -/
theorem half_disjoint (d d' : Dev nD) (h : d.val / 8 ≠ d'.val / 8) : Disjoint (half d) (half d') := by
  rw [Finset.disjoint_left]
  intro i h0 h1
  exact h (((mem_half d i).mp h0).symm.trans ((mem_half d' i).mp h1))

omit [FloatOps F] in
/-- A device's half and its partner's are the whole array. -/
theorem half_cover : half c ∪ half (peer c) = Finset.univ := by
  ext i
  simp only [Finset.mem_union, Finset.mem_univ, iff_true]
  have hi : (i 0).val < 16384 := (i 0).isLt
  have hc : c.val < 16 := c.isLt
  by_cases hj : (i 0).val / 8192 = c.val / 8
  · exact Or.inl ((mem_half c i).mpr hj)
  · exact Or.inr ((mem_half (peer c) i).mpr (by rw [peer_val]; omega))

omit [FloatOps F] in
/-- A device and its partner are in different halves. -/
theorem peer_half (d : Dev nD) : d.val / 8 ≠ (peer d).val / 8 := by
  have hd : d.val < 16 := d.isLt
  rw [peer_val]; omega

omit [FloatOps F] in
/-- In device `c`'s result array, the eight chunk row blocks of sender `d`, held together. -/
theorem rows_half (d : Dev nD) (f : S16384x1024.Idx → Elt F .f32) :
    ((((c : Thread nD τ).loc main_v1) ↦[half d]{fullShare} f : sProp 𝕄)) = bigSep Finset.univ fun k : Fin 8 => rows c d k f :=
  pointsTo_biUnion (ℓ := (c : Thread nD τ).loc main_v1) (q := fullShare) (f := f) Finset.univ
    (fun k : Fin 8 => ((oSl d k).view.set : Finset S16384x1024.Idx)) (fun k _ k' _ h => oSl_disjoint d k k' h)

end Pieces

open Pieces

/-! ## Values at the pieces (restating a written piece at the canonical contents) -/

/-- A slot written whole with chunk `k` of `x` holds, on the slot, what `gC` says. -/
theorem slot_written (k : Fin 8) (g : S2x1024x1024.Idx → Elt F .f32) :
    ∀ i ∈ (gSl (slot k)).view.set, (gSl (slot k)).view.write (Elt F) g ((xSl k).view.read (Elt F) (X m c)) Finset.univ i = gC m c k i := by
  intro i hi
  obtain ⟨y, rfl⟩ := View.exists_emb_of_mem_set (gSl (slot k)).view hi
  rw [View.write_emb_of_mem _ _ (Finset.mem_univ y), View.read_apply, xSl_emb, gSl_emb]
  rfl

/-- The rows chunk `k` of `c`'s block goes to, written whole from the slot holding the chunk, hold what the gathered
    array holds there, on `c` and on its partner. -/
theorem rows_written (k : Fin 8) (d : Dev nD) (hd : d = c ∨ d = peer c) (f : S16384x1024.Idx → Elt F .f32) :
    ∀ i ∈ (oSl c k).view.set, (oSl c k).view.write (Elt F) f ((gSl (slot k)).view.read (Elt F) (gC m c k)) Finset.univ i = outF m d i := by
  intro i hi
  obtain ⟨y, rfl⟩ := View.exists_emb_of_mem_set (oSl c k).view hi
  rw [View.write_emb_of_mem _ _ (Finset.mem_univ y), View.read_apply, gSl_emb, oSl_emb]
  have hy : (y 0).val < 1024 := (y 0).isLt
  have hk := k.isLt
  have hc : c.val < 16 := c.isLt
  show X m c (ValueIdx.ix2 (n0 := 8192) (n1 := 1024) ⟨1024 * k.val + (y 0).val, _⟩ (y 1)) = outF m d _
  rcases hd with rfl | rfl
  · refine Eq.trans ?_ (outF_own m d _ (by show (8192 * (d.val / 8) + 1024 * k.val + (y 0).val) / 8192 = d.val / 8; omega)).symm
    exact X_congr m d (y 1) (by show 1024 * k.val + (y 0).val = (8192 * (d.val / 8) + 1024 * k.val + (y 0).val) % 8192; omega)
  · refine Eq.trans ?_ (outF_other m (peer c) _ (by
      show ¬ (8192 * (c.val / 8) + 1024 * k.val + (y 0).val) / 8192 = (peer c).val / 8
      rw [peer_val]; omega)).symm
    rw [peer_peer]
    exact X_congr m c (y 1) (by show 1024 * k.val + (y 0).val = (8192 * (c.val / 8) + 1024 * k.val + (y 0).val) % 8192; omega)

/-! ## The staging buffer is its two slots; a result array is the sixteen chunk row blocks -/

omit [FloatOps F] in
theorem stage_split (f : S2x1024x1024.Idx → Elt F .f32) :
    ((((c : Thread nD τ).loc cc0_scratch0) ↦{fullShare} f : sProp 𝕄)) ⊣⊢ iprop(slotAt c 0 fullShare f ∗ slotAt c 1 fullShare f) := by
  have e : ((((c : Thread nD τ).loc cc0_scratch0) ↦[Finset.univ]{fullShare} f : sProp 𝕄))
      = (((c : Thread nD τ).loc cc0_scratch0) ↦[(gSl 0).view.set ∪ (gSl 1).view.set]{fullShare} f) :=
    congrArg (fun S => ((((c : Thread nD τ).loc cc0_scratch0) ↦[S]{fullShare} f : sProp 𝕄))) gSl_cover.symm
  exact (BiEntails.of_eq e).trans (pointsTo_union gSl_disjoint)

omit [FloatOps F] in
theorem stage_join (f0 f1 : S2x1024x1024.Idx → Elt F .f32) :
    iprop(slotAt c 0 fullShare f0 ∗ slotAt c 1 fullShare f1) ⊢ (stageAny c : sProp 𝕄) := by
  have e : ∀ g : S2x1024x1024.Idx → Elt F .f32,
      ((((c : Thread nD τ).loc cc0_scratch0) ↦[(gSl 0).view.set ∪ (gSl 1).view.set]{fullShare} g : sProp 𝕄))
        = (((c : Thread nD τ).loc cc0_scratch0) ↦[Finset.univ]{fullShare} g) :=
    fun g => congrArg (fun S => ((((c : Thread nD τ).loc cc0_scratch0) ↦[S]{fullShare} g : sProp 𝕄))) gSl_cover
  have j : iprop(slotAt c 0 fullShare f0 ∗ slotAt c 1 fullShare f1)
      ⊢ ((((c : Thread nD τ).loc cc0_scratch0) ↦[(gSl 0).view.set ∪ (gSl 1).view.set]{fullShare} _ : sProp 𝕄)) :=
    pointsTo_join gSl_disjoint
  refine (j.trans (Entails.of_eq (e _))).trans ?_
  unfold stageAny
  iintro H
  iexists _
  iexact H

omit [FloatOps F] in
/-- Device `c`'s result array at contents `f`: the rows of its own eight chunks and the rows of its partner's. -/
theorem out_split (f : S16384x1024.Idx → Elt F .f32) :
    ((((c : Thread nD τ).loc main_v1) ↦{fullShare} f : sProp 𝕄))
      ⊣⊢ iprop((bigSep Finset.univ fun k : Fin 8 => rows c c k f) ∗ (bigSep Finset.univ fun k : Fin 8 => rows c (peer c) k f)) := by
  have e : ((((c : Thread nD τ).loc main_v1) ↦[Finset.univ]{fullShare} f : sProp 𝕄))
      = (((c : Thread nD τ).loc main_v1) ↦[half c ∪ half (peer c)]{fullShare} f) :=
    congrArg (fun S => ((((c : Thread nD τ).loc main_v1) ↦[S]{fullShare} f : sProp 𝕄))) (half_cover c).symm
  rw [← rows_half c c f, ← rows_half c (peer c) f]
  exact (BiEntails.of_eq e).trans (pointsTo_union (half_disjoint c (peer c) (peer_half c)))

/-! ## The gathered array is the whole `x` -/

/-- When every device's block of `x` is its part of one whole array `Xw` (cut along the rows by the first mesh axis), the
    gathered array on every device is `Xw`. -/
theorem outF_whole (Xw : S16384x1024.Idx → Elt F .f32)
    (h : ∀ c : Dev nD, m ((c.tc : Thread nD τ).loc main_arg0)
      = Layout.blockN ⟨2, ![8192, 1024]⟩ ⟨2, ![16384, 1024]⟩ (Layout.meshBlock [2, 2, 4] ![[0], []] c) Xw) :
    outF m c = Xw := by
  -- device `d` holds the rows `8192 (d / 8) …` of the whole array
  have hX : ∀ (d : Dev nD) (a : Fin 8192) (b : Fin 1024) (i : S16384x1024.Idx),
      (i 0).val = 8192 * (d.val / 8) + a.val → (i 1).val = b.val → X m d (ValueIdx.ix2 a b) = Xw i := by
    intro d a b i h0 h1
    have hd : d.val < 16 := d.isLt
    have hm : X m d = Layout.blockN ⟨2, ![8192, 1024]⟩ ⟨2, ![16384, 1024]⟩ (Layout.meshBlock [2, 2, 4] ![[0], []] d) Xw := h d
    rw [hm, Layout.blockN_apply]
    refine congrArg Xw (funext fun (t : Fin 2) => Fin.ext ?_)
    rw [Layout.TilesN.idx_val, Layout.meshBlock_val]
    match t with
    | ⟨0, _⟩ =>
      show Layout.meshLin [2, 2, 4] d.val [0] * 8192 + a.val = (i 0).val
      have e : Layout.meshLin [2, 2, 4] d.val [0] = d.val / 8 % 2 * 1 + 0 := rfl
      rw [e, h0]; omega
    | ⟨1, _⟩ =>
      show Layout.meshLin [2, 2, 4] d.val [] * 1024 + b.val = (i 1).val
      have e : Layout.meshLin [2, 2, 4] d.val [] = 0 := rfl
      rw [e, h1]; omega
  funext i
  have hi : (i 0).val < 16384 := (i 0).isLt
  have hc : c.val < 16 := c.isLt
  by_cases hj : (i 0).val / 8192 = c.val / 8
  · rw [outF_own m c i hj]
    exact hX c _ _ i (by show (i 0).val = 8192 * (c.val / 8) + (i 0).val % 8192; omega) rfl
  · rw [outF_other m c i hj]
    exact hX (peer c) _ _ i (by show (i 0).val = 8192 * ((peer c).val / 8) + (i 0).val % 8192; rw [peer_val]; omega) rfl

end Cert.KernelIdeal.AG

end
-- ==== Proof.StepsA.lean ====
import proofs.«900681_g7700000000000682_dist_ag_v7x_xyz2x2x4_x_m8192_n1024_f32_1_alg».proof.Proof.Values

/-!
# One device's steps

Each lemma takes one or two consecutive operations of the body at the head of a program and hands the continuation what
they leave: the prologue (the first two chunk copies issued, the partner signalled, the barrier waited), the wait for a
chunk's copy into its slot, the issue of such a copy, the push of a chunk (to the partner, and into the device's own rows),
the drain of a pushed chunk (its send credit and its local copy waited), the wait for a chunk of the partner's.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ) (c : Dev nD)
variable {α : Type} {Q : α → sProp (MT nD τ sig Unit (Elt F) ℕ UU ℕ)} {kk : PUnit → Prog (TpuEff nD τ sig (Elt F) Λ₀ .tc) α}

local notation "WP" => wp frame (wpE (defs₀ (F := F)) 𝒱₀ (c : Thread nD τ) none) Set.univ

/-! ## Pieces of `x` -/

/-- `x` at a share is chunk `k` of it and all but chunk `k`, at that share. -/
theorem xAt_split (k : Fin 8) (q : PosShare TreeShare) :
    xAt m c q ⊣⊢ iprop(xChunk m c k q ∗ xRest m c k q) :=
  pointsTo_split_subset (Finset.subset_univ _)

/-- `x` held outright is `x` at the two halves of the full share. -/
theorem xAt_halves : xAt m c fullShare ⊣⊢ iprop(xAt m c fullShare.left ∗ xAt m c fullShare.right) :=
  pointsTo_share (PosShare.mem_left_op_right fullShare)

/-- A staging copy's cell is no receive cell. -/
theorem role_copy (s : Fin 2) (k : Fin 8) : role (SemLoc.dma (copyS s)) ≠ Role.recv k := by revert s k; decide

/-- The issue of chunk `k`'s copy from `x` (held at share `q`) into its slot (held outright, at anything). -/
theorem wp_enqcopy (k : Fin 8) (q : PosShare TreeShare) (g : S2x1024x1024.Idx → Elt F .f32) {h1 h2 h3} :
    iprop(xAt m c q ∗ slotAt c (slot k) fullShare g ∗ semVal ((c : Thread nD τ), SemLoc.dma (copyS (slot k))) 0)
      ⊢ iprop((iprop(copyFlight m c k q ∗ xRest m c k q) -∗ WP (kk ⟨⟩) Q)
          -∗ WP (.op (.enqueueDma (xSl k) (.here (gSl (slot k))) (.dma (copyS (slot k))) h1 h2 h3) kk) Q) := by
  -- what the transfer delivers is the slot at the chunk's canonical contents, and the chunk's share of `x`
  have hD : (iprop(((gSl (slot k)).view.loc (c : Thread nD τ) ↦[(gSl (slot k)).view.set]{fullShare}
          ((gSl (slot k)).view.write (Elt F) g ((xSl k).view.read (Elt F) (X m c)) Finset.univ))
        ∗ ((xSl k).view.loc (c : Thread nD τ) ↦[(xSl k).view.set]{q} X m c)) : sProp 𝕄)
      ⊢ iprop(((gSl (slot k)).view.loc (c : Thread nD τ) ↦[(gSl (slot k)).view.set]{fullShare} (gC m c k))
          ∗ ((xSl k).view.loc (c : Thread nD τ) ↦[(xSl k).view.set]{q} X m c)) :=
    Entails.of_eq (by rw [pointsTo_congr (slot_written m c k g)])
  iintro ⟨Hx, Hg, Hv⟩ Hk
  ihave Hx' := (xAt_split m c k q).1 $$ Hx
  icases Hx' with ⟨Hc, Hr⟩
  unfold xChunk slotAt copyFlight
  iapply (Transfers.wp_dmaLocal EC 𝒱₀ (c : Thread nD τ) none (src := xSl k) (via := ReadAs.same) (dst := gSl (slot k))
      (sm := SemLoc.dma (copyS (slot k))) () Nc rfl Nc_pos subset_rfl) $$ [Hc Hg Hv]
  · isplitl [Hc]; · iexact Hc
    isplitl [Hg] <;> iassumption
  iintro Hf
  iapply Hk
  isplitl [Hf]
  · iapply (Transfers.Flight_mono EC (c : Thread nD τ) hD) $$ Hf
  · iexact Hr

/-- The wait for chunk `k`'s copy into its slot: the slot holds the chunk, `x`'s share is whole again, the copy cell at zero. -/
theorem wp_waitcopy (k : Fin 8) (q : PosShare TreeShare) (O : CellTallies nD τ sig Unit) (hO : OnlyRecv c O) {h1 h2} :
    iprop(ctx m K ∗ copyFlight m c k q ∗ xRest m c k q ∗ owesX c O)
      ⊢ iprop((iprop(slotAt c (slot k) fullShare (gC m c k) ∗ xAt m c q ∗ semVal ((c : Thread nD τ), SemLoc.dma (copyS (slot k))) 0 ∗ owesX c O)
              -∗ WP (kk ⟨⟩) Q)
          -∗ WP (.op (.waitDma2 (copyS (slot k)) (xSl k) (gSl (slot k)) h1 h2) kk) Q) := by
  -- the copy cell sits below every receive credit the device owes
  have hmw : ctx m K ⊢ MayWait (c : Thread nD τ) (SemLoc.dma (copyS (slot k))) () O :=
    (ctx_lev m K).trans (mayWait_low c (SemLoc.dma (copyS (slot k))) (role_copy (slot k)) O hO)
  unfold copyFlight owesX
  iintro ⟨#Hctx, Hf, Hr, ⟨%W, HO⟩⟩ Hk
  ihave Hmw := hmw $$ Hctx
  iapply (Transfers.wp_waitLocalO EC 𝒱₀ (c : Thread nD τ) none (srcw := xSl k) (dstw := gSl (slot k)) () (N := Nc) rfl) $$ [Hf HO Hmw]
  · isplitl [Hf]; · iexact Hf
    isplitl [HO] <;> iassumption
  iintro ⟨⟨Hd, Hs⟩, Hv, HO⟩
  iapply Hk
  isplitl [Hd]; · iexact Hd
  isplitl [Hs Hr]
  · iapply (xAt_split m c k q).2
    isplitl [Hs] <;> iassumption
  isplitl [Hv]; · iexact Hv
  iexists (insert (SemLoc.dma (copyS (slot k)), ()) W)
  iexact HO

/-- The prologue: chunks 0 and 1 start into their slots from the two halves of `x`'s share; the partner's barrier gets its
    unit, with the partner's chunk rows of this device's result array; the device waits for its own barrier's unit and
    receives its chunk rows of the partner's array. -/
theorem wp_prologue (f : S2x1024x1024.Idx → Elt F .f32)
    {h1 h2 h3 h4 h5 h6} :
    iprop(ctx m K ∗ xAt m c fullShare ∗ slotAt c 0 fullShare f ∗ slotAt c 1 fullShare f
        ∗ semVal ((c : Thread nD τ), SemLoc.dma (copyS 0)) 0 ∗ semVal ((c : Thread nD τ), SemLoc.dma (copyS 1)) 0
        ∗ owesX c (O₀ c) ∗ dutyTok ER (barCell (peer c)) 0 ()
        ∗ (bigSep Finset.univ fun k : Fin 8 => rows c (peer c) k (O0 m c))
        ∗ cred (tallyAt (barCell c) () 1) ∗ atPos ER (barCell c) 0 ∅ 0)
      ⊢ iprop((iprop(copyFlight m c 0 fullShare.left ∗ xRest m c 0 fullShare.left ∗ copyFlight m c 1 fullShare.right ∗ xRest m c 1 fullShare.right
              ∗ owesX c (Orec c 8) ∗ barPay m c) -∗ WP (kk ⟨⟩) Q)
          -∗ WP (.op (.enqueueDma (xSl 0) (.here (gSl 0)) (.dma (copyS 0)) h1 h2 h3) fun _ =>
                 .op (.enqueueDma (xSl 1) (.here (gSl 1)) (.dma (copyS 1)) h4 h5 h6) fun _ =>
                 .op (.semSignal (peer c : Thread nD τ) barS (1#32).toNat) fun _ =>
                 .op (.semWait barS (1#32).toNat) kk) Q) := by
  -- chunk 0 goes through slot 0 and chunk 1 through slot 1
  have enq0 : ∀ kk' : PUnit → Prog (TpuEff nD τ sig (Elt F) Λ₀ .tc) α,
      iprop(xAt m c fullShare.left ∗ slotAt c 0 fullShare f ∗ semVal ((c : Thread nD τ), SemLoc.dma (copyS 0)) 0)
        ⊢ iprop((iprop(copyFlight m c 0 fullShare.left ∗ xRest m c 0 fullShare.left) -∗ WP (kk' ⟨⟩) Q)
            -∗ WP (.op (.enqueueDma (xSl 0) (.here (gSl 0)) (.dma (copyS 0)) h1 h2 h3) kk') Q) :=
    fun kk' => wp_enqcopy m c (0 : Fin 8) fullShare.left f
  have enq1 : ∀ kk' : PUnit → Prog (TpuEff nD τ sig (Elt F) Λ₀ .tc) α,
      iprop(xAt m c fullShare.right ∗ slotAt c 1 fullShare f ∗ semVal ((c : Thread nD τ), SemLoc.dma (copyS 1)) 0)
        ⊢ iprop((iprop(copyFlight m c 1 fullShare.right ∗ xRest m c 1 fullShare.right) -∗ WP (kk' ⟨⟩) Q)
            -∗ WP (.op (.enqueueDma (xSl 1) (.here (gSl 1)) (.dma (copyS 1)) h4 h5 h6) kk') Q) :=
    fun kk' => wp_enqcopy m c (1 : Fin 8) fullShare.right f
  -- the barrier unit's payload: the partner's chunk rows of this device's result array, as launched
  have hpay : (bigSep Finset.univ fun k : Fin 8 => rows c (peer c) k (O0 m c))
      = (Rd m).payload (barCell (peer c)) 0 () := by
    rw [payload_bar]
    have h : ∀ d : Dev nD, d = c → (bigSep Finset.univ fun k : Fin 8 => rows c (peer c) k (O0 m c))
        = (bigSep Finset.univ fun k : Fin 8 =>
            (((oSl (peer c) k).view.loc (d : Thread nD τ) ↦[(oSl (peer c) k).view.set]{fullShare} (O0 m d)) : sProp 𝕄)) := by
      rintro _ rfl; rfl
    exact h (peer (peer c)) (peer_peer c)
  have hone : (1#32).toNat = 1 := by decide
  -- two TensorCores always reach one another
  have hr : τ.routes (c : Thread nD τ) (peer c : Thread nD τ) = true := Topo.routes_tc c (peer c)
  have hbar : ∀ k, role (SemLoc.reg barS) ≠ Role.recv k := fun k h => by rw [role_bar] at h; cases h
  have hmw : ctx m K ⊢ MayWait (c : Thread nD τ) (SemLoc.reg barS) () (Orec c 8) :=
    (ctx_lev m K).trans (mayWait_low c (SemLoc.reg barS) hbar (Orec c 8) (onlyRecv_Orec c 8))
  rw [hone]
  unfold owesX
  iintro ⟨#Hctx, Hx, Hg0, Hg1, Hv0, Hv1, ⟨%W, HO⟩, Htok, Hrows, Hcred, Hat⟩ Hk
  ihave Hx' := (xAt_halves m c).1 $$ Hx
  icases Hx' with ⟨HxL, HxR⟩
  iapply (enq0 _) $$ [HxL Hg0 Hv0]
  · isplitl [HxL]; · iexact HxL
    isplitl [Hg0] <;> iassumption
  iintro ⟨Hf0, Hr0⟩
  iapply (enq1 _) $$ [HxR Hg1 Hv1]
  · isplitl [HxR]; · iexact HxR
    isplitl [Hg1] <;> iassumption
  iintro ⟨Hf1, Hr1⟩
  iapply (Rounds.wp_signal 𝒱₀ ER (Rd m) (c : Thread nD τ) none (dst := (peer c : Thread nD τ)) (sem := barS) (r := 0) (d := ())
      (κ := K (peer c, jBar)) (O₀ := O₀ c)
      (by rw [duties_bar]; exact Finset.mem_singleton_self _) (amount_bar m (peer c) ()) () (Orec c 8) rfl (hr := hr)) $$ [HO Htok Hrows]
  · isplitr; · iapply (ctx_inv_bar m K (peer c)); iexact Hctx
    isplitl [HO]; · iexact HO
    isplitl [Htok]; · iexact Htok
    isplitl [Hrows]; · iapply (Entails.of_eq hpay); iexact Hrows
    iapply (ctx_reached_bar m K (peer c)); iexact Hctx
  iintro HO
  iapply (Rounds.wp_wait_rest_token 𝒱₀ ER (Rd m) (c : Thread nD τ) none (κ := K (c, jBar))
      (wpE_semWait_eq 𝒱₀ (c : Thread nD τ) none Set.univ) (Set.mem_univ _) () (R := 0) (m := 0) (T := ∅)
      (show 0 + 1 = _ from (expect_bar m c).symm)) $$ [Hcred HO Hat]
  · isplitr; · iapply (ctx_inv_bar m K c); iexact Hctx
    isplitl [Hcred]; · iexact Hcred
    isplitl [HO]; · iexact HO
    isplitr; · iapply hmw; iexact Hctx
    iexact Hat
  iintro ⟨HO, Hat, Hr, Hpay⟩
  iapply Hk
  isplitl [Hf0]; · iexact Hf0
  isplitl [Hr0]; · iexact Hr0
  isplitl [Hf1]; · iexact Hf1
  isplitl [Hr1]; · iexact Hr1
  isplitl [HO]; · iexists (insert (SemLoc.reg barS, ()) W); iexact HO
  iapply (Entails.of_eq (rest_bar m c)); iexact Hpay

end Cert.KernelIdeal.AG

end
-- ==== Proof.StepsB.lean ====
import proofs.«900681_g7700000000000682_dist_ag_v7x_xyz2x2x4_x_m8192_n1024_f32_1_alg».proof.Proof.Values

/-!
# One device's steps: push, drain, receive

Each lemma takes one or two consecutive operations of the body at the head of a program and hands the continuation what
they leave: the prologue (the first two chunk copies issued, the partner signalled, the barrier waited), the wait for a
chunk's copy into its slot, the issue of such a copy, the push of a chunk (to the partner, and into the device's own rows),
the drain of a pushed chunk (its send credit and its local copy waited), the wait for a chunk of the partner's.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ) (c : Dev nD)
variable {α : Type} {Q : α → sProp (MT nD τ sig Unit (Elt F) ℕ UU ℕ)} {kk : PUnit → Prog (TpuEff nD τ sig (Elt F) Λ₀ .tc) α}

local notation "WP" => wp frame (wpE (defs₀ (F := F)) 𝒱₀ (c : Thread nD τ) none) Set.univ

/-- A local-copy cell is no receive cell. -/
theorem role_lcl_ne (s : Fin 2) (k : Fin 8) : role (.dma (lclS s)) ≠ .recv k := by revert s k; decide

/-- A send cell is no receive cell. -/
theorem role_send_ne (j k : Fin 8) : role (.dma (sendS j)) ≠ .recv k := by rw [role_send]; exact fun h => by cases h

/-- Every device reaches its partner. -/
theorem routes_peer (c : Dev nD) : τ.routes (c : Thread nD τ) (Dev.tc (peer c)) = true := Topo.routes_tc c (peer c)

/-- The push of chunk `k`, its slot holding it: half the slot's share goes with the transfer into the partner's rows (paying
    the device's send duty and the partner's receive duty `k`), the other half with the copy into the device's own rows. -/
theorem wp_push (k : Fin 8) (n : Dev nD) (hn : n = peer c) (O₁ O : CellTallies nD τ sig Unit) (hO : O₁ = O + tallyAt (recvCell (peer c) k) () Nc)
    {hsc h1 h2 h3 h4 h5 h6} :
    iprop(ctx m K ∗ slotAt c (slot k) fullShare (gC m c k) ∗ atPos ER (sendCell c k) 0 ∅ 0 ∗ Tok c k ∗ Rows m c k
        ∗ semVal ((c : Thread nD τ), SemLoc.dma (lclS (slot k))) 0 ∗ owesX c O₁)
      ⊢ iprop((iprop(Pending m c k ∗ owesX c O) -∗ WP (kk ⟨⟩) Q)
          -∗ WP (.op (.enqueueDma (gSl (slot k)) (.remote (Dev.tc n) (oSl c k) (.dma (sendS k)) hsc) (.dma (recvS k)) h1 h2 h3) fun _ =>
                 .op (.enqueueDma (gSl (slot k)) (.here (oSl c k)) (.dma (lclS (slot k))) h4 h5 h6) kk) Q) := by
  subst hn
  -- the send cell's payload is the lent half of the slot, as it stands
  have hpay₁ : ((gSl (slot k)).view.loc (c : Thread nD τ) ↦[(gSl (slot k)).view.set]{fullShare.left} (gC m c k) : sProp 𝕄)
      ⊢ (Rd m).payload (sendCell c k) 0 () := by
    rw [payload_send]; exact Entails.refl _
  -- the partner's receive cell's payload is its rows written with the chunk: the gathered array's there
  have hpay₂ : ((oSl c k).view.loc (Dev.tc (peer c) : Thread nD τ) ↦[(oSl c k).view.set]{fullShare}
        ((oSl c k).view.write (Elt F) (O0 m (peer c)) ((gSl (slot k)).view.read (Elt F) (gC m c k)) Finset.univ) : sProp 𝕄)
      ⊢ (Rd m).payload (recvCell (peer c) k) 0 () := by
    have e : ((oSl c k).view.loc (Dev.tc (peer c) : Thread nD τ) ↦[(oSl c k).view.set]{fullShare}
          ((oSl c k).view.write (Elt F) (O0 m (peer c)) ((gSl (slot k)).view.read (Elt F) (gC m c k)) Finset.univ) : sProp 𝕄)
        = ((oSl c k).view.loc (Dev.tc (peer c) : Thread nD τ) ↦[(oSl c k).view.set]{fullShare} (outF m (peer c))) :=
      pointsTo_congr (rows_written m c k (peer c) (Or.inr rfl) (O0 m (peer c)))
    rw [payload_recv, e]
    unfold recvPay; rw [peer_peer]
  -- the device's own rows written with the chunk hold the gathered array's there
  have e₃ : ((oSl c k).view.loc (c : Thread nD τ) ↦[(oSl c k).view.set]{fullShare}
        ((oSl c k).view.write (Elt F) (O0 m c) ((gSl (slot k)).view.read (Elt F) (gC m c k)) Finset.univ) : sProp 𝕄)
      = ((oSl c k).view.loc (c : Thread nD τ) ↦[(oSl c k).view.set]{fullShare} (outF m c)) :=
    pointsTo_congr (rows_written m c k c (Or.inl rfl) (O0 m c))
  have hd₁ : () ∈ (Rd m).duties (sendCell c k) 0 := by rw [duties_send]; exact Finset.mem_singleton_self _
  have hd₂ : () ∈ (Rd m).duties (recvCell (peer c) k) 0 := by rw [duties_recv]; exact Finset.mem_singleton_self _
  have hN₁ : (oSl c k).view.amount (SemLoc.dma (recvS k)) = Nc := rfl
  have hN₂ : (oSl c k).view.amount (SemLoc.dma (lclS (slot k))) = Nc := rfl
  unfold owesX Tok Rows Pending lclFlight slotAt rows
  iintro ⟨#Hctx, Hslot, Hat, ⟨Ht₁, Ht₂⟩, ⟨Hrc, Hrp⟩, Hv, ⟨%W, HL⟩⟩ Hk
  ihave Hs := (pointsTo_share (PosShare.mem_left_op_right fullShare)).1 $$ Hslot
  icases Hs with ⟨HsL, HsR⟩
  ihave #HI₁ := (ctx_inv_send m K c k) $$ Hctx
  ihave #HI₂ := (ctx_inv_recv m K (peer c) k) $$ Hctx
  ihave #Hr₁ := (ctx_reached_send m K c k) $$ Hctx
  ihave #Hr₂ := (ctx_reached_recv m K (peer c) k) $$ Hctx
  iapply (Rounds.wp_send_pointsTo 𝒱₀ ER (Rd m) (c : Thread nD τ) none (c' := Dev.tc (peer c)) (src := gSl (slot k)) (dst := oSl c k)
    (q := fullShare.left) (fs := gC m c k) (fd := O0 m (peer c)) (κ₁ := K (c, jSend k)) (κ₂ := K (peer c, jRecv k))
    (sS := .dma (sendS k)) (sem := .dma (recvS k)) (r₁ := 0) (r₂ := 0) (d₁ := ()) (d₂ := ()) (W := W)
    hd₁ hd₂ () () Nc hN₁ (amount_send m c k ()) (amount_recv m (peer c) k ()) O hO hpay₁ hpay₂ (routes_peer c))
    $$ [HsL Hrp HL Ht₁ Ht₂]
  · isplitr; · iexact HI₁
    isplitr; · iexact HI₂
    isplitl [HsL]; · iexact HsL
    isplitl [Hrp]; · iexact Hrp
    isplitl [HL]; · iexact HL
    isplitl [Ht₁]; · iexact Ht₁
    isplitr; · iexact Hr₁
    isplitl [Ht₂]; · iexact Ht₂
    iexact Hr₂
  iintro ⟨Hc, HL⟩
  iapply (Transfers.wp_dmaLocal EC 𝒱₀ (c : Thread nD τ) none (src := gSl (slot k)) (via := .same) (dst := oSl c k)
    (sm := .dma (lclS (slot k))) (q := fullShare.right) (fs := gC m c k) (Sd := (oSl c k).view.set) (fd := O0 m c)
    () Nc hN₂ Nc_pos subset_rfl) $$ [HsR Hrc Hv]
  · isplitl [HsR]; · iexact HsR
    isplitl [Hrc]; · iexact Hrc
    iexact Hv
  iintro Hf
  iapply Hk
  isplitr [HL]
  · isplitl [Hc]; · iexact Hc
    isplitl [Hat]; · iexact Hat
    iapply (Transfers.Flight_mono EC (c : Thread nD τ) (sep_mono_left (Entails.of_eq e₃))) $$ Hf
  · iexists W; iexact HL

/-- The drain of pushed chunk `j`: the send cell's wait returns the lent half of the slot, the local copy's wait the other
    half and the device's own rows holding the chunk; the send cell closes. -/
theorem wp_drain (j : Fin 8) (O : CellTallies nD τ sig Unit) (hO : OnlyRecv c O) {h1 h2 h3 h4} :
    iprop(ctx m K ∗ Pending m c j ∗ owesX c O)
      ⊢ iprop((iprop(Done m c j ∗ slotAt c (slot j) fullShare (gC m c j) ∗ semVal ((c : Thread nD τ), SemLoc.dma (lclS (slot j))) 0 ∗ owesX c O)
              -∗ WP (kk ⟨⟩) Q)
          -∗ WP (.op (.waitDma2 (sendS j) (oSl c j) (gSl (slot j)) h1 h2) fun _ =>
                 .op (.waitDma2 (lclS (slot j)) (gSl (slot j)) (oSl c j) h3 h4) kk) Q) := by
  have hN₃ : (oSl c j).view.dmaCredit = Nc := rfl
  unfold owesX Pending Done lclFlight
  iintro ⟨#Hctx, ⟨Hc, Hat, Hf⟩, ⟨%W, HL⟩⟩ Hk
  ihave #HI := (ctx_inv_send m K c j) $$ Hctx
  ihave #Hlev := (ctx_lev m K) $$ Hctx
  ihave #Hmw₁ := (mayWait_low c (.dma (sendS j)) (role_send_ne j) O hO) $$ Hlev
  ihave #Hmw₂ := (mayWait_low c (.dma (lclS (slot j))) (role_lcl_ne (slot j)) O hO) $$ Hlev
  -- the send cell's wait: the whole of its one-duty round
  iapply (Rounds.wp_wait_rest_token 𝒱₀ ER (Rd m) (c : Thread nD τ) none (κ := K (c, jSend j))
    (w := .waitDma2 (sendS j) (oSl c j) (gSl (slot j)) h1 h2) (sm := .dma (sendS j)) (k' := Nc)
    (wpE_waitDma2_eq 𝒱₀ (c : Thread nD τ) none Set.univ) (Set.mem_univ _) () (O := O) (W := W) (R := 0) (T := ∅) (m := 0)
    ((Nat.zero_add _).trans (expect_send m c j).symm)) $$ [Hc HL Hat]
  · isplitr; · iexact HI
    isplitl [Hc]; · iexact Hc
    isplitl [HL]; · iexact HL
    isplitr; · iexact Hmw₁
    iexact Hat
  iintro ⟨HL, Hat, -, Hpay⟩
  ihave HsL := (Entails.of_eq (rest_send m c j)) $$ Hpay
  unfold sendPay
  imod (Rounds.cell_close ER (Rd m) (κ := K (c, jSend j)) (Set.mem_univ _) (fun h => h) (R := 0 + 1) (duties_later m _)) $$ [Hat] with Hv₁
  · isplitr; · iexact HI
    iexact Hat
  -- the local copy's wait
  iapply (Transfers.wp_waitLocalO EC 𝒱₀ (c : Thread nD τ) none (sem := lclS (slot j)) (srcw := gSl (slot j)) (dstw := oSl c j)
    () (N := Nc) hN₃ (D := iprop(rows c c j (outF m c) ∗ slotAt c (slot j) fullShare.right (gC m c j))) (O := O)
    (W := insert (SemLoc.dma (sendS j), ()) W)) $$ [Hf HL]
  · isplitl [Hf]; · iexact Hf
    isplitl [HL]; · iexact HL
    iexact Hmw₂
  iintro ⟨⟨Hrows, HsR⟩, Hv₂, HL⟩
  iapply Hk
  isplitl [Hrows Hv₁]
  · isplitl [Hrows]; · iexact Hrows
    iexact Hv₁
  isplitl [HsL HsR]
  · unfold slotAt
    iapply (pointsTo_share (PosShare.mem_left_op_right fullShare)).2
    isplitl [HsL]; · iexact HsL
    iexact HsR
  isplitl [Hv₂]; · iexact Hv₂
  iexists _; iexact HL

/-- The wait for chunk `k` of the partner's block: the rows it lands in hold the gathered array's; the receive cell closes. -/
theorem wp_waitrecv (k : Fin 8) {h1 h2} :
    iprop(ctx m K ∗ cred (tallyAt (recvCell c k) () Nc) ∗ atPos ER (recvCell c k) 0 ∅ 0 ∗ owesX c 0)
      ⊢ iprop((iprop(rows c (peer c) k (outF m c) ∗ semVal (recvCell c k) 0 ∗ owesX c 0) -∗ WP (kk ⟨⟩) Q)
          -∗ WP (.op (.waitDma2 (recvS k) (gSl (slot k)) (oSl c k) h1 h2) kk) Q) := by
  unfold owesX
  iintro ⟨#Hctx, Hc, Hat, ⟨%W, HL⟩⟩ Hk
  ihave #HI := (ctx_inv_recv m K c k) $$ Hctx
  iapply (Rounds.wp_wait_rest_token 𝒱₀ ER (Rd m) (c : Thread nD τ) none (κ := K (c, jRecv k))
    (w := .waitDma2 (recvS k) (gSl (slot k)) (oSl c k) h1 h2) (sm := .dma (recvS k)) (k' := Nc)
    (wpE_waitDma2_eq 𝒱₀ (c : Thread nD τ) none Set.univ) (Set.mem_univ _) () (O := 0) (W := W) (R := 0) (T := ∅) (m := 0)
    ((Nat.zero_add _).trans (expect_recv m c k).symm)) $$ [Hc HL Hat]
  · isplitr; · iexact HI
    isplitl [Hc]; · iexact Hc
    isplitl [HL]; · iexact HL
    isplitr; · rw [MayWait_zero]; iempintro
    iexact Hat
  iintro ⟨HL, Hat, -, Hpay⟩
  ihave Hrows := (Entails.of_eq (rest_recv m c k)) $$ Hpay
  unfold recvPay rows
  imod (Rounds.cell_close ER (Rd m) (κ := K (c, jRecv k)) (Set.mem_univ _) (fun h => h) (R := 0 + 1) (duties_later m _)) $$ [Hat] with Hv
  · isplitr; · iexact HI
    iexact Hat
  iapply Hk
  isplitl [Hrows]; · iexact Hrows
  isplitl [Hv]; · iexact Hv
  iexists _; iexact HL

/-! ### Axioms -/

/-- info: 'Cert.KernelIdeal.AG.wp_push' depends on axioms: [propext, Classical.choice, Quot.sound] -/
#guard_msgs in #print axioms wp_push
/-- info: 'Cert.KernelIdeal.AG.wp_drain' depends on axioms: [propext, Classical.choice, Quot.sound] -/
#guard_msgs in #print axioms wp_drain
/-- info: 'Cert.KernelIdeal.AG.wp_waitrecv' depends on axioms: [propext, Classical.choice, Quot.sound] -/
#guard_msgs in #print axioms wp_waitrecv

end Cert.KernelIdeal.AG

end
-- ==== Proof.Body.lean ====
import proofs.«900681_g7700000000000682_dist_ag_v7x_xyz2x2x4_x_m8192_n1024_f32_1_alg».proof.Proof.StepsA
import proofs.«900681_g7700000000000682_dist_ag_v7x_xyz2x2x4_x_m8192_n1024_f32_1_alg».proof.Proof.StepsB
import proofs.«900681_g7700000000000682_dist_ag_v7x_xyz2x2x4_x_m8192_n1024_f32_1_alg».proof.Proof.Gen.KernelIdeal.Skeleton

/-!
# One device's body

The body of the kernel on device `c`, from what the launch hands it to what it hands back: the prologue, the eight chunks
pushed through the two slots — chunk `k` drains chunk `k - 2` first —, the last two drained, the partner's eight chunks waited.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 17 → ℕ) (c : Dev nD)

/-! ### The pieces as chains -/

omit [FloatOps F] in
theorem barPay_chain : barPay m c ⊢ (iprop(rows (peer c) c 0 (O0 m (peer c)) ∗ rows (peer c) c 1 (O0 m (peer c)) ∗ rows (peer c) c 2 (O0 m (peer c)) ∗ rows (peer c) c 3 (O0 m (peer c)) ∗ rows (peer c) c 4 (O0 m (peer c)) ∗ rows (peer c) c 5 (O0 m (peer c)) ∗ rows (peer c) c 6 (O0 m (peer c)) ∗ rows (peer c) c 7 (O0 m (peer c))) : sProp 𝕄) :=
  Entails.of_eq (by unfold barPay rows; exact bigSep_fin8 _)

omit [FloatOps F] in
theorem x_halves : iprop(xAt m c fullShare.left ∗ xAt m c fullShare.right) ⊢ (xAt m c fullShare : sProp 𝕄) := by
  unfold xAt; exact (pointsTo_share (PosShare.mem_left_op_right fullShare)).2

omit [FloatOps F] in
theorem out_cut (f : S16384x1024.Idx → Elt F .f32) :
    ((((c : Thread nD τ).loc main_v1) ↦{fullShare} f : sProp 𝕄))
      ⊢ iprop((rows c c 0 f ∗ rows c c 1 f ∗ rows c c 2 f ∗ rows c c 3 f ∗ rows c c 4 f ∗ rows c c 5 f ∗ rows c c 6 f ∗ rows c c 7 f) ∗ (bigSep Finset.univ fun k : Fin 8 => rows c (peer c) k f)) := by
  rw [← bigSep_fin8 (fun k : Fin 8 => rows c c k f)]; exact (out_split c f).1

omit [FloatOps F] in
theorem out_join (f : S16384x1024.Idx → Elt F .f32) :
    iprop((rows c c 0 f ∗ rows c c 1 f ∗ rows c c 2 f ∗ rows c c 3 f ∗ rows c c 4 f ∗ rows c c 5 f ∗ rows c c 6 f ∗ rows c c 7 f) ∗ (rows c (peer c) 0 f ∗ rows c (peer c) 1 f ∗ rows c (peer c) 2 f ∗ rows c (peer c) 3 f ∗ rows c (peer c) 4 f ∗ rows c (peer c) 5 f ∗ rows c (peer c) 6 f ∗ rows c (peer c) 7 f))
      ⊢ ((((c : Thread nD τ).loc main_v1) ↦{fullShare} f : sProp 𝕄)) := by
  rw [← bigSep_fin8 (fun k : Fin 8 => rows c c k f), ← bigSep_fin8 (fun k : Fin 8 => rows c (peer c) k f)]; exact (out_split c f).2

omit [FloatOps F] in
theorem sems_join :
    iprop((semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0))
      ⊢ (iprop((bigSep Finset.univ fun k : Fin 8 => semVal (sendCell c k) 0) ∗ (bigSep Finset.univ fun k : Fin 8 => semVal (recvCell c k) 0)) : sProp 𝕄) := by
  rw [bigSep_fin8 (fun k : Fin 8 => (semVal (sendCell c k) 0 : sProp 𝕄)), bigSep_fin8 (fun k : Fin 8 => (semVal (recvCell c k) 0 : sProp 𝕄))]

/-- What device `c`'s body starts from, the names `K` of the cells' invariants and the staging buffer's contents fixed. -/
def bodyPre (f : S2x1024x1024.Idx → Elt F .f32) : sProp 𝕄 :=
  iprop(ctx m K ∗ linear c ∗ creds c ∗ localSems c ∗ xAt m c fullShare
    ∗ (((c : Thread nD τ).loc main_v1) ↦{fullShare} O0 m c)
    ∗ (((c : Thread nD τ).loc cc0_scratch0) ↦{fullShare} f) ∗ owesX c (O₀ c))

def bodyPost : sProp 𝕄 := iprop(Φ₁ m c ∗ owesX c 0)

set_option maxHeartbeats 4000000 in
set_option maxRecDepth 16384 in
/-- The body on device `c`, step by step: the prologue; chunk 0 and chunk 1 pushed as their copies land; for `k = 2 … 7`
    chunk `k - 2` drained, chunk `k` copied into the freed slot and pushed; chunks 6 and 7 drained; the partner's eight chunks
    waited; the pieces put together again. -/
theorem sound_body (f : S2x1024x1024.Idx → Elt F .f32) (Kt : PUnit → sProp 𝕄) :
    iprop(bodyPre m K c f ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Kt := by
  unfold cc0_body k0_part1 k0_part2 k0_part3 k0_part4 k0_part5 k0_part6 k0_part7 k0_part8 k0_part9 k0_part10 k0_part11 k0_part12 k0_part13 k0_part14 k0_part15
  simp only [semSignalWord, semWaitWord, Prog.lift, Prog.bind_op, Prog.bind_ret, Prog.pure_eq_ret, wp_deviceId]
  simp only [dev1_eq c]
  unfold bodyPre linear creds localSems
  rw [bigSep_fin8, bigSep_fin8, bigSep_fin8]
  iintro ⟨⟨#Hctx, ⟨HaB, HtB, ⟨⟨HaS0, HT0⟩, ⟨HaS1, HT1⟩, ⟨HaS2, HT2⟩, ⟨HaS3, HT3⟩, ⟨HaS4, HT4⟩, ⟨HaS5, HT5⟩, ⟨HaS6, HT6⟩, ⟨HaS7, HT7⟩⟩, HaR0, HaR1, HaR2, HaR3, HaR4, HaR5, HaR6, HaR7⟩,
    ⟨HcB, HcR0, HcR1, HcR2, HcR3, HcR4, HcR5, HcR6, HcR7⟩, ⟨HvC0, HvC1, HvL0, HvL1⟩, Hx, Hout, Hstg, HO⟩, Hk⟩
  -- the staging buffer is its two slots; the result array the sixteen chunk row blocks
  ihave Hstg' := (stage_split c f).1 $$ Hstg
  icases Hstg' with ⟨Hs0, Hs1⟩
  ihave Hout' := (out_cut c (O0 m c)) $$ Hout
  icases Hout' with ⟨⟨Hown0, Hown1, Hown2, Hown3, Hown4, Hown5, Hown6, Hown7⟩, Hpeer⟩
  -- the prologue
  iapply (wp_prologue m K c f) $$ [Hx Hs0 Hs1 HvC0 HvC1 HO HtB Hpeer HcB HaB]
  · isplitr; · iexact Hctx
    isplitl [Hx]; · iexact Hx
    isplitl [Hs0]; · iexact Hs0
    isplitl [Hs1]; · iexact Hs1
    isplitl [HvC0]; · iexact HvC0
    isplitl [HvC1]; · iexact HvC1
    isplitl [HO]; · iexact HO
    isplitl [HtB]; · iexact HtB
    isplitl [Hpeer]; · iexact Hpeer
    isplitl [HcB]; · iexact HcB
    iexact HaB
  iintro ⟨HF0, HxR0, HF1, HxR1, HO, Hbar⟩
  ihave Hbar' := (barPay_chain m c) $$ Hbar
  icases Hbar' with ⟨Hp0, Hp1, Hp2, Hp3, Hp4, Hp5, Hp6, Hp7⟩
  -- chunk 0 is in its slot
  iapply (wp_waitcopy m K c 0 fullShare.left (Orec c 8) (onlyRecv_Orec c 8)) $$ [HF0 HxR0 HO]
  · isplitr; · iexact Hctx
    isplitl [HF0]; · iexact HF0
    isplitl [HxR0]; · iexact HxR0
    iexact HO
  iintro ⟨Hs0, HxL, HvC0, HO⟩
  -- chunk 0 pushed
  iapply (wp_push m K c 0 _ (dev2_eq c) (Orec c 8) (Orec c 7) rfl) $$ [Hs0 HaS0 HT0 Hown0 Hp0 HvL0 HO]
  · isplitr; · iexact Hctx
    isplitl [Hs0]; · iexact Hs0
    isplitl [HaS0]; · iexact HaS0
    isplitl [HT0]; · iexact HT0
    isplitl [Hown0 Hp0]
    · unfold Rows
      isplitl [Hown0]; · iexact Hown0
      iexact Hp0
    isplitl [HvL0]; · iexact HvL0
    iexact HO
  iintro ⟨HP0, HO⟩
  -- chunk 1 is in its slot
  iapply (wp_waitcopy m K c 1 fullShare.right (Orec c 7) (onlyRecv_Orec c 7)) $$ [HF1 HxR1 HO]
  · isplitr; · iexact Hctx
    isplitl [HF1]; · iexact HF1
    isplitl [HxR1]; · iexact HxR1
    iexact HO
  iintro ⟨Hs1, HxRt, HvC1, HO⟩
  -- chunk 1 pushed
  iapply (wp_push m K c 1 _ (dev3_eq c) (Orec c 7) (Orec c 6) rfl) $$ [Hs1 HaS1 HT1 Hown1 Hp1 HvL1 HO]
  · isplitr; · iexact Hctx
    isplitl [Hs1]; · iexact Hs1
    isplitl [HaS1]; · iexact HaS1
    isplitl [HT1]; · iexact HT1
    isplitl [Hown1 Hp1]
    · unfold Rows
      isplitl [Hown1]; · iexact Hown1
      iexact Hp1
    isplitl [HvL1]; · iexact HvL1
    iexact HO
  iintro ⟨HP1, HO⟩
  -- the two halves of `x`'s share are one again
  ihave Hx := (x_halves m c) $$ [HxL HxRt]
  · isplitl [HxL]; · iexact HxL
    iexact HxRt
  -- chunk 0 drained
  iapply (wp_drain m K c 0 (Orec c 6) (onlyRecv_Orec c 6)) $$ [HP0 HO]
  · isplitr; · iexact Hctx
    isplitl [HP0]; · iexact HP0
    iexact HO
  iintro ⟨HD0, Hs0, HvL0, HO⟩
  -- chunk 2 starts into slot 0
  iapply (wp_enqcopy m c 2 fullShare (gC m c 0)) $$ [Hx Hs0 HvC0]
  · isplitl [Hx]; · iexact Hx
    isplitl [Hs0]; · iexact Hs0
    iexact HvC0
  iintro ⟨HF2, HxR2⟩
  -- chunk 2 is in its slot
  iapply (wp_waitcopy m K c 2 fullShare (Orec c 6) (onlyRecv_Orec c 6)) $$ [HF2 HxR2 HO]
  · isplitr; · iexact Hctx
    isplitl [HF2]; · iexact HF2
    isplitl [HxR2]; · iexact HxR2
    iexact HO
  iintro ⟨Hs0, Hx, HvC0, HO⟩
  -- chunk 2 pushed
  iapply (wp_push m K c 2 _ (dev4_eq c) (Orec c 6) (Orec c 5) rfl) $$ [Hs0 HaS2 HT2 Hown2 Hp2 HvL0 HO]
  · isplitr; · iexact Hctx
    isplitl [Hs0]; · iexact Hs0
    isplitl [HaS2]; · iexact HaS2
    isplitl [HT2]; · iexact HT2
    isplitl [Hown2 Hp2]
    · unfold Rows
      isplitl [Hown2]; · iexact Hown2
      iexact Hp2
    isplitl [HvL0]; · iexact HvL0
    iexact HO
  iintro ⟨HP2, HO⟩
  -- chunk 1 drained
  iapply (wp_drain m K c 1 (Orec c 5) (onlyRecv_Orec c 5)) $$ [HP1 HO]
  · isplitr; · iexact Hctx
    isplitl [HP1]; · iexact HP1
    iexact HO
  iintro ⟨HD1, Hs1, HvL1, HO⟩
  -- chunk 3 starts into slot 1
  iapply (wp_enqcopy m c 3 fullShare (gC m c 1)) $$ [Hx Hs1 HvC1]
  · isplitl [Hx]; · iexact Hx
    isplitl [Hs1]; · iexact Hs1
    iexact HvC1
  iintro ⟨HF3, HxR3⟩
  -- chunk 3 is in its slot
  iapply (wp_waitcopy m K c 3 fullShare (Orec c 5) (onlyRecv_Orec c 5)) $$ [HF3 HxR3 HO]
  · isplitr; · iexact Hctx
    isplitl [HF3]; · iexact HF3
    isplitl [HxR3]; · iexact HxR3
    iexact HO
  iintro ⟨Hs1, Hx, HvC1, HO⟩
  -- chunk 3 pushed
  iapply (wp_push m K c 3 _ (dev5_eq c) (Orec c 5) (Orec c 4) rfl) $$ [Hs1 HaS3 HT3 Hown3 Hp3 HvL1 HO]
  · isplitr; · iexact Hctx
    isplitl [Hs1]; · iexact Hs1
    isplitl [HaS3]; · iexact HaS3
    isplitl [HT3]; · iexact HT3
    isplitl [Hown3 Hp3]
    · unfold Rows
      isplitl [Hown3]; · iexact Hown3
      iexact Hp3
    isplitl [HvL1]; · iexact HvL1
    iexact HO
  iintro ⟨HP3, HO⟩
  -- chunk 2 drained
  iapply (wp_drain m K c 2 (Orec c 4) (onlyRecv_Orec c 4)) $$ [HP2 HO]
  · isplitr; · iexact Hctx
    isplitl [HP2]; · iexact HP2
    iexact HO
  iintro ⟨HD2, Hs0, HvL0, HO⟩
  -- chunk 4 starts into slot 0
  iapply (wp_enqcopy m c 4 fullShare (gC m c 2)) $$ [Hx Hs0 HvC0]
  · isplitl [Hx]; · iexact Hx
    isplitl [Hs0]; · iexact Hs0
    iexact HvC0
  iintro ⟨HF4, HxR4⟩
  -- chunk 4 is in its slot
  iapply (wp_waitcopy m K c 4 fullShare (Orec c 4) (onlyRecv_Orec c 4)) $$ [HF4 HxR4 HO]
  · isplitr; · iexact Hctx
    isplitl [HF4]; · iexact HF4
    isplitl [HxR4]; · iexact HxR4
    iexact HO
  iintro ⟨Hs0, Hx, HvC0, HO⟩
  -- chunk 4 pushed
  iapply (wp_push m K c 4 _ (dev6_eq c) (Orec c 4) (Orec c 3) rfl) $$ [Hs0 HaS4 HT4 Hown4 Hp4 HvL0 HO]
  · isplitr; · iexact Hctx
    isplitl [Hs0]; · iexact Hs0
    isplitl [HaS4]; · iexact HaS4
    isplitl [HT4]; · iexact HT4
    isplitl [Hown4 Hp4]
    · unfold Rows
      isplitl [Hown4]; · iexact Hown4
      iexact Hp4
    isplitl [HvL0]; · iexact HvL0
    iexact HO
  iintro ⟨HP4, HO⟩
  -- chunk 3 drained
  iapply (wp_drain m K c 3 (Orec c 3) (onlyRecv_Orec c 3)) $$ [HP3 HO]
  · isplitr; · iexact Hctx
    isplitl [HP3]; · iexact HP3
    iexact HO
  iintro ⟨HD3, Hs1, HvL1, HO⟩
  -- chunk 5 starts into slot 1
  iapply (wp_enqcopy m c 5 fullShare (gC m c 3)) $$ [Hx Hs1 HvC1]
  · isplitl [Hx]; · iexact Hx
    isplitl [Hs1]; · iexact Hs1
    iexact HvC1
  iintro ⟨HF5, HxR5⟩
  -- chunk 5 is in its slot
  iapply (wp_waitcopy m K c 5 fullShare (Orec c 3) (onlyRecv_Orec c 3)) $$ [HF5 HxR5 HO]
  · isplitr; · iexact Hctx
    isplitl [HF5]; · iexact HF5
    isplitl [HxR5]; · iexact HxR5
    iexact HO
  iintro ⟨Hs1, Hx, HvC1, HO⟩
  -- chunk 5 pushed
  iapply (wp_push m K c 5 _ (dev7_eq c) (Orec c 3) (Orec c 2) rfl) $$ [Hs1 HaS5 HT5 Hown5 Hp5 HvL1 HO]
  · isplitr; · iexact Hctx
    isplitl [Hs1]; · iexact Hs1
    isplitl [HaS5]; · iexact HaS5
    isplitl [HT5]; · iexact HT5
    isplitl [Hown5 Hp5]
    · unfold Rows
      isplitl [Hown5]; · iexact Hown5
      iexact Hp5
    isplitl [HvL1]; · iexact HvL1
    iexact HO
  iintro ⟨HP5, HO⟩
  -- chunk 4 drained
  iapply (wp_drain m K c 4 (Orec c 2) (onlyRecv_Orec c 2)) $$ [HP4 HO]
  · isplitr; · iexact Hctx
    isplitl [HP4]; · iexact HP4
    iexact HO
  iintro ⟨HD4, Hs0, HvL0, HO⟩
  -- chunk 6 starts into slot 0
  iapply (wp_enqcopy m c 6 fullShare (gC m c 4)) $$ [Hx Hs0 HvC0]
  · isplitl [Hx]; · iexact Hx
    isplitl [Hs0]; · iexact Hs0
    iexact HvC0
  iintro ⟨HF6, HxR6⟩
  -- chunk 6 is in its slot
  iapply (wp_waitcopy m K c 6 fullShare (Orec c 2) (onlyRecv_Orec c 2)) $$ [HF6 HxR6 HO]
  · isplitr; · iexact Hctx
    isplitl [HF6]; · iexact HF6
    isplitl [HxR6]; · iexact HxR6
    iexact HO
  iintro ⟨Hs0, Hx, HvC0, HO⟩
  -- chunk 6 pushed
  iapply (wp_push m K c 6 _ (dev8_eq c) (Orec c 2) (Orec c 1) rfl) $$ [Hs0 HaS6 HT6 Hown6 Hp6 HvL0 HO]
  · isplitr; · iexact Hctx
    isplitl [Hs0]; · iexact Hs0
    isplitl [HaS6]; · iexact HaS6
    isplitl [HT6]; · iexact HT6
    isplitl [Hown6 Hp6]
    · unfold Rows
      isplitl [Hown6]; · iexact Hown6
      iexact Hp6
    isplitl [HvL0]; · iexact HvL0
    iexact HO
  iintro ⟨HP6, HO⟩
  -- chunk 5 drained
  iapply (wp_drain m K c 5 (Orec c 1) (onlyRecv_Orec c 1)) $$ [HP5 HO]
  · isplitr; · iexact Hctx
    isplitl [HP5]; · iexact HP5
    iexact HO
  iintro ⟨HD5, Hs1, HvL1, HO⟩
  -- chunk 7 starts into slot 1
  iapply (wp_enqcopy m c 7 fullShare (gC m c 5)) $$ [Hx Hs1 HvC1]
  · isplitl [Hx]; · iexact Hx
    isplitl [Hs1]; · iexact Hs1
    iexact HvC1
  iintro ⟨HF7, HxR7⟩
  -- chunk 7 is in its slot
  iapply (wp_waitcopy m K c 7 fullShare (Orec c 1) (onlyRecv_Orec c 1)) $$ [HF7 HxR7 HO]
  · isplitr; · iexact Hctx
    isplitl [HF7]; · iexact HF7
    isplitl [HxR7]; · iexact HxR7
    iexact HO
  iintro ⟨Hs1, Hx, HvC1, HO⟩
  -- chunk 7 pushed
  iapply (wp_push m K c 7 _ (dev9_eq c) (Orec c 1) (Orec c 0) rfl) $$ [Hs1 HaS7 HT7 Hown7 Hp7 HvL1 HO]
  · isplitr; · iexact Hctx
    isplitl [Hs1]; · iexact Hs1
    isplitl [HaS7]; · iexact HaS7
    isplitl [HT7]; · iexact HT7
    isplitl [Hown7 Hp7]
    · unfold Rows
      isplitl [Hown7]; · iexact Hown7
      iexact Hp7
    isplitl [HvL1]; · iexact HvL1
    iexact HO
  iintro ⟨HP7, HO⟩
  -- chunk 6 drained
  iapply (wp_drain m K c 6 (Orec c 0) (onlyRecv_Orec c 0)) $$ [HP6 HO]
  · isplitr; · iexact Hctx
    isplitl [HP6]; · iexact HP6
    iexact HO
  iintro ⟨HD6, Hs0, HvL0, HO⟩
  -- chunk 7 drained
  iapply (wp_drain m K c 7 (Orec c 0) (onlyRecv_Orec c 0)) $$ [HP7 HO]
  · isplitr; · iexact Hctx
    isplitl [HP7]; · iexact HP7
    iexact HO
  iintro ⟨HD7, Hs1, HvL1, HO⟩
  -- the partner's chunk 0 has landed
  iapply (wp_waitrecv m K c 0) $$ [HcR0 HaR0 HO]
  · isplitr; · iexact Hctx
    isplitl [HcR0]; · iexact HcR0
    isplitl [HaR0]; · iexact HaR0
    iexact HO
  iintro ⟨HR0, HvR0, HO⟩
  -- the partner's chunk 1 has landed
  iapply (wp_waitrecv m K c 1) $$ [HcR1 HaR1 HO]
  · isplitr; · iexact Hctx
    isplitl [HcR1]; · iexact HcR1
    isplitl [HaR1]; · iexact HaR1
    iexact HO
  iintro ⟨HR1, HvR1, HO⟩
  -- the partner's chunk 2 has landed
  iapply (wp_waitrecv m K c 2) $$ [HcR2 HaR2 HO]
  · isplitr; · iexact Hctx
    isplitl [HcR2]; · iexact HcR2
    isplitl [HaR2]; · iexact HaR2
    iexact HO
  iintro ⟨HR2, HvR2, HO⟩
  -- the partner's chunk 3 has landed
  iapply (wp_waitrecv m K c 3) $$ [HcR3 HaR3 HO]
  · isplitr; · iexact Hctx
    isplitl [HcR3]; · iexact HcR3
    isplitl [HaR3]; · iexact HaR3
    iexact HO
  iintro ⟨HR3, HvR3, HO⟩
  -- the partner's chunk 4 has landed
  iapply (wp_waitrecv m K c 4) $$ [HcR4 HaR4 HO]
  · isplitr; · iexact Hctx
    isplitl [HcR4]; · iexact HcR4
    isplitl [HaR4]; · iexact HaR4
    iexact HO
  iintro ⟨HR4, HvR4, HO⟩
  -- the partner's chunk 5 has landed
  iapply (wp_waitrecv m K c 5) $$ [HcR5 HaR5 HO]
  · isplitr; · iexact Hctx
    isplitl [HcR5]; · iexact HcR5
    isplitl [HaR5]; · iexact HaR5
    iexact HO
  iintro ⟨HR5, HvR5, HO⟩
  -- the partner's chunk 6 has landed
  iapply (wp_waitrecv m K c 6) $$ [HcR6 HaR6 HO]
  · isplitr; · iexact Hctx
    isplitl [HcR6]; · iexact HcR6
    isplitl [HaR6]; · iexact HaR6
    iexact HO
  iintro ⟨HR6, HvR6, HO⟩
  -- the partner's chunk 7 has landed
  iapply (wp_waitrecv m K c 7) $$ [HcR7 HaR7 HO]
  · isplitr; · iexact Hctx
    isplitl [HcR7]; · iexact HcR7
    isplitl [HaR7]; · iexact HaR7
    iexact HO
  iintro ⟨HR7, HvR7, HO⟩
  -- the end: the pieces put together again
  rw [wp_ret]; imodintro
  iapply Hk
  unfold bodyPost Φ₁ localSems Done
  icases HD0 with ⟨HDr0, HvS0⟩
  icases HD1 with ⟨HDr1, HvS1⟩
  icases HD2 with ⟨HDr2, HvS2⟩
  icases HD3 with ⟨HDr3, HvS3⟩
  icases HD4 with ⟨HDr4, HvS4⟩
  icases HD5 with ⟨HDr5, HvS5⟩
  icases HD6 with ⟨HDr6, HvS6⟩
  icases HD7 with ⟨HDr7, HvS7⟩
  isplitr [HO]
  · isplitl [Hx]; · iexact Hx
    isplitl [HDr0 HDr1 HDr2 HDr3 HDr4 HDr5 HDr6 HDr7 HR0 HR1 HR2 HR3 HR4 HR5 HR6 HR7]
    · iapply (out_join c (outF m c))
      isplitl [HDr0 HDr1 HDr2 HDr3 HDr4 HDr5 HDr6 HDr7]
      · isplitl [HDr0]; · iexact HDr0
        isplitl [HDr1]; · iexact HDr1
        isplitl [HDr2]; · iexact HDr2
        isplitl [HDr3]; · iexact HDr3
        isplitl [HDr4]; · iexact HDr4
        isplitl [HDr5]; · iexact HDr5
        isplitl [HDr6]; · iexact HDr6
        iexact HDr7
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
    isplitl [Hs0 Hs1]
    · iapply (stage_join c (gC m c 6) (gC m c 7))
      isplitl [Hs0]; · iexact Hs0
      iexact Hs1
    isplitl [HvC0 HvC1 HvL0 HvL1]
    · isplitl [HvC0]; · iexact HvC0
      isplitl [HvC1]; · iexact HvC1
      isplitl [HvL0]; · iexact HvL0
      iexact HvL1
    iapply (sems_join c)
    isplitl [HvS0 HvS1 HvS2 HvS3 HvS4 HvS5 HvS6 HvS7]
    · isplitl [HvS0]; · iexact HvS0
      isplitl [HvS1]; · iexact HvS1
      isplitl [HvS2]; · iexact HvS2
      isplitl [HvS3]; · iexact HvS3
      isplitl [HvS4]; · iexact HvS4
      isplitl [HvS5]; · iexact HvS5
      isplitl [HvS6]; · iexact HvS6
      iexact HvS7
    · isplitl [HvR0]; · iexact HvR0
      isplitl [HvR1]; · iexact HvR1
      isplitl [HvR2]; · iexact HvR2
      isplitl [HvR3]; · iexact HvR3
      isplitl [HvR4]; · iexact HvR4
      isplitl [HvR5]; · iexact HvR5
      isplitl [HvR6]; · iexact HvR6
      iexact HvR7
  · iexact HO

omit [FloatOps F] in
theorem bigSep_W0 (Φ : Fin cfg0.W → sProp 𝕄) : bigSep Finset.univ Φ = iprop(emp) := by
  rw [show (Finset.univ : Finset (Fin cfg0.W)) = ∅ from Finset.univ_eq_empty]; exact bigSep_empty

end Body

/-- The library's body obligation on device `c`. -/
theorem body_obligation (c : Dev nD) : BodyObligation (dats (F := F) m 0 c) (defs₀ (F := F)) 𝒱₀ () Set.univ := fun t => by
  rw [fin_N0 t, bigSep_W0, bigSep_W0]
  show iprop(Φ₀ m c ∗ (dats m 0 c).owesAt () t0_0.castSucc ∗ emp)
    ⊢ wp frame (wpE (defs₀ (F := F)) 𝒱₀ (c : Thread nD τ) none) Set.univ
      (cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4)
      (fun _ => iprop(Φ₁ m c ∗ (dats m 0 c).owesAt () t0_0.succ ∗ emp))
  unfold Φ₀ start stageAny Dat.owesAt Pipeline.owesWithin
  rw [show (dats m 0 c).owed t0_0.castSucc = O₀ c from rfl, show (dats m 0 c).owed t0_0.succ = 0 from rfl]
  iintro ⟨⟨⟨⟨%K, Hctx, Hlin⟩, Hcr, Hls, Hx, Hout⟩, ⟨%f, Hstg⟩⟩, ⟨%W, %hW, HO⟩, -⟩
  iapply (sound_body m K c f _)
  unfold bodyPre
  isplitl [Hctx Hlin Hcr Hls Hx Hout Hstg HO]
  · isplitl [Hctx]; · iexact Hctx
    isplitl [Hlin]; · iexact Hlin
    isplitl [Hcr]; · iexact Hcr
    isplitl [Hls]; · iexact Hls
    isplitl [Hx]; · iexact Hx
    isplitl [Hout]; · iexact Hout
    isplitl [Hstg]; · iexact Hstg
    unfold owesX; iexists W; iexact HO
  · unfold bodyPost owesX
    iintro ⟨H1, ⟨%W', HO⟩⟩
    isplitl [H1]; · iexact H1
    isplitl [HO]
    · iexists W'
      isplitr; · ipureintro; exact fun _ _ => Or.inl trivial
      iexact HO
    · iempintro

end Cert.KernelIdeal.AG

end
-- ==== Proof.Launch.lean ====
import proofs.«900681_g7700000000000682_dist_ag_v7x_xyz2x2x4_x_m8192_n1024_f32_1_alg».proof.Proof.Proto
import proofs.«900681_g7700000000000682_dist_ag_v7x_xyz2x2x4_x_m8192_n1024_f32_1_alg».proof.Proof.Gen.KernelIdeal.Frame

/-!
# The launch

From every device's body obligation to the run of @main on the sixteen devices: every weakly fair execution terminates,
each device's result array ends holding the gathered array, its block of `x` what it held.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- Every device's result array holds the gathered array, and its block of `x` is as launched. -/
def QC : PUnit × MemSt nD τ sig (Elt F) → Prop := fun r =>
  ∀ c : Dev nD, r.2.mem ((c.tc : Thread nD τ).loc main_v1) = outF m c
    ∧ r.2.mem ((c.tc : Thread nD τ).loc main_arg0) = m ((c.tc : Thread nD τ).loc main_arg0)

/-! ## The kernel's own semaphores and the exchange's cells -/

/-- The kernel's own (scoped) semaphores: all twenty DMA semaphores. -/
abbrev osem : Fin 20 → SemLoc sig := fun i => .dma i

theorem ownSemFacts : Pipeline.OwnSemFacts cfg0.spec osem := by decide

/-- The index of the cell a role names. -/
def jOf : Role → Fin 17
  | .bar => jBar
  | .send k => jSend k
  | .recv k => jRecv k
  | .other => jBar

theorem jOf_csem (j : Fin 17) : jOf (role (csem j)) = j := by revert j; decide

theorem csem_injective : Function.Injective csem :=
  fun a b h => (jOf_csem a).symm.trans ((congrArg (fun s => jOf (role s)) h).trans (jOf_csem b))

theorem kcell_injective : Function.Injective (kcell : Dev nD × Fin 17 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

theorem jSend_injective : Function.Injective jSend := by decide
theorem jRecv_injective : Function.Injective jRecv := by decide

/-- The seventeen indices: the barrier's, the eight send cells', the eight receive cells'. -/
theorem univ17 : (Finset.univ : Finset (Fin 17))
    = insert jBar (Finset.univ.map ⟨jSend, jSend_injective⟩ ∪ Finset.univ.map ⟨jRecv, jRecv_injective⟩) := by decide

omit [FloatOps F] in
/-- A device's seventeen cells, by kind. -/
theorem bigSep_cells (c : Dev nD) (Φ : GSem nD τ sig → sProp 𝕄) :
    (bigSep Finset.univ fun j : Fin 17 => Φ (kcell (c, j)))
      = iprop(Φ (barCell c) ∗ (bigSep Finset.univ fun k : Fin 8 => Φ (sendCell c k)) ∗ (bigSep Finset.univ fun k : Fin 8 => Φ (recvCell c k))) := by
  rw [univ17, bigSep_insert (by decide), bigSep_union (by decide), bigSep_map, bigSep_map]
  simp only [kcell, Function.Embedding.coeFn_mk, csem_bar, csem_send, csem_recv]
  rfl

theorem copyS_injective : Function.Injective copyS := by decide
theorem lclS_injective : Function.Injective lclS := by decide
theorem sendS_injective : Function.Injective sendS := by decide
theorem recvS_injective : Function.Injective recvS := by decide

/-- The twenty DMA semaphores: two of the copies into the slots, two of the local copies out of them, eight send, eight receive. -/
theorem univ20 : (Finset.univ : Finset (Fin 20))
    = (Finset.univ.map ⟨copyS, copyS_injective⟩ ∪ Finset.univ.map ⟨lclS, lclS_injective⟩)
      ∪ (Finset.univ.map ⟨sendS, sendS_injective⟩ ∪ Finset.univ.map ⟨recvS, recvS_injective⟩) := by decide

omit [FloatOps F] in
/-- The own semaphores at zero: the four local cells' counters, the eight send cells', the eight receive cells'. -/
theorem ownSems0_eq (c : Dev nD) : (Pipeline.ownSems0 (Ix := Unit) (Name := ℕ) (U := UU) (Lvl := ℕ) (Val := Elt F) (τ := τ) osem c : sProp 𝕄)
    = iprop(((semVal ((c : Thread nD τ), SemLoc.dma (copyS 0)) 0 ∗ semVal ((c : Thread nD τ), SemLoc.dma (copyS 1)) 0)
        ∗ (semVal ((c : Thread nD τ), SemLoc.dma (lclS 0)) 0 ∗ semVal ((c : Thread nD τ), SemLoc.dma (lclS 1)) 0))
      ∗ ((bigSep Finset.univ fun k : Fin 8 => semVal (sendCell c k) 0) ∗ (bigSep Finset.univ fun k : Fin 8 => semVal (recvCell c k) 0))) := by
  unfold Pipeline.ownSems0
  rw [univ20, bigSep_union (by decide), bigSep_union (by decide), bigSep_union (by decide), bigSep_map, bigSep_map, bigSep_map, bigSep_map,
    bigSep_univ_two, bigSep_univ_two]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 17 => semVal (kcell (c, j)) 0) ∗ localSems c) := by
  refine BIBase.Entails.trans ?_ (sep_mono_left (Entails.of_eq (bigSep_cells c (fun g => (semVal g 0 : sProp 𝕄))).symm))
  rw [ownSems0_eq, unscopedSems0_eq]
  unfold localSems
  iintro ⟨⟨⟨⟨H0, H1⟩, H2, H3⟩, HS, HR⟩, HB⟩
  isplitl [HB HS HR]
  · isplitl [HB]; · iexact HB
    isplitl [HS] <;> iassumption
  · isplitl [H0]; · iexact H0
    isplitl [H1]; · iexact H1
    isplitl [H2] <;> iassumption

omit [FloatOps F] in
/-- Back: the twenty counters at zero are the own semaphores at zero. -/
theorem ownSems0_intro (c : Dev nD) :
    iprop(localSems c ∗ (bigSep Finset.univ fun k : Fin 8 => semVal (sendCell c k) 0) ∗ (bigSep Finset.univ fun k : Fin 8 => semVal (recvCell c k) 0))
      ⊢ (Pipeline.ownSems0 (Ix := Unit) (Name := ℕ) (U := UU) (Lvl := ℕ) (Val := Elt F) (τ := τ) osem c : sProp 𝕄) := by
  rw [ownSems0_eq]
  unfold localSems
  iintro ⟨⟨H0, H1, H2, H3⟩, HS, HR⟩
  isplitl [H0 H1 H2 H3]
  · isplitl [H0 H1]
    · isplitl [H0] <;> iassumption
    · isplitl [H2] <;> iassumption
  · isplitl [HS] <;> iassumption

/-! ## The launch credit -/

omit [FloatOps F] in
/-- What the partners owe one receive cell. -/
theorem launch_recv1 (c : Dev nD) (k : Fin 8) :
    (Pipeline.launchCred (fun d => tallyAt (recvCell (peer d) k) () Nc) c : sProp 𝕄) ⊢ cred (tallyAt (recvCell c k) () Nc) :=
  Pipeline.launchCred_tallyAt (SemLoc.dma (recvS k)) peer peer peer_peer peer_peer () Nc c

omit [FloatOps F] in
/-- What the partners owe the barrier cell. -/
theorem launch_bar (c : Dev nD) :
    (Pipeline.launchCred (fun d => tallyAt (barCell (peer d)) () 1) c : sProp 𝕄) ⊢ cred (tallyAt (barCell c) () 1) :=
  Pipeline.launchCred_tallyAt (SemLoc.reg barS) peer peer peer_peer peer_peer () 1 c

/-- The receive credits of cells `8 - n … 7`, the highest first: what `Orec` of the partner deals. -/
def recvCreds (c : Dev nD) : ℕ → sProp 𝕄
  | 0 => iprop(emp)
  | n + 1 => iprop(recvCreds c n ∗ cred (tallyAt (recvCell c ⟨(7 - n) % 8, Nat.mod_lt _ (by decide)⟩) () Nc))

omit [FloatOps F] in
theorem launch_Orec (c : Dev nD) : ∀ n, (Pipeline.launchCred (fun d => Orec d n) c : sProp 𝕄) ⊢ recvCreds c n
  | 0 => Entails.of_eq (Pipeline.launchCred_zero c)
  | n + 1 => by
    refine (Entails.of_eq (Pipeline.launchCred_add (fun d => Orec d n)
      (fun d => tallyAt (recvCell (peer d) ⟨(7 - n) % 8, Nat.mod_lt _ (by decide)⟩) () Nc) c)).trans ?_
    exact BI.sep_mono (launch_Orec c n) (launch_recv1 c _)

omit [FloatOps F] in
theorem recvCreds_all (c : Dev nD) : (recvCreds c 8 : sProp 𝕄) ⊢ bigSep Finset.univ fun k : Fin 8 => cred (tallyAt (recvCell c k) () Nc) := by
  rw [bigSep_fin8]
  show iprop(((((((((emp ∗ cred (tallyAt (recvCell c 7) () Nc)) ∗ cred (tallyAt (recvCell c 6) () Nc)) ∗ cred (tallyAt (recvCell c 5) () Nc))
    ∗ cred (tallyAt (recvCell c 4) () Nc)) ∗ cred (tallyAt (recvCell c 3) () Nc)) ∗ cred (tallyAt (recvCell c 2) () Nc))
    ∗ cred (tallyAt (recvCell c 1) () Nc)) ∗ cred (tallyAt (recvCell c 0) () Nc))) ⊢ _
  iintro ⟨⟨⟨⟨⟨⟨⟨⟨-, H7⟩, H6⟩, H5⟩, H4⟩, H3⟩, H2⟩, H1⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- The launch deals device `c` its barrier's unit and its eight receive cells' chunk credits: what its partner owes. -/
theorem creds_intro (c : Dev nD) : (Pipeline.launchCred O₀ c : sProp 𝕄) ⊢ creds c := by
  refine (Entails.of_eq (Pipeline.launchCred_add (fun d => Orec d 8) (fun d => tallyAt (barCell (peer d)) () 1) c)).trans ?_
  unfold creds
  iintro ⟨HR, HB⟩
  isplitl [HB]
  · iapply (launch_bar (F := F) c); iexact HB
  · iapply (recvCreds_all (F := F) c); iapply (launch_Orec (F := F) c 8); iexact HR

/-! ## The launch element and what it deals -/

/-- The exchange's cells: seventeen a device. -/
def exchCells : Finset (GSem nD τ sig) := Finset.univ.map ⟨kcell, kcell_injective⟩

/-- One duty token a cell. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def exchToks : Finset (GSem nD τ sig × ℕ × Unit) := Finset.univ.map ⟨tokOf, tokOf_injective⟩

/-- The launch element: the pipeline library's copy, the exchange's copy, no local counter booked. -/
def u₀ : UU :=
  (initOf (Pipeline.cells cfgs cellOf_inj) (Pipeline.launchToks cfgs cellOf_inj), (initOf exchCells exchToks, 1))

/-- What the launch element deals device `c`: its seventeen cells' round states, positions, reached records, and the
    tokens minted for its own cells. -/
def G (c : Dev nD) : sProp 𝕄 :=
  iprop((bigSep Finset.univ fun j : Fin 17 => roundState ER (Rd m) (kcell (c, j)) 0)
    ∗ (bigSep Finset.univ fun j : Fin 17 => iprop(atPos ER (kcell (c, j)) 0 ∅ 0 ∗ reached ER (kcell (c, j)) 0))
    ∗ (bigSep Finset.univ fun j : Fin 17 => dutyTok ER (kcell (c, j)) 0 ()))

/-- What the global step makes of it. -/
def G' (c : Dev nD) : sProp 𝕄 := iprop((∃ K, records m K ∗ linear c) ∗ localSems c)

omit [FloatOps F] in
theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun j : Fin 17 => Φ (kcell (c, j)) := by
    unfold exchCells; rw [bigSep_map, bigSep_univ_prod]; rfl
  have hT : bigSep exchToks (fun x => (dutyTok ER x.1 x.2.1 x.2.2 : sProp 𝕄))
      = bigSep Finset.univ fun c : Dev nD => bigSep Finset.univ fun j : Fin 17 => dutyTok ER (kcell (c, j)) 0 () := by
    unfold exchToks; rw [bigSep_map, bigSep_univ_prod]; rfl
  iintro HX
  imod (Rounds.fund ER (Rd m) exchCells exchToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem launch_elem : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HE, -⟩
  imod (fund_exch m) $$ HE with HG
  imodintro
  isplitl [HP] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 17 => iprop(∃ κ : ℕ, cellInv ER (Rd m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : Fin 17 => semVal (kcell (c, j)) 0) ∗ bigSep Finset.univ fun j : Fin 17 => roundState ER (Rd m) (kcell (c, j)) 0)
      ⊢ (|={Set.univ}=> bigSep Finset.univ fun j : Fin 17 => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The partner map as a permutation of the devices. -/
def peerEquiv : Dev nD ≃ Dev nD := ⟨peer, peer, peer_peer, peer_peer⟩

omit [FloatOps F] in
/-- The tokens dealt to the payers: a barrier's and a receive cell's to the partner, a send cell's stays. -/
theorem toks_around :
    (bigSep Finset.univ fun c : Dev nD => iprop(dutyTok ER (barCell c) 0 () ∗ (bigSep Finset.univ fun k : Fin 8 => dutyTok ER (sendCell c k) 0 ())
        ∗ (bigSep Finset.univ fun k : Fin 8 => dutyTok ER (recvCell c k) 0 ())) : sProp 𝕄)
      ⊢ bigSep Finset.univ fun c : Dev nD => iprop(dutyTok ER (barCell (peer c)) 0 () ∗ (bigSep Finset.univ fun k : Fin 8 => dutyTok ER (sendCell c k) 0 ())
        ∗ (bigSep Finset.univ fun k : Fin 8 => dutyTok ER (recvCell (peer c) k) 0 ())) := by
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun k : Fin 8 => dutyTok ER (recvCell c k) 0 () : sProp 𝕄))]
  iintro ⟨H1, H2, H3⟩
  isplitl [H1]; · iexact H1
  isplitl [H2]; · iexact H2
  iexact H3

omit [FloatOps F] in
theorem linear_intro (c : Dev nD) :
    iprop((atPos ER (barCell c) 0 ∅ 0 ∗ (bigSep Finset.univ fun k : Fin 8 => atPos ER (sendCell c k) 0 ∅ 0)
          ∗ (bigSep Finset.univ fun k : Fin 8 => atPos ER (recvCell c k) 0 ∅ 0))
        ∗ (dutyTok ER (barCell (peer c)) 0 () ∗ (bigSep Finset.univ fun k : Fin 8 => dutyTok ER (sendCell c k) 0 ())
          ∗ (bigSep Finset.univ fun k : Fin 8 => dutyTok ER (recvCell (peer c) k) 0 ())))
      ⊢ (linear c : sProp 𝕄) := by
  unfold linear Tok
  rw [bigSep_sep', bigSep_sep']
  iintro ⟨⟨HaB, HaS, HaR⟩, HtB, HtS, HtR⟩
  isplitl [HaB]; · iexact HaB
  isplitl [HtB]; · iexact HtB
  isplitl [HaS HtS HtR]
  · isplitl [HaS]; · iexact HaS
    isplitl [HtS] <;> iassumption
  iexact HaR

omit [FloatOps F] in
/-- Every device's positions and the tokens of the duties it pays. -/
theorem linear_all :
    iprop((bigSep Finset.univ fun c : Dev nD => bigSep Finset.univ fun j : Fin 17 => (atPos ER (kcell (c, j)) 0 ∅ 0 : sProp 𝕄))
        ∗ (bigSep Finset.univ fun c : Dev nD => bigSep Finset.univ fun j : Fin 17 => (dutyTok ER (kcell (c, j)) 0 () : sProp 𝕄)))
      ⊢ bigSep Finset.univ fun c : Dev nD => (linear c : sProp 𝕄) := by
  have e1 (c : Dev nD) : (bigSep Finset.univ fun j : Fin 17 => (atPos ER (kcell (c, j)) 0 ∅ 0 : sProp 𝕄))
      = iprop(atPos ER (barCell c) 0 ∅ 0 ∗ (bigSep Finset.univ fun k : Fin 8 => atPos ER (sendCell c k) 0 ∅ 0)
          ∗ (bigSep Finset.univ fun k : Fin 8 => atPos ER (recvCell c k) 0 ∅ 0)) := bigSep_cells c (fun g => atPos ER g 0 ∅ 0)
  have e2 (c : Dev nD) : (bigSep Finset.univ fun j : Fin 17 => (dutyTok ER (kcell (c, j)) 0 () : sProp 𝕄))
      = iprop(dutyTok ER (barCell c) 0 () ∗ (bigSep Finset.univ fun k : Fin 8 => dutyTok ER (sendCell c k) 0 ())
          ∗ (bigSep Finset.univ fun k : Fin 8 => dutyTok ER (recvCell c k) 0 ())) := bigSep_cells c (fun g => dutyTok ER g 0 ())
  rw [bigSep_congr (s := Finset.univ) (fun (c : Dev nD) _ => e1 c), bigSep_congr (s := Finset.univ) (fun (c : Dev nD) _ => e2 c)]
  refine BIBase.Entails.trans ?_ (bigSep_mono (s := Finset.univ) fun c _ => linear_intro (F := F) c)
  refine BIBase.Entails.trans ?_ (Entails.of_eq (bigSep_sep' Finset.univ _ _).symm)
  iintro ⟨Hat, Htok⟩
  ihave Htk := (toks_around (F := F)) $$ Htok
  isplitl [Hat] <;> iassumption

omit [FloatOps F] in
theorem ghost_intro (K : Dev nD × Fin 17 → ℕ) (c : Dev nD) : iprop(records m K ∗ (linear c ∗ localSems c)) ⊢ G' m c := by
  unfold G'
  iintro ⟨#HR, Hl, Hs⟩
  isplitl [Hl]
  · iexists K
    isplitr; · iexact HR
    iexact Hl
  · iexact Hs

omit [FloatOps F] in
theorem regroup :
    (bigSep Finset.univ fun c : Dev nD => iprop((bigSep Finset.univ fun j : Fin 17 => iprop(∃ κ : ℕ, cellInv ER (Rd m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) : sProp 𝕄)
      ⊢ bigSep Finset.univ (G' m) := by
  rw [bigSep_sep', bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  iintro ⟨HI, ⟨Hat, #HR⟩, Htok, Hloc⟩
  ihave HK := (BI.bigSep_exists_pi Finset.univ (fun (ck : Dev nD × Fin 17) (κ : ℕ) => (cellInv ER (Rd m) κ (kcell ck) : sProp 𝕄))) $$ HI
  icases HK with ⟨%K, #HI⟩
  ihave Hlin := (linear_all (F := F)) $$ [Hat Htok]
  · isplitl [Hat] <;> iassumption
  iapply (bigSep_with_persistent (R := records m K) fun c _ => ghost_intro m K c)
  isplitr
  · unfold records; isplitl; · iexact HI
    iexact HR
  · rw [bigSep_sep']
    isplitl [Hlin] <;> iassumption

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start ctx xAt X O0
  iintro ⟨⟨Hx, Ho⟩, Hlev, Hcr, -, ⟨%K, Hrec, Hlin⟩, Hloc⟩
  ihave Hc := (creds_intro (F := F) c) $$ Hcr
  imodintro
  isplitl
  · isplitl [Hrec Hlev Hlin]
    · iexists K
      isplitl [Hrec Hlev]
      · isplitl [Hrec] <;> iassumption
      · iexact Hlin
    isplitl [Hc]; · iexact Hc
    isplitl [Hloc]; · iexact Hloc
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ stageAny
  iintro ⟨Hs, -, ⟨%f, Hr⟩⟩
  isplitl [Hs]; · iexact Hs
  iexists f; iexact Hr

/-- What a device hands back outside its scoped storage: `x` as launched, the result array gathered. -/
def Yc (c : Dev nD) : sProp 𝕄 := iprop(xAt m c fullShare ∗ (((c : Thread nD τ).loc main_v1) ↦{fullShare} outF m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc stageAny
  iintro ⟨Hx, Ho, ⟨%f, Hst⟩, Hloc, HS, HR⟩
  isplitl [Hx Ho]; · isplitl [Hx] <;> iassumption
  isplitl [Hloc HS HR]
  · iapply (ownSems0_intro (F := F) c)
    isplitl [Hloc]; · iexact Hloc
    isplitl [HS] <;> iassumption
  · iexists f; iexact Hst

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- Given every device's body obligation: at the compiled mesh of sixteen devices, for any float values, from any memory with
    zero counters, every weakly fair execution of @main terminates, nothing faults, and every final state satisfies `QC`. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := launch_elem m)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = outF m c
      ∧ s.mem ((c : Thread nD τ).loc main_arg0) = m ((c : Thread nD τ).loc main_arg0))
    (hY := fun c s' => by
      unfold Yc xAt
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- info: 'Cert.KernelIdeal.AG.run_main_of' depends on axioms: [propext, Classical.choice, Quot.sound] -/
#guard_msgs in #print axioms run_main_of

end Cert.KernelIdeal.AG

end
-- ==== Proof.Run.lean ====
import proofs.«900681_g7700000000000682_dist_ag_v7x_xyz2x2x4_x_m8192_n1024_f32_1_alg».proof.Proof.Body
import proofs.«900681_g7700000000000682_dist_ag_v7x_xyz2x2x4_x_m8192_n1024_f32_1_alg».proof.Proof.Launch

/-!
# The run

The launch applied to every device's body: the run of @main on the sixteen devices.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- At the compiled mesh of sixteen devices, for any float values, from any memory with zero counters: every weakly fair
    execution of @main terminates, nothing faults, each device's result array ends holding the gathered array and its
    block of `x` what it held. -/
theorem run_main : θ_run defs (onTc (τ := τ) (main (F := F))) ⟨m, fun _ => 0, ρ⟩ (QC m) :=
  run_main_of m ρ (body_obligation m)

end Cert.KernelIdeal.AG

end
-- ==== Proof.KProto.lean ====
import proofs.«900681_g7700000000000682_dist_ag_v7x_xyz2x2x4_x_m8192_n1024_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic
import Idealize.ShloMosaic.Lib.ValueIdx

/-!
# The pairwise exchange: algebra, cells and schedule

Sixteen devices in pairs: device `c` and its partner `peer c` differ in the coordinate on the
first mesh axis only.  Each device copies its block of `x`, eight row chunks of 1024 rows, through
a two-slot staging buffer into its own result array and into its partner's, at the rows its first
mesh coordinate names.  One unit on the partner's barrier semaphore says "I am inside the kernel";
chunk `k` completes on the sender's send semaphore `k` and on the receiver's receive semaphore `k`.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own copy (one duty a round), the
local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

/-! ## The pairs -/

def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel
theorem dev6_eq (c : Dev nD) : (⟨k0_dev6 c, k0_dev6_lt c⟩ : Dev nD) = peer c := by revert c; decide +kernel
theorem dev7_eq (c : Dev nD) : (⟨k0_dev7 c, k0_dev7_lt c⟩ : Dev nD) = peer c := by revert c; decide +kernel
theorem dev8_eq (c : Dev nD) : (⟨k0_dev8 c, k0_dev8_lt c⟩ : Dev nD) = peer c := by revert c; decide +kernel
theorem dev9_eq (c : Dev nD) : (⟨k0_dev9 c, k0_dev9_lt c⟩ : Dev nD) = peer c := by revert c; decide +kernel

/-! ## The memrefs: the block of `x`, the result array, the two staging slots; their chunk slices -/

abbrev xM : Memref sig .tc .hbm S8192x1024 .f32 := Memref.whole main_arg0
abbrev oM : Memref sig .tc .hbm S16384x1024 .f32 := Memref.whole main_v1
abbrev gM : Memref sig .tc .vmem S2x1024x1024 .f32 := Memref.whole cc0_scratch0

theorem inb_x (k : Fin 8) : ∀ a, (![1024 * k.val, 0] : Fin 2 → Nat) a + S1024x1024.size a ≤ S8192x1024.size a := by revert k; decide
theorem inb_g (s : Fin 2) : ∀ a, (![s.val, 0, 0] : Fin 3 → Nat) a + S1x1024x1024.size a ≤ S2x1024x1024.size a := by revert s; decide
theorem inb_s2 (s : Fin 2) : ∀ a, (![s.val] : Fin 1 → Nat) a + S1.size a ≤ S2.size a := by revert s; decide
theorem inb_s8 (k : Fin 8) : ∀ a, (![k.val] : Fin 1 → Nat) a + S1.size a ≤ S8.size a := by revert k; decide

/-- Rows `1024 k … 1024 k + 1023` of the device's block of `x`. -/
abbrev xSl (k : Fin 8) : Memref sig .tc .hbm S1024x1024 .f32 :=
  xM.slice (Rect.unit (s := S8192x1024) ![1024 * k.val, 0] S1024x1024.size (inb_x k)) (fun _ => rfl)
/-- Staging slot `s`. -/
abbrev gSl (s : Fin 2) : Memref sig .tc .vmem S1024x1024 .f32 :=
  (gM.slice (Rect.unit (s := S2x1024x1024) ![s.val, 0, 0] S1x1024x1024.size (inb_g s)) (fun _ => rfl)).squeeze S1024x1024 squeezes_S1x1024x1024_S1024x1024
/-- The rows of a result array that chunk `k` of SENDER `d`'s block goes to: `8192 (d / 8) + 1024 k` onwards. -/
abbrev oSl (d : Dev nD) (k : Fin 8) : Memref sig .tc .hbm S1024x1024 .f32 :=
  oM.slice (Rect.unit (s := S16384x1024) (k0_off1 d (BitVec.ofNat 32 (1024 * k.val))) S1024x1024.size (k0_off1_inb d k)) (fun _ => rfl)

/-- The slot chunk `k` goes through. -/
def slot (k : Fin 8) : Fin 2 := ⟨k.val % 2, Nat.mod_lt _ (by decide)⟩

/-! ## The semaphores and cells -/

abbrev barS : Sem sig := (SemArray.scalar (sig.barrier 0 rfl) : Sems sig S_).sem
abbrev copyS (s : Fin 2) : DmaSem sig := ((cc0_scratch1.slice (Rect.unit (s := S2) ![s.val] S1.size (inb_s2 s))).squeeze S_ squeezes_S1_S_).sem
abbrev lclS (s : Fin 2) : DmaSem sig := ((cc0_scratch2.slice (Rect.unit (s := S2) ![s.val] S1.size (inb_s2 s))).squeeze S_ squeezes_S1_S_).sem
abbrev sendS (k : Fin 8) : DmaSem sig := ((cc0_scratch3.slice (Rect.unit (s := S8) ![k.val] S1.size (inb_s8 k))).squeeze S_ squeezes_S1_S_).sem
abbrev recvS (k : Fin 8) : DmaSem sig := ((cc0_scratch4.slice (Rect.unit (s := S8) ![k.val] S1.size (inb_s8 k))).squeeze S_ squeezes_S1_S_).sem

theorem copyS_val (s : Fin 2) : (copyS s).val = s.val := by revert s; decide
theorem lclS_val (s : Fin 2) : (lclS s).val = 2 + s.val := by revert s; decide
theorem sendS_val (k : Fin 8) : (sendS k).val = 4 + k.val := by revert k; decide
theorem recvS_val (k : Fin 8) : (recvS k).val = 12 + k.val := by revert k; decide

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- What a transfer of one chunk credits. -/
abbrev Nc : ℕ := (gSl 0).view.dmaCredit
theorem Nc_pos : 0 < Nc := View.dmaCredit_pos _ (by decide)

/-! ## Contents -/

variable (m : (ℓ : Loc nD τ sig) → Buf (Elt F) ℓ)

/-- Device `c`'s block of `x`, as launched. -/
def X (c : Dev nD) : S8192x1024.Idx → Elt F .f32 := m ((c : Thread nD τ).loc main_arg0)
/-- Device `c`'s result array, as launched (arbitrary). -/
def O0 (c : Dev nD) : S16384x1024.Idx → Elt F .f32 := m ((c : Thread nD τ).loc main_v1)

/-- A staging buffer holding chunk `k` of the device's block (in both slots: only slot `k % 2` is ever held at it). -/
def gC (c : Dev nD) (k : Fin 8) : S2x1024x1024.Idx → Elt F .f32 := fun i =>
  X m c (ValueIdx.ix2 (n0 := 8192) (n1 := 1024) ⟨1024 * k.val + (i 1).val, by have h : (i 1).val < 1024 := (i 1).isLt; have := k.isLt; omega⟩ (i 2))

/-- The gathered array on device `c`: rows `8192 j …` hold the block of the pair's member whose first mesh coordinate is `j`. -/
def outF (c : Dev nD) : S16384x1024.Idx → Elt F .f32 := fun i =>
  if (i 0).val / 8192 = c.val / 8
  then X m c (ValueIdx.ix2 (n0 := 8192) (n1 := 1024) ⟨(i 0).val % 8192, Nat.mod_lt _ (by decide)⟩ (i 1))
  else X m (peer c) (ValueIdx.ix2 (n0 := 8192) (n1 := 1024) ⟨(i 0).val % 8192, Nat.mod_lt _ (by decide)⟩ (i 1))

/-! ## The schedule -/

/-- What a semaphore is for. -/
inductive Role | bar | send (k : Fin 8) | recv (k : Fin 8) | other
  deriving DecidableEq

def role : SemLoc sig → Role
  | .reg s => if s = barS then .bar else .other
  | .dma q => if h : 4 ≤ q.val ∧ q.val < 12 then .send ⟨q.val - 4, by omega⟩
              else if h' : 12 ≤ q.val ∧ q.val < 20 then .recv ⟨q.val - 12, by omega⟩ else .other

theorem role_bar : role (.reg barS) = .bar := by decide
theorem role_send (k : Fin 8) : role (.dma (sendS k)) = .send k := by revert k; decide
theorem role_recv (k : Fin 8) : role (.dma (recvS k)) = .recv k := by revert k; decide

/-- One unit on `c`'s barrier, from its partner `peer c`: the partner is inside the kernel, and lends `c` the rows of ITS
    result array that `c`'s eight chunks go to, as launched. -/
def barPay (c : Dev nD) : sProp 𝕄 :=
  bigSep Finset.univ fun k : Fin 8 =>
    ((oSl c k).view.loc (peer c : Thread nD τ) ↦[(oSl c k).view.set]{fullShare} (O0 m (peer c)) : sProp 𝕄)
/-- Chunk `k` has left slot `k % 2` of `c`'s staging buffer for the partner: the half share lent comes back. -/
def sendPay (c : Dev nD) (k : Fin 8) : sProp 𝕄 :=
  (gSl (slot k)).view.loc (c : Thread nD τ) ↦[(gSl (slot k)).view.set]{fullShare.left} (gC m c k)
/-- Chunk `k` of the partner's block has landed in `c`'s result array: those rows hold the gathered array's. -/
def recvPay (c : Dev nD) (k : Fin 8) : sProp 𝕄 :=
  (oSl (peer c) k).view.loc (c : Thread nD τ) ↦[(oSl (peer c) k).view.set]{fullShare} (outF m c)

/-- One round, one duty a cell: the barrier's unit; a send or receive cell's chunk credit. -/
def Rd : Rounds.Schedule (GSem nD τ sig) Unit 𝕄 where
  duties g r := if r = 0 ∧ g.1.2 = .tc ∧ role g.2 ≠ .other then {()} else ∅
  amount g _ _ := if role g.2 = .bar then 1 else Nc
  payload g _ _ := match role g.2 with
    | .bar => barPay m g.1.1
    | .send k => sendPay m g.1.1 k
    | .recv k => recvPay m g.1.1 k
    | .other => iprop(emp)
  amount_pos g _ _ _ := by
    by_cases h : role g.2 = .bar
    · rw [if_pos h]; exact Nat.one_pos
    · rw [if_neg h]; exact Nc_pos

instance Rd_payload_storable (g : GSem nD τ sig) (r : ℕ) (d : Unit) :
    BI.Storable (upEmb : UEmb _ 𝕄) ((Rd (F := F) m).payload g r d) := by
  show BI.Storable upEmb (match role g.2 with
    | .bar => barPay m g.1.1 | .send k => sendPay m g.1.1 k | .recv k => recvPay m g.1.1 k | .other => iprop(emp))
  unfold barPay sendPay recvPay
  split <;> infer_instance

section Sched
variable (c : Dev nD) (k : Fin 8)

omit [FloatOps F] in
theorem duties_bar : (Rd (F := F) m).duties (barCell c) 0 = {()} := by
  dsimp only [Rd]; exact if_pos ⟨rfl, rfl, by rw [role_bar]; exact fun h => by cases h⟩
omit [FloatOps F] in
theorem duties_send : (Rd (F := F) m).duties (sendCell c k) 0 = {()} := by
  dsimp only [Rd]; exact if_pos ⟨rfl, rfl, by rw [role_send]; exact fun h => by cases h⟩
omit [FloatOps F] in
theorem duties_recv : (Rd (F := F) m).duties (recvCell c k) 0 = {()} := by
  dsimp only [Rd]; exact if_pos ⟨rfl, rfl, by rw [role_recv]; exact fun h => by cases h⟩
omit [FloatOps F] in
theorem duties_later (g : GSem nD τ sig) : ∀ r, 1 ≤ r → (Rd (F := F) m).duties g r = ∅ :=
  fun r hr => by dsimp only [Rd]; rw [if_neg fun h => by omega]

omit [FloatOps F] in
theorem amount_bar (d : Unit) : (Rd (F := F) m).amount (barCell c) 0 d = 1 := by dsimp only [Rd]; rw [role_bar]; rfl
omit [FloatOps F] in
theorem amount_send (d : Unit) : (Rd (F := F) m).amount (sendCell c k) 0 d = Nc := by
  dsimp only [Rd]; rw [role_send]; exact if_neg (fun h => by cases h)
omit [FloatOps F] in
theorem amount_recv (d : Unit) : (Rd (F := F) m).amount (recvCell c k) 0 d = Nc := by
  dsimp only [Rd]; rw [role_recv]; exact if_neg (fun h => by cases h)

omit [FloatOps F] in
theorem expect_bar : (Rd (F := F) m).expect (barCell c) 0 = 1 := by
  unfold Schedule.expect Schedule.amountOf; rw [duties_bar, Finset.sum_singleton, amount_bar]
omit [FloatOps F] in
theorem expect_send : (Rd (F := F) m).expect (sendCell c k) 0 = Nc := by
  unfold Schedule.expect Schedule.amountOf; rw [duties_send, Finset.sum_singleton, amount_send]
omit [FloatOps F] in
theorem expect_recv : (Rd (F := F) m).expect (recvCell c k) 0 = Nc := by
  unfold Schedule.expect Schedule.amountOf; rw [duties_recv, Finset.sum_singleton, amount_recv]

omit [FloatOps F] in
theorem payload_bar (d : Unit) : (Rd (F := F) m).payload (barCell c) 0 d = barPay m c := by dsimp only [Rd]; rw [role_bar]
omit [FloatOps F] in
theorem payload_send (d : Unit) : (Rd (F := F) m).payload (sendCell c k) 0 d = sendPay m c k := by dsimp only [Rd]; rw [role_send]
omit [FloatOps F] in
theorem payload_recv (d : Unit) : (Rd (F := F) m).payload (recvCell c k) 0 d = recvPay m c k := by dsimp only [Rd]; rw [role_recv]

omit [FloatOps F] in
theorem rest_bar : bigSep ((Rd (F := F) m).duties (barCell c) 0 \ ∅) (fun d => (Rd (F := F) m).payload (barCell c) 0 d) = barPay m c := by
  rw [Finset.sdiff_empty, duties_bar, bigSep_singleton, payload_bar]
omit [FloatOps F] in
theorem rest_send : bigSep ((Rd (F := F) m).duties (sendCell c k) 0 \ ∅) (fun d => (Rd (F := F) m).payload (sendCell c k) 0 d) = sendPay m c k := by
  rw [Finset.sdiff_empty, duties_send, bigSep_singleton, payload_send]
omit [FloatOps F] in
theorem rest_recv : bigSep ((Rd (F := F) m).duties (recvCell c k) 0 \ ∅) (fun d => (Rd (F := F) m).payload (recvCell c k) 0 d) = recvPay m c k := by
  rw [Finset.sdiff_empty, duties_recv, bigSep_singleton, payload_recv]

end Sched

/-! ## What each device owes at launch; the levels -/

/-- The receive credits of the partner's cells `8 - n … 7`, the highest chunk first, so that sending chunk `k` peels the last summand. -/
def Orec (c : Dev nD) : ℕ → CellTallies nD τ sig Unit
  | 0 => 0
  | n + 1 => Orec c n + tallyAt (recvCell (peer c) ⟨(7 - n) % 8, Nat.mod_lt _ (by decide)⟩) () Nc
/-- Device `c` owes its partner eight chunk credits and one barrier unit (the signal comes first, so it is the last summand). -/
def O₀ (c : Dev nD) : CellTallies nD τ sig Unit := Orec c 8 + tallyAt (barCell (peer c)) () 1

/-- Everything in `O` is owed to a receive cell of the partner. -/
def OnlyRecv (c : Dev nD) (O : CellTallies nD τ sig Unit) : Prop := ∀ g u, 0 < O g u → ∃ k, g = recvCell (peer c) k

theorem onlyRecv_Orec (c : Dev nD) : ∀ n, OnlyRecv c (Orec c n)
  | 0 => fun g u h => absurd h (by simp [Orec])
  | n + 1 => fun g u h => by
    unfold Orec at h
    rw [Pi.add_apply, Finsupp.add_apply, tallyAt_apply] at h
    by_cases hg : g = recvCell (peer c) ⟨(7 - n) % 8, Nat.mod_lt _ (by decide)⟩ ∧ u = ()
    · exact ⟨_, hg.1⟩
    · rw [if_neg hg, Nat.add_zero] at h; exact onlyRecv_Orec c n g u h

def L (g : GSem nD τ sig) : Finset Unit := if g.1.2 = .tc then {()} else ∅
/-- Barrier cells at 1, receive cells at 2, everything else (staging and local cells, send cells) at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device owing only receive credits may wait on any of its cells that is no receive cell. -/
theorem mayWait_low (c : Dev nD) (sm : SemLoc sig) (hsm : ∀ k, role sm ≠ .recv k) (O : CellTallies nD τ sig Unit) (hO : OnlyRecv c O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨k, rfl⟩ := hO g u hg; rw [L_tc]; exact Finset.mem_singleton_self _)
    (fun p hp => by
      rw [Finset.mem_singleton.mp hp]; dsimp only [lv]
      cases hr : role sm with
      | bar => exact le_rfl
      | recv k => exact absurd hr (hsm k)
      | send k => exact Nat.zero_le _
      | other => exact Nat.zero_le _)
    (fun g u hg => by obtain ⟨k, rfl⟩ := hO g u hg; dsimp only [lv]; rw [role_recv]; exact Nat.one_lt_two)

/-! ## The cells, indexed; what every device reads -/

/-- The exchange's seventeen cells of a device: its barrier, its eight send cells, its eight receive cells. -/
def csem (j : Fin 17) : SemLoc sig :=
  if h0 : j.val = 0 then .reg barS
  else if h1 : j.val ≤ 8 then .dma (sendS ⟨j.val - 1, by omega⟩)
  else .dma (recvS ⟨j.val - 9, by omega⟩)
abbrev kcell (ck : Dev nD × Fin 17) : GSem nD τ sig := ((ck.1 : Thread nD τ), csem ck.2)
def jBar : Fin 17 := 0
def jSend (k : Fin 8) : Fin 17 := ⟨1 + k.val, by omega⟩
def jRecv (k : Fin 8) : Fin 17 := ⟨9 + k.val, by omega⟩
theorem csem_bar : csem jBar = .reg barS := by decide
theorem csem_send (k : Fin 8) : csem (jSend k) = .dma (sendS k) := by revert k; decide
theorem csem_recv (k : Fin 8) : csem (jRecv k) = .dma (recvS k) := by revert k; decide

/-- Every cell's invariant, under the names `K`, and that round 0 of every cell is reached. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-- What every step reads: the records and the levels. -/
def ctx (K : Dev nD × Fin 17 → ℕ) : sProp 𝕄 := iprop(records m K ∗ levAts L lv)

instance ctx_persistent (K : Dev nD × Fin 17 → ℕ) : BI.Persistent (ctx m K) := by unfold ctx; infer_instance

section Ctx
variable (K : Dev nD × Fin 17 → ℕ) (c : Dev nD) (k : Fin 8)

omit [FloatOps F] in
theorem ctx_inv (ck : Dev nD × Fin 17) : ctx m K ⊢ cellInv ER (Rd m) (K ck) (kcell ck) := by
  have h1 : (bigSep Finset.univ fun ck : Dev nD × Fin 17 => (cellInv ER (Rd m) (K ck) (kcell ck) : sProp 𝕄)) ⊢ cellInv ER (Rd m) (K ck) (kcell ck) :=
    bigSep_elim (Finset.mem_univ ck)
  unfold ctx records; iintro ⟨⟨HI, -⟩, -⟩; iapply h1; iexact HI
omit [FloatOps F] in
theorem ctx_reached (ck : Dev nD × Fin 17) : ctx m K ⊢ reached ER (kcell ck) 0 := by
  have h1 : (bigSep Finset.univ fun ck : Dev nD × Fin 17 => (reached ER (kcell ck) 0 : sProp 𝕄)) ⊢ reached ER (kcell ck) 0 :=
    bigSep_elim (Finset.mem_univ ck)
  unfold ctx records; iintro ⟨⟨-, HR⟩, -⟩; iapply h1; iexact HR
omit [FloatOps F] in
theorem ctx_lev : ctx m K ⊢ (levAts L lv : sProp 𝕄) := by
  unfold ctx; iintro ⟨-, H⟩; iexact H

omit [FloatOps F] in
theorem ctx_inv_bar : ctx m K ⊢ cellInv ER (Rd m) (K (c, jBar)) (barCell c) := by
  have h := ctx_inv m K (c, jBar); unfold kcell at h; rw [csem_bar] at h; exact h
omit [FloatOps F] in
theorem ctx_inv_send : ctx m K ⊢ cellInv ER (Rd m) (K (c, jSend k)) (sendCell c k) := by
  have h := ctx_inv m K (c, jSend k); unfold kcell at h; rw [csem_send] at h; exact h
omit [FloatOps F] in
theorem ctx_inv_recv : ctx m K ⊢ cellInv ER (Rd m) (K (c, jRecv k)) (recvCell c k) := by
  have h := ctx_inv m K (c, jRecv k); unfold kcell at h; rw [csem_recv] at h; exact h
omit [FloatOps F] in
theorem ctx_reached_bar : ctx m K ⊢ reached ER (barCell c) 0 := by
  have h := ctx_reached m K (c, jBar); unfold kcell at h; rw [csem_bar] at h; exact h
omit [FloatOps F] in
theorem ctx_reached_send : ctx m K ⊢ reached ER (sendCell c k) 0 := by
  have h := ctx_reached m K (c, jSend k); unfold kcell at h; rw [csem_send] at h; exact h
omit [FloatOps F] in
theorem ctx_reached_recv : ctx m K ⊢ reached ER (recvCell c k) 0 := by
  have h := ctx_reached m K (c, jRecv k); unfold kcell at h; rw [csem_recv] at h; exact h

end Ctx

/-! ## What a device holds, piece by piece -/

abbrev EC : UEmb Counters (MT nD τ sig Unit (Elt F) ℕ UU ℕ) := countersEmb

/-- In device `c`'s result array, the rows chunk `k` of sender `d`'s block goes to, at contents `f`. -/
def rows (c d : Dev nD) (k : Fin 8) (f : S16384x1024.Idx → Elt F .f32) : sProp 𝕄 :=
  (oSl d k).view.loc (c : Thread nD τ) ↦[(oSl d k).view.set]{fullShare} f
/-- Staging slot `s` of device `c` at share `q` and contents `f`. -/
def slotAt (c : Dev nD) (s : Fin 2) (q : PosShare TreeShare) (f : S2x1024x1024.Idx → Elt F .f32) : sProp 𝕄 :=
  (gSl s).view.loc (c : Thread nD τ) ↦[(gSl s).view.set]{q} f
/-- Device `c`'s block of `x`: whole, chunk `k` of it, and all but chunk `k`, at share `q`. -/
def xAt (c : Dev nD) (q : PosShare TreeShare) : sProp 𝕄 := ((c : Thread nD τ).loc main_arg0) ↦{q} X m c
def xChunk (c : Dev nD) (k : Fin 8) (q : PosShare TreeShare) : sProp 𝕄 := (xSl k).view.loc (c : Thread nD τ) ↦[(xSl k).view.set]{q} X m c
def xRest (c : Dev nD) (k : Fin 8) (q : PosShare TreeShare) : sProp 𝕄 :=
  (xSl k).view.loc (c : Thread nD τ) ↦[Finset.univ \ (xSl k).view.set]{q} X m c

/-- The copy of chunk `k` of `x` into its slot, in flight: at its wait the slot holds the chunk, and the chunk's share of `x` is back. -/
def copyFlight (c : Dev nD) (k : Fin 8) (q : PosShare TreeShare) : sProp 𝕄 :=
  Transfers.Flight EC (c : Thread nD τ) (.dma (copyS (slot k))) () Nc iprop(slotAt c (slot k) fullShare (gC m c k) ∗ xChunk m c k q)
/-- The copy of chunk `k` from its slot into the device's own result rows, in flight. -/
def lclFlight (c : Dev nD) (k : Fin 8) : sProp 𝕄 :=
  Transfers.Flight EC (c : Thread nD τ) (.dma (lclS (slot k))) () Nc iprop(rows c c k (outF m c) ∗ slotAt c (slot k) fullShare.right (gC m c k))

/-- Chunk `k` pushed and not yet drained: the send credit, the send cell's position, the local copy in flight. -/
def Pending (c : Dev nD) (k : Fin 8) : sProp 𝕄 :=
  iprop(cred (tallyAt (sendCell c k) () Nc) ∗ atPos ER (sendCell c k) 0 ∅ 0 ∗ lclFlight m c k)
/-- Chunk `k` drained: the device's own rows hold it, the send cell is closed. -/
def Done (c : Dev nD) (k : Fin 8) : sProp 𝕄 := iprop(rows c c k (outF m c) ∗ semVal (sendCell c k) 0)
/-- The two duty tokens chunk `k`'s transfer to the partner pays with. -/
def Tok (c : Dev nD) (k : Fin 8) : sProp 𝕄 := iprop(dutyTok ER (sendCell c k) 0 () ∗ dutyTok ER (recvCell (peer c) k) 0 ())
/-- The rows chunk `k` goes to, here and on the partner, as launched. -/
def Rows (c : Dev nD) (k : Fin 8) : sProp 𝕄 := iprop(rows c c k (O0 m c) ∗ rows (peer c) c k (O0 m (peer c)))
/-- What the device owes, whatever waits it has recorded. -/
def owesX (c : Dev nD) (O : CellTallies nD τ sig Unit) : sProp 𝕄 := iprop(∃ W, owes (c : Thread nD τ) O W)

/-! ## The proof data -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The exchange's ghost state device `c` starts from (the records apart): its positions on its own seventeen cells, and the
    tokens of the duties IT pays — its partner's barrier unit, and for each chunk its own send cell's and its partner's
    receive cell's. -/
def linear (c : Dev nD) : sProp 𝕄 :=
  iprop(atPos ER (barCell c) 0 ∅ 0 ∗ dutyTok ER (barCell (peer c)) 0 ()
    ∗ (bigSep Finset.univ fun k : Fin 8 => iprop(atPos ER (sendCell c k) 0 ∅ 0 ∗ Tok c k))
    ∗ (bigSep Finset.univ fun k : Fin 8 => atPos ER (recvCell c k) 0 ∅ 0))

/-- The credit the launch deals device `c`: its barrier's unit, its eight receive cells' chunk credits. -/
def creds (c : Dev nD) : sProp 𝕄 :=
  iprop(cred (tallyAt (barCell c) () 1) ∗ bigSep Finset.univ fun k : Fin 8 => cred (tallyAt (recvCell c k) () Nc))

/-- The four local cells' counters at zero. -/
def localSems (c : Dev nD) : sProp 𝕄 :=
  iprop(semVal ((c : Thread nD τ), SemLoc.dma (copyS 0)) 0 ∗ semVal ((c : Thread nD τ), SemLoc.dma (copyS 1)) 0
    ∗ semVal ((c : Thread nD τ), SemLoc.dma (lclS 0)) 0 ∗ semVal ((c : Thread nD τ), SemLoc.dma (lclS 1)) 0)

/-- What the launch hands device `c` outside the kernel's scoped storage. -/
def start (c : Dev nD) : sProp 𝕄 :=
  iprop((∃ K, ctx m K ∗ linear c) ∗ creds c ∗ localSems c ∗ xAt m c fullShare
    ∗ (((c : Thread nD τ).loc main_v1) ↦{fullShare} O0 m c))

def stageAny (c : Dev nD) : sProp 𝕄 := iprop(∃ f : S2x1024x1024.Idx → Elt F .f32, ((c : Thread nD τ).loc cc0_scratch0) ↦{fullShare} f)

def Φ₀ (c : Dev nD) : sProp 𝕄 := iprop(start m c ∗ stageAny c)
/-- After the body: `x` as launched, the result array gathered, the staging buffer at anything, all twenty own counters at zero. -/
def Φ₁ (c : Dev nD) : sProp 𝕄 :=
  iprop(xAt m c fullShare ∗ (((c : Thread nD τ).loc main_v1) ↦{fullShare} outF m c) ∗ stageAny c ∗ localSems c
    ∗ (bigSep Finset.univ fun k : Fin 8 => semVal (sendCell c k) 0) ∗ (bigSep Finset.univ fun k : Fin 8 => semVal (recvCell c k) 0))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KValues.lean ====
import proofs.«900681_g7700000000000682_dist_ag_v7x_xyz2x2x4_x_m8192_n1024_f32_1_alg».proof.Proof.KProto
import Idealize.ShloMosaic.Lib.Pipeline.Value
import Idealize.ShloMosaic.Lib.Layout

/-!
# Values and pieces

The staging buffer is its two slots; a result array is the sixteen row blocks the pair's sixteen chunks go to; a piece
written whole by a chunk's transfer holds what the canonical contents hold there; and the gathered array is the whole `x`
when each device's block is its part of it.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ) (c : Dev nD)

/-! ## Where the pieces sit, and which elements each holds -/

namespace Pieces

/-- Chunk `k`'s rows of `x`: local index `y` sits at row `1024 k + y 0`. -/
theorem xSl_emb (k : Fin 8) (y : S1024x1024.Idx) :
    (xSl k).view.emb y
      = ValueIdx.ix2 (n0 := 8192) (n1 := 1024)
          ⟨1024 * k.val + (y 0).val, by have h : (y 0).val < 1024 := (y 0).isLt; have := k.isLt; omega⟩ (y 1) := by
  refine funext fun (a : Fin 2) => Fin.ext ?_
  match a with
  | ⟨0, _⟩ => show 1024 * k.val + 1 * (y 0).val = 1024 * k.val + (y 0).val; rw [Nat.one_mul]
  | ⟨1, _⟩ => show 0 + 1 * (y 1).val = (y 1).val; rw [Nat.one_mul, Nat.zero_add]

/-- Staging slot `s`: local index `y` sits at `(s, y 0, y 1)` (the squeeze puts the unit axis back in front, the slice adds `s` there). -/
theorem gSl_emb (s : Fin 2) (y : S1024x1024.Idx) :
    (gSl s).view.emb y = ValueIdx.ix3 (n0 := 2) (n1 := 1024) (n2 := 1024) s (y 0) (y 1) := by
  have e := Shape.reshapeEquiv_cons_one (n := 2) (d := ![1024, 1024]) squeezes_S1x1024x1024_S1024x1024.numel_eq y
  have e2 : (gSl s).view.emb y = _ :=
    congrArg (Rect.unit (s := S2x1024x1024) ![s.val, 0, 0] S1x1024x1024.size (inb_g s)).emb e
  refine e2.trans (funext fun (a : Fin 3) => Fin.ext ?_)
  match a with
  | ⟨0, _⟩ => show s.val + 1 * 0 = s.val; rw [Nat.mul_zero, Nat.add_zero]
  | ⟨1, _⟩ => show 0 + 1 * (y 0).val = (y 0).val; rw [Nat.one_mul, Nat.zero_add]
  | ⟨2, _⟩ => show 0 + 1 * (y 1).val = (y 1).val; rw [Nat.one_mul, Nat.zero_add]

/-- The rows chunk `k` of sender `d` goes to: local index `y` sits at row `8192 (d / 8) + 1024 k + y 0`. -/
theorem oSl_emb (d : Dev nD) (k : Fin 8) (y : S1024x1024.Idx) :
    (oSl d k).view.emb y
      = ValueIdx.ix2 (n0 := 16384) (n1 := 1024)
          ⟨8192 * (d.val / 8) + 1024 * k.val + (y 0).val, by
            have h : (y 0).val < 1024 := (y 0).isLt; have := k.isLt; have hd : d.val < 16 := d.isLt; omega⟩ (y 1) := by
  have hoff := Gen.k0_off1_eq d k
  refine funext fun (a : Fin 2) => Fin.ext ?_
  match a with
  | ⟨0, _⟩ =>
    show (k0_off1 d (BitVec.ofNat 32 (1024 * k.val))) 0 + 1 * (y 0).val = 8192 * (d.val / 8) + 1024 * k.val + (y 0).val
    rw [hoff, Nat.one_mul]; rfl
  | ⟨1, _⟩ =>
    show (k0_off1 d (BitVec.ofNat 32 (1024 * k.val))) 1 + 1 * (y 1).val = (y 1).val
    rw [hoff, Nat.one_mul]; exact Nat.zero_add _

/-- A block's element depends on its row only through the row's number. -/
theorem X_congr (d : Dev nD) {a a' : Fin 8192} (b : Fin 1024) (h : a.val = a'.val) :
    X m d (ValueIdx.ix2 a b) = X m d (ValueIdx.ix2 a' b) := by rw [Fin.ext h]

omit [FloatOps F] in
/-- The partner's number. -/
theorem peer_val (d : Dev nD) : (peer d).val = (d.val + 8) % 16 := rfl

/-- The gathered array at a row of the device's own half. -/
theorem outF_own (d : Dev nD) (i : S16384x1024.Idx) (h : (i 0).val / 8192 = d.val / 8) :
    outF m d i = X m d (ValueIdx.ix2 (n0 := 8192) (n1 := 1024) ⟨(i 0).val % 8192, Nat.mod_lt _ (by decide)⟩ (i 1)) := if_pos h
/-- The gathered array at a row of the partner's half. -/
theorem outF_other (d : Dev nD) (i : S16384x1024.Idx) (h : ¬ (i 0).val / 8192 = d.val / 8) :
    outF m d i = X m (peer d) (ValueIdx.ix2 (n0 := 8192) (n1 := 1024) ⟨(i 0).val % 8192, Nat.mod_lt _ (by decide)⟩ (i 1)) := if_neg h

omit [FloatOps F] in
/-- An element of the staging buffer is in slot `s` exactly when its first coordinate is `s`. -/
theorem mem_gSl (s : Fin 2) (i : S2x1024x1024.Idx) : i ∈ (gSl s).view.set ↔ (i 0).val = s.val := by
  have e : (gSl s).view.set = (Rect.unit (s := S2x1024x1024) ![s.val, 0, 0] S1x1024x1024.size (inb_g s)).set :=
    (View.set_reshape _ _).trans (View.set_slice_whole cc0_scratch0 _)
  rw [e, Rect.mem_set_unit]
  have h1 : (i 1).val < 1024 := (i 1).isLt
  have h2 : (i 2).val < 1024 := (i 2).isLt
  constructor
  · intro h
    have h0 : s.val ≤ (i 0).val ∧ (i 0).val < s.val + 1 := h (0 : Fin 3)
    omega
  · intro h (a : Fin 3)
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

omit [FloatOps F] in
/-- An element of a result array is in the rows chunk `k` of sender `d` goes to exactly when its row is one of the
    1024 rows from `8192 (d / 8) + 1024 k`. -/
theorem mem_oSl (d : Dev nD) (k : Fin 8) (i : S16384x1024.Idx) :
    i ∈ (oSl d k).view.set
      ↔ 8192 * (d.val / 8) + 1024 * k.val ≤ (i 0).val ∧ (i 0).val < 8192 * (d.val / 8) + 1024 * k.val + 1024 := by
  have e : (oSl d k).view.set
      = (Rect.unit (s := S16384x1024) (k0_off1 d (BitVec.ofNat 32 (1024 * k.val))) S1024x1024.size (k0_off1_inb d k)).set :=
    View.set_slice_whole main_v1 _
  rw [e, Rect.mem_set_unit, Gen.k0_off1_eq d k]
  have h1 : (i 1).val < 1024 := (i 1).isLt
  constructor
  · intro h
    exact h (0 : Fin 2)
  · intro h (a : Fin 2)
    match a with
    | ⟨0, _⟩ => exact h
    | ⟨1, _⟩ => show 0 ≤ (i 1).val ∧ (i 1).val < 0 + 1024; omega

omit [FloatOps F] in
/-- The two slots are apart. -/
theorem gSl_disjoint : Disjoint (gSl 0).view.set (gSl 1).view.set := by
  rw [Finset.disjoint_left]
  intro i h0 h1
  have a0 : (i 0).val = 0 := (mem_gSl 0 i).mp h0
  have a1 : (i 0).val = 1 := (mem_gSl 1 i).mp h1
  omega

omit [FloatOps F] in
/-- Every element of the staging buffer is in one of the two slots. -/
theorem gSl_cover : (gSl 0).view.set ∪ (gSl 1).view.set = Finset.univ := by
  ext i
  simp only [Finset.mem_union, Finset.mem_univ, iff_true]
  have h0 : (i 0).val < 2 := (i 0).isLt
  by_cases h : (i 0).val = 0
  · exact Or.inl ((mem_gSl 0 i).mpr h)
  · exact Or.inr ((mem_gSl 1 i).mpr (show (i 0).val = 1 by omega))

omit [FloatOps F] in
/-- The rows of two different chunks of one sender are apart. -/
theorem oSl_disjoint (d : Dev nD) (k k' : Fin 8) (h : k ≠ k') : Disjoint (oSl d k).view.set (oSl d k').view.set := by
  rw [Finset.disjoint_left]
  intro i h0 h1
  have a0 := (mem_oSl d k i).mp h0
  have a1 := (mem_oSl d k' i).mp h1
  have : k.val ≠ k'.val := fun e => h (Fin.ext e)
  omega

/-- The elements of a result array in the eight chunk row blocks of sender `d`. -/
def half (d : Dev nD) : Finset S16384x1024.Idx :=
  Finset.univ.biUnion fun k : Fin 8 => ((oSl d k).view.set : Finset S16384x1024.Idx)

omit [FloatOps F] in
/-- They are the rows of the half of the array that `d`'s first mesh coordinate names. -/
theorem mem_half (d : Dev nD) (i : S16384x1024.Idx) : i ∈ half d ↔ (i 0).val / 8192 = d.val / 8 := by
  have hi : (i 0).val < 16384 := (i 0).isLt
  have hd : d.val < 16 := d.isLt
  unfold half
  rw [Finset.mem_biUnion]
  constructor
  · rintro ⟨k, -, hk⟩
    have a0 := (mem_oSl d k i).mp hk
    have := k.isLt
    omega
  · intro h
    have hk : (i 0).val % 8192 / 1024 < 8 := by omega
    refine ⟨⟨(i 0).val % 8192 / 1024, hk⟩, Finset.mem_univ _, (mem_oSl d _ i).mpr ?_⟩
    show 8192 * (d.val / 8) + 1024 * ((i 0).val % 8192 / 1024) ≤ (i 0).val
      ∧ (i 0).val < 8192 * (d.val / 8) + 1024 * ((i 0).val % 8192 / 1024) + 1024
    omega

omit [FloatOps F] in
/-- Senders in different halves write apart. -/
theorem half_disjoint (d d' : Dev nD) (h : d.val / 8 ≠ d'.val / 8) : Disjoint (half d) (half d') := by
  rw [Finset.disjoint_left]
  intro i h0 h1
  exact h (((mem_half d i).mp h0).symm.trans ((mem_half d' i).mp h1))

omit [FloatOps F] in
/-- A device's half and its partner's are the whole array. -/
theorem half_cover : half c ∪ half (peer c) = Finset.univ := by
  ext i
  simp only [Finset.mem_union, Finset.mem_univ, iff_true]
  have hi : (i 0).val < 16384 := (i 0).isLt
  have hc : c.val < 16 := c.isLt
  by_cases hj : (i 0).val / 8192 = c.val / 8
  · exact Or.inl ((mem_half c i).mpr hj)
  · exact Or.inr ((mem_half (peer c) i).mpr (by rw [peer_val]; omega))

omit [FloatOps F] in
/-- A device and its partner are in different halves. -/
theorem peer_half (d : Dev nD) : d.val / 8 ≠ (peer d).val / 8 := by
  have hd : d.val < 16 := d.isLt
  rw [peer_val]; omega

omit [FloatOps F] in
/-- In device `c`'s result array, the eight chunk row blocks of sender `d`, held together. -/
theorem rows_half (d : Dev nD) (f : S16384x1024.Idx → Elt F .f32) :
    ((((c : Thread nD τ).loc main_v1) ↦[half d]{fullShare} f : sProp 𝕄)) = bigSep Finset.univ fun k : Fin 8 => rows c d k f :=
  pointsTo_biUnion (ℓ := (c : Thread nD τ).loc main_v1) (q := fullShare) (f := f) Finset.univ
    (fun k : Fin 8 => ((oSl d k).view.set : Finset S16384x1024.Idx)) (fun k _ k' _ h => oSl_disjoint d k k' h)

end Pieces

open Pieces

/-! ## Values at the pieces (restating a written piece at the canonical contents) -/

/-- A slot written whole with chunk `k` of `x` holds, on the slot, what `gC` says. -/
theorem slot_written (k : Fin 8) (g : S2x1024x1024.Idx → Elt F .f32) :
    ∀ i ∈ (gSl (slot k)).view.set, (gSl (slot k)).view.write (Elt F) g ((xSl k).view.read (Elt F) (X m c)) Finset.univ i = gC m c k i := by
  intro i hi
  obtain ⟨y, rfl⟩ := View.exists_emb_of_mem_set (gSl (slot k)).view hi
  rw [View.write_emb_of_mem _ _ (Finset.mem_univ y), View.read_apply, xSl_emb, gSl_emb]
  rfl

/-- The rows chunk `k` of `c`'s block goes to, written whole from the slot holding the chunk, hold what the gathered
    array holds there, on `c` and on its partner. -/
theorem rows_written (k : Fin 8) (d : Dev nD) (hd : d = c ∨ d = peer c) (f : S16384x1024.Idx → Elt F .f32) :
    ∀ i ∈ (oSl c k).view.set, (oSl c k).view.write (Elt F) f ((gSl (slot k)).view.read (Elt F) (gC m c k)) Finset.univ i = outF m d i := by
  intro i hi
  obtain ⟨y, rfl⟩ := View.exists_emb_of_mem_set (oSl c k).view hi
  rw [View.write_emb_of_mem _ _ (Finset.mem_univ y), View.read_apply, gSl_emb, oSl_emb]
  have hy : (y 0).val < 1024 := (y 0).isLt
  have hk := k.isLt
  have hc : c.val < 16 := c.isLt
  show X m c (ValueIdx.ix2 (n0 := 8192) (n1 := 1024) ⟨1024 * k.val + (y 0).val, _⟩ (y 1)) = outF m d _
  rcases hd with rfl | rfl
  · refine Eq.trans ?_ (outF_own m d _ (by show (8192 * (d.val / 8) + 1024 * k.val + (y 0).val) / 8192 = d.val / 8; omega)).symm
    exact X_congr m d (y 1) (by show 1024 * k.val + (y 0).val = (8192 * (d.val / 8) + 1024 * k.val + (y 0).val) % 8192; omega)
  · refine Eq.trans ?_ (outF_other m (peer c) _ (by
      show ¬ (8192 * (c.val / 8) + 1024 * k.val + (y 0).val) / 8192 = (peer c).val / 8
      rw [peer_val]; omega)).symm
    rw [peer_peer]
    exact X_congr m c (y 1) (by show 1024 * k.val + (y 0).val = (8192 * (c.val / 8) + 1024 * k.val + (y 0).val) % 8192; omega)

/-! ## The staging buffer is its two slots; a result array is the sixteen chunk row blocks -/

omit [FloatOps F] in
theorem stage_split (f : S2x1024x1024.Idx → Elt F .f32) :
    ((((c : Thread nD τ).loc cc0_scratch0) ↦{fullShare} f : sProp 𝕄)) ⊣⊢ iprop(slotAt c 0 fullShare f ∗ slotAt c 1 fullShare f) := by
  have e : ((((c : Thread nD τ).loc cc0_scratch0) ↦[Finset.univ]{fullShare} f : sProp 𝕄))
      = (((c : Thread nD τ).loc cc0_scratch0) ↦[(gSl 0).view.set ∪ (gSl 1).view.set]{fullShare} f) :=
    congrArg (fun S => ((((c : Thread nD τ).loc cc0_scratch0) ↦[S]{fullShare} f : sProp 𝕄))) gSl_cover.symm
  exact (BiEntails.of_eq e).trans (pointsTo_union gSl_disjoint)

omit [FloatOps F] in
theorem stage_join (f0 f1 : S2x1024x1024.Idx → Elt F .f32) :
    iprop(slotAt c 0 fullShare f0 ∗ slotAt c 1 fullShare f1) ⊢ (stageAny c : sProp 𝕄) := by
  have e : ∀ g : S2x1024x1024.Idx → Elt F .f32,
      ((((c : Thread nD τ).loc cc0_scratch0) ↦[(gSl 0).view.set ∪ (gSl 1).view.set]{fullShare} g : sProp 𝕄))
        = (((c : Thread nD τ).loc cc0_scratch0) ↦[Finset.univ]{fullShare} g) :=
    fun g => congrArg (fun S => ((((c : Thread nD τ).loc cc0_scratch0) ↦[S]{fullShare} g : sProp 𝕄))) gSl_cover
  have j : iprop(slotAt c 0 fullShare f0 ∗ slotAt c 1 fullShare f1)
      ⊢ ((((c : Thread nD τ).loc cc0_scratch0) ↦[(gSl 0).view.set ∪ (gSl 1).view.set]{fullShare} _ : sProp 𝕄)) :=
    pointsTo_join gSl_disjoint
  refine (j.trans (Entails.of_eq (e _))).trans ?_
  unfold stageAny
  iintro H
  iexists _
  iexact H

omit [FloatOps F] in
/-- Device `c`'s result array at contents `f`: the rows of its own eight chunks and the rows of its partner's. -/
theorem out_split (f : S16384x1024.Idx → Elt F .f32) :
    ((((c : Thread nD τ).loc main_v1) ↦{fullShare} f : sProp 𝕄))
      ⊣⊢ iprop((bigSep Finset.univ fun k : Fin 8 => rows c c k f) ∗ (bigSep Finset.univ fun k : Fin 8 => rows c (peer c) k f)) := by
  have e : ((((c : Thread nD τ).loc main_v1) ↦[Finset.univ]{fullShare} f : sProp 𝕄))
      = (((c : Thread nD τ).loc main_v1) ↦[half c ∪ half (peer c)]{fullShare} f) :=
    congrArg (fun S => ((((c : Thread nD τ).loc main_v1) ↦[S]{fullShare} f : sProp 𝕄))) (half_cover c).symm
  rw [← rows_half c c f, ← rows_half c (peer c) f]
  exact (BiEntails.of_eq e).trans (pointsTo_union (half_disjoint c (peer c) (peer_half c)))

/-! ## The gathered array is the whole `x` -/

/-- When every device's block of `x` is its part of one whole array `Xw` (cut along the rows by the first mesh axis), the
    gathered array on every device is `Xw`. -/
theorem outF_whole (Xw : S16384x1024.Idx → Elt F .f32)
    (h : ∀ c : Dev nD, m ((c.tc : Thread nD τ).loc main_arg0)
      = Layout.blockN ⟨2, ![8192, 1024]⟩ ⟨2, ![16384, 1024]⟩ (Layout.meshBlock [2, 2, 4] ![[0], []] c) Xw) :
    outF m c = Xw := by
  -- device `d` holds the rows `8192 (d / 8) …` of the whole array
  have hX : ∀ (d : Dev nD) (a : Fin 8192) (b : Fin 1024) (i : S16384x1024.Idx),
      (i 0).val = 8192 * (d.val / 8) + a.val → (i 1).val = b.val → X m d (ValueIdx.ix2 a b) = Xw i := by
    intro d a b i h0 h1
    have hd : d.val < 16 := d.isLt
    have hm : X m d = Layout.blockN ⟨2, ![8192, 1024]⟩ ⟨2, ![16384, 1024]⟩ (Layout.meshBlock [2, 2, 4] ![[0], []] d) Xw := h d
    rw [hm, Layout.blockN_apply]
    refine congrArg Xw (funext fun (t : Fin 2) => Fin.ext ?_)
    rw [Layout.TilesN.idx_val, Layout.meshBlock_val]
    match t with
    | ⟨0, _⟩ =>
      show Layout.meshLin [2, 2, 4] d.val [0] * 8192 + a.val = (i 0).val
      have e : Layout.meshLin [2, 2, 4] d.val [0] = d.val / 8 % 2 * 1 + 0 := rfl
      rw [e, h0]; omega
    | ⟨1, _⟩ =>
      show Layout.meshLin [2, 2, 4] d.val [] * 1024 + b.val = (i 1).val
      have e : Layout.meshLin [2, 2, 4] d.val [] = 0 := rfl
      rw [e, h1]; omega
  funext i
  have hi : (i 0).val < 16384 := (i 0).isLt
  have hc : c.val < 16 := c.isLt
  by_cases hj : (i 0).val / 8192 = c.val / 8
  · rw [outF_own m c i hj]
    exact hX c _ _ i (by show (i 0).val = 8192 * (c.val / 8) + (i 0).val % 8192; omega) rfl
  · rw [outF_other m c i hj]
    exact hX (peer c) _ _ i (by show (i 0).val = 8192 * ((peer c).val / 8) + (i 0).val % 8192; rw [peer_val]; omega) rfl

end Cert.Kernel.AG

end
-- ==== Proof.KStepsA.lean ====
import proofs.«900681_g7700000000000682_dist_ag_v7x_xyz2x2x4_x_m8192_n1024_f32_1_alg».proof.Proof.KValues

/-!
# One device's steps

Each lemma takes one or two consecutive operations of the body at the head of a program and hands the continuation what
they leave: the prologue (the first two chunk copies issued, the partner signalled, the barrier waited), the wait for a
chunk's copy into its slot, the issue of such a copy, the push of a chunk (to the partner, and into the device's own rows),
the drain of a pushed chunk (its send credit and its local copy waited), the wait for a chunk of the partner's.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ) (c : Dev nD)
variable {α : Type} {Q : α → sProp (MT nD τ sig Unit (Elt F) ℕ UU ℕ)} {kk : PUnit → Prog (TpuEff nD τ sig (Elt F) Λ₀ .tc) α}

local notation "WP" => wp frame (wpE (defs₀ (F := F)) 𝒱₀ (c : Thread nD τ) none) Set.univ

/-! ## Pieces of `x` -/

/-- `x` at a share is chunk `k` of it and all but chunk `k`, at that share. -/
theorem xAt_split (k : Fin 8) (q : PosShare TreeShare) :
    xAt m c q ⊣⊢ iprop(xChunk m c k q ∗ xRest m c k q) :=
  pointsTo_split_subset (Finset.subset_univ _)

/-- `x` held outright is `x` at the two halves of the full share. -/
theorem xAt_halves : xAt m c fullShare ⊣⊢ iprop(xAt m c fullShare.left ∗ xAt m c fullShare.right) :=
  pointsTo_share (PosShare.mem_left_op_right fullShare)

/-- A staging copy's cell is no receive cell. -/
theorem role_copy (s : Fin 2) (k : Fin 8) : role (SemLoc.dma (copyS s)) ≠ Role.recv k := by revert s k; decide

/-- The issue of chunk `k`'s copy from `x` (held at share `q`) into its slot (held outright, at anything). -/
theorem wp_enqcopy (k : Fin 8) (q : PosShare TreeShare) (g : S2x1024x1024.Idx → Elt F .f32) {h1 h2 h3} :
    iprop(xAt m c q ∗ slotAt c (slot k) fullShare g ∗ semVal ((c : Thread nD τ), SemLoc.dma (copyS (slot k))) 0)
      ⊢ iprop((iprop(copyFlight m c k q ∗ xRest m c k q) -∗ WP (kk ⟨⟩) Q)
          -∗ WP (.op (.enqueueDma (xSl k) (.here (gSl (slot k))) (.dma (copyS (slot k))) h1 h2 h3) kk) Q) := by
  -- what the transfer delivers is the slot at the chunk's canonical contents, and the chunk's share of `x`
  have hD : (iprop(((gSl (slot k)).view.loc (c : Thread nD τ) ↦[(gSl (slot k)).view.set]{fullShare}
          ((gSl (slot k)).view.write (Elt F) g ((xSl k).view.read (Elt F) (X m c)) Finset.univ))
        ∗ ((xSl k).view.loc (c : Thread nD τ) ↦[(xSl k).view.set]{q} X m c)) : sProp 𝕄)
      ⊢ iprop(((gSl (slot k)).view.loc (c : Thread nD τ) ↦[(gSl (slot k)).view.set]{fullShare} (gC m c k))
          ∗ ((xSl k).view.loc (c : Thread nD τ) ↦[(xSl k).view.set]{q} X m c)) :=
    Entails.of_eq (by rw [pointsTo_congr (slot_written m c k g)])
  iintro ⟨Hx, Hg, Hv⟩ Hk
  ihave Hx' := (xAt_split m c k q).1 $$ Hx
  icases Hx' with ⟨Hc, Hr⟩
  unfold xChunk slotAt copyFlight
  iapply (Transfers.wp_dmaLocal EC 𝒱₀ (c : Thread nD τ) none (src := xSl k) (via := ReadAs.same) (dst := gSl (slot k))
      (sm := SemLoc.dma (copyS (slot k))) () Nc rfl Nc_pos subset_rfl) $$ [Hc Hg Hv]
  · isplitl [Hc]; · iexact Hc
    isplitl [Hg] <;> iassumption
  iintro Hf
  iapply Hk
  isplitl [Hf]
  · iapply (Transfers.Flight_mono EC (c : Thread nD τ) hD) $$ Hf
  · iexact Hr

/-- The wait for chunk `k`'s copy into its slot: the slot holds the chunk, `x`'s share is whole again, the copy cell at zero. -/
theorem wp_waitcopy (k : Fin 8) (q : PosShare TreeShare) (O : CellTallies nD τ sig Unit) (hO : OnlyRecv c O) {h1 h2} :
    iprop(ctx m K ∗ copyFlight m c k q ∗ xRest m c k q ∗ owesX c O)
      ⊢ iprop((iprop(slotAt c (slot k) fullShare (gC m c k) ∗ xAt m c q ∗ semVal ((c : Thread nD τ), SemLoc.dma (copyS (slot k))) 0 ∗ owesX c O)
              -∗ WP (kk ⟨⟩) Q)
          -∗ WP (.op (.waitDma2 (copyS (slot k)) (xSl k) (gSl (slot k)) h1 h2) kk) Q) := by
  -- the copy cell sits below every receive credit the device owes
  have hmw : ctx m K ⊢ MayWait (c : Thread nD τ) (SemLoc.dma (copyS (slot k))) () O :=
    (ctx_lev m K).trans (mayWait_low c (SemLoc.dma (copyS (slot k))) (role_copy (slot k)) O hO)
  unfold copyFlight owesX
  iintro ⟨#Hctx, Hf, Hr, ⟨%W, HO⟩⟩ Hk
  ihave Hmw := hmw $$ Hctx
  iapply (Transfers.wp_waitLocalO EC 𝒱₀ (c : Thread nD τ) none (srcw := xSl k) (dstw := gSl (slot k)) () (N := Nc) rfl) $$ [Hf HO Hmw]
  · isplitl [Hf]; · iexact Hf
    isplitl [HO] <;> iassumption
  iintro ⟨⟨Hd, Hs⟩, Hv, HO⟩
  iapply Hk
  isplitl [Hd]; · iexact Hd
  isplitl [Hs Hr]
  · iapply (xAt_split m c k q).2
    isplitl [Hs] <;> iassumption
  isplitl [Hv]; · iexact Hv
  iexists (insert (SemLoc.dma (copyS (slot k)), ()) W)
  iexact HO

/-- The prologue: chunks 0 and 1 start into their slots from the two halves of `x`'s share; the partner's barrier gets its
    unit, with the partner's chunk rows of this device's result array; the device waits for its own barrier's unit and
    receives its chunk rows of the partner's array. -/
theorem wp_prologue (f : S2x1024x1024.Idx → Elt F .f32)
    {h1 h2 h3 h4 h5 h6} :
    iprop(ctx m K ∗ xAt m c fullShare ∗ slotAt c 0 fullShare f ∗ slotAt c 1 fullShare f
        ∗ semVal ((c : Thread nD τ), SemLoc.dma (copyS 0)) 0 ∗ semVal ((c : Thread nD τ), SemLoc.dma (copyS 1)) 0
        ∗ owesX c (O₀ c) ∗ dutyTok ER (barCell (peer c)) 0 ()
        ∗ (bigSep Finset.univ fun k : Fin 8 => rows c (peer c) k (O0 m c))
        ∗ cred (tallyAt (barCell c) () 1) ∗ atPos ER (barCell c) 0 ∅ 0)
      ⊢ iprop((iprop(copyFlight m c 0 fullShare.left ∗ xRest m c 0 fullShare.left ∗ copyFlight m c 1 fullShare.right ∗ xRest m c 1 fullShare.right
              ∗ owesX c (Orec c 8) ∗ barPay m c) -∗ WP (kk ⟨⟩) Q)
          -∗ WP (.op (.enqueueDma (xSl 0) (.here (gSl 0)) (.dma (copyS 0)) h1 h2 h3) fun _ =>
                 .op (.enqueueDma (xSl 1) (.here (gSl 1)) (.dma (copyS 1)) h4 h5 h6) fun _ =>
                 .op (.semSignal (peer c : Thread nD τ) barS (1#32).toNat) fun _ =>
                 .op (.semWait barS (1#32).toNat) kk) Q) := by
  -- chunk 0 goes through slot 0 and chunk 1 through slot 1
  have enq0 : ∀ kk' : PUnit → Prog (TpuEff nD τ sig (Elt F) Λ₀ .tc) α,
      iprop(xAt m c fullShare.left ∗ slotAt c 0 fullShare f ∗ semVal ((c : Thread nD τ), SemLoc.dma (copyS 0)) 0)
        ⊢ iprop((iprop(copyFlight m c 0 fullShare.left ∗ xRest m c 0 fullShare.left) -∗ WP (kk' ⟨⟩) Q)
            -∗ WP (.op (.enqueueDma (xSl 0) (.here (gSl 0)) (.dma (copyS 0)) h1 h2 h3) kk') Q) :=
    fun kk' => wp_enqcopy m c (0 : Fin 8) fullShare.left f
  have enq1 : ∀ kk' : PUnit → Prog (TpuEff nD τ sig (Elt F) Λ₀ .tc) α,
      iprop(xAt m c fullShare.right ∗ slotAt c 1 fullShare f ∗ semVal ((c : Thread nD τ), SemLoc.dma (copyS 1)) 0)
        ⊢ iprop((iprop(copyFlight m c 1 fullShare.right ∗ xRest m c 1 fullShare.right) -∗ WP (kk' ⟨⟩) Q)
            -∗ WP (.op (.enqueueDma (xSl 1) (.here (gSl 1)) (.dma (copyS 1)) h4 h5 h6) kk') Q) :=
    fun kk' => wp_enqcopy m c (1 : Fin 8) fullShare.right f
  -- the barrier unit's payload: the partner's chunk rows of this device's result array, as launched
  have hpay : (bigSep Finset.univ fun k : Fin 8 => rows c (peer c) k (O0 m c))
      = (Rd m).payload (barCell (peer c)) 0 () := by
    rw [payload_bar]
    have h : ∀ d : Dev nD, d = c → (bigSep Finset.univ fun k : Fin 8 => rows c (peer c) k (O0 m c))
        = (bigSep Finset.univ fun k : Fin 8 =>
            (((oSl (peer c) k).view.loc (d : Thread nD τ) ↦[(oSl (peer c) k).view.set]{fullShare} (O0 m d)) : sProp 𝕄)) := by
      rintro _ rfl; rfl
    exact h (peer (peer c)) (peer_peer c)
  have hone : (1#32).toNat = 1 := by decide
  -- two TensorCores always reach one another
  have hr : τ.routes (c : Thread nD τ) (peer c : Thread nD τ) = true := Topo.routes_tc c (peer c)
  have hbar : ∀ k, role (SemLoc.reg barS) ≠ Role.recv k := fun k h => by rw [role_bar] at h; cases h
  have hmw : ctx m K ⊢ MayWait (c : Thread nD τ) (SemLoc.reg barS) () (Orec c 8) :=
    (ctx_lev m K).trans (mayWait_low c (SemLoc.reg barS) hbar (Orec c 8) (onlyRecv_Orec c 8))
  rw [hone]
  unfold owesX
  iintro ⟨#Hctx, Hx, Hg0, Hg1, Hv0, Hv1, ⟨%W, HO⟩, Htok, Hrows, Hcred, Hat⟩ Hk
  ihave Hx' := (xAt_halves m c).1 $$ Hx
  icases Hx' with ⟨HxL, HxR⟩
  iapply (enq0 _) $$ [HxL Hg0 Hv0]
  · isplitl [HxL]; · iexact HxL
    isplitl [Hg0] <;> iassumption
  iintro ⟨Hf0, Hr0⟩
  iapply (enq1 _) $$ [HxR Hg1 Hv1]
  · isplitl [HxR]; · iexact HxR
    isplitl [Hg1] <;> iassumption
  iintro ⟨Hf1, Hr1⟩
  iapply (Rounds.wp_signal 𝒱₀ ER (Rd m) (c : Thread nD τ) none (dst := (peer c : Thread nD τ)) (sem := barS) (r := 0) (d := ())
      (κ := K (peer c, jBar)) (O₀ := O₀ c)
      (by rw [duties_bar]; exact Finset.mem_singleton_self _) (amount_bar m (peer c) ()) () (Orec c 8) rfl (hr := hr)) $$ [HO Htok Hrows]
  · isplitr; · iapply (ctx_inv_bar m K (peer c)); iexact Hctx
    isplitl [HO]; · iexact HO
    isplitl [Htok]; · iexact Htok
    isplitl [Hrows]; · iapply (Entails.of_eq hpay); iexact Hrows
    iapply (ctx_reached_bar m K (peer c)); iexact Hctx
  iintro HO
  iapply (Rounds.wp_wait_rest_token 𝒱₀ ER (Rd m) (c : Thread nD τ) none (κ := K (c, jBar))
      (wpE_semWait_eq 𝒱₀ (c : Thread nD τ) none Set.univ) (Set.mem_univ _) () (R := 0) (m := 0) (T := ∅)
      (show 0 + 1 = _ from (expect_bar m c).symm)) $$ [Hcred HO Hat]
  · isplitr; · iapply (ctx_inv_bar m K c); iexact Hctx
    isplitl [Hcred]; · iexact Hcred
    isplitl [HO]; · iexact HO
    isplitr; · iapply hmw; iexact Hctx
    iexact Hat
  iintro ⟨HO, Hat, Hr, Hpay⟩
  iapply Hk
  isplitl [Hf0]; · iexact Hf0
  isplitl [Hr0]; · iexact Hr0
  isplitl [Hf1]; · iexact Hf1
  isplitl [Hr1]; · iexact Hr1
  isplitl [HO]; · iexists (insert (SemLoc.reg barS, ()) W); iexact HO
  iapply (Entails.of_eq (rest_bar m c)); iexact Hpay

end Cert.Kernel.AG

end
-- ==== Proof.KStepsB.lean ====
import proofs.«900681_g7700000000000682_dist_ag_v7x_xyz2x2x4_x_m8192_n1024_f32_1_alg».proof.Proof.KValues

/-!
# One device's steps: push, drain, receive

Each lemma takes one or two consecutive operations of the body at the head of a program and hands the continuation what
they leave: the prologue (the first two chunk copies issued, the partner signalled, the barrier waited), the wait for a
chunk's copy into its slot, the issue of such a copy, the push of a chunk (to the partner, and into the device's own rows),
the drain of a pushed chunk (its send credit and its local copy waited), the wait for a chunk of the partner's.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ) (c : Dev nD)
variable {α : Type} {Q : α → sProp (MT nD τ sig Unit (Elt F) ℕ UU ℕ)} {kk : PUnit → Prog (TpuEff nD τ sig (Elt F) Λ₀ .tc) α}

local notation "WP" => wp frame (wpE (defs₀ (F := F)) 𝒱₀ (c : Thread nD τ) none) Set.univ

/-- A local-copy cell is no receive cell. -/
theorem role_lcl_ne (s : Fin 2) (k : Fin 8) : role (.dma (lclS s)) ≠ .recv k := by revert s k; decide

/-- A send cell is no receive cell. -/
theorem role_send_ne (j k : Fin 8) : role (.dma (sendS j)) ≠ .recv k := by rw [role_send]; exact fun h => by cases h

/-- Every device reaches its partner. -/
theorem routes_peer (c : Dev nD) : τ.routes (c : Thread nD τ) (Dev.tc (peer c)) = true := Topo.routes_tc c (peer c)

/-- The push of chunk `k`, its slot holding it: half the slot's share goes with the transfer into the partner's rows (paying
    the device's send duty and the partner's receive duty `k`), the other half with the copy into the device's own rows. -/
theorem wp_push (k : Fin 8) (n : Dev nD) (hn : n = peer c) (O₁ O : CellTallies nD τ sig Unit) (hO : O₁ = O + tallyAt (recvCell (peer c) k) () Nc)
    {hsc h1 h2 h3 h4 h5 h6} :
    iprop(ctx m K ∗ slotAt c (slot k) fullShare (gC m c k) ∗ atPos ER (sendCell c k) 0 ∅ 0 ∗ Tok c k ∗ Rows m c k
        ∗ semVal ((c : Thread nD τ), SemLoc.dma (lclS (slot k))) 0 ∗ owesX c O₁)
      ⊢ iprop((iprop(Pending m c k ∗ owesX c O) -∗ WP (kk ⟨⟩) Q)
          -∗ WP (.op (.enqueueDma (gSl (slot k)) (.remote (Dev.tc n) (oSl c k) (.dma (sendS k)) hsc) (.dma (recvS k)) h1 h2 h3) fun _ =>
                 .op (.enqueueDma (gSl (slot k)) (.here (oSl c k)) (.dma (lclS (slot k))) h4 h5 h6) kk) Q) := by
  subst hn
  -- the send cell's payload is the lent half of the slot, as it stands
  have hpay₁ : ((gSl (slot k)).view.loc (c : Thread nD τ) ↦[(gSl (slot k)).view.set]{fullShare.left} (gC m c k) : sProp 𝕄)
      ⊢ (Rd m).payload (sendCell c k) 0 () := by
    rw [payload_send]; exact Entails.refl _
  -- the partner's receive cell's payload is its rows written with the chunk: the gathered array's there
  have hpay₂ : ((oSl c k).view.loc (Dev.tc (peer c) : Thread nD τ) ↦[(oSl c k).view.set]{fullShare}
        ((oSl c k).view.write (Elt F) (O0 m (peer c)) ((gSl (slot k)).view.read (Elt F) (gC m c k)) Finset.univ) : sProp 𝕄)
      ⊢ (Rd m).payload (recvCell (peer c) k) 0 () := by
    have e : ((oSl c k).view.loc (Dev.tc (peer c) : Thread nD τ) ↦[(oSl c k).view.set]{fullShare}
          ((oSl c k).view.write (Elt F) (O0 m (peer c)) ((gSl (slot k)).view.read (Elt F) (gC m c k)) Finset.univ) : sProp 𝕄)
        = ((oSl c k).view.loc (Dev.tc (peer c) : Thread nD τ) ↦[(oSl c k).view.set]{fullShare} (outF m (peer c))) :=
      pointsTo_congr (rows_written m c k (peer c) (Or.inr rfl) (O0 m (peer c)))
    rw [payload_recv, e]
    unfold recvPay; rw [peer_peer]
  -- the device's own rows written with the chunk hold the gathered array's there
  have e₃ : ((oSl c k).view.loc (c : Thread nD τ) ↦[(oSl c k).view.set]{fullShare}
        ((oSl c k).view.write (Elt F) (O0 m c) ((gSl (slot k)).view.read (Elt F) (gC m c k)) Finset.univ) : sProp 𝕄)
      = ((oSl c k).view.loc (c : Thread nD τ) ↦[(oSl c k).view.set]{fullShare} (outF m c)) :=
    pointsTo_congr (rows_written m c k c (Or.inl rfl) (O0 m c))
  have hd₁ : () ∈ (Rd m).duties (sendCell c k) 0 := by rw [duties_send]; exact Finset.mem_singleton_self _
  have hd₂ : () ∈ (Rd m).duties (recvCell (peer c) k) 0 := by rw [duties_recv]; exact Finset.mem_singleton_self _
  have hN₁ : (oSl c k).view.amount (SemLoc.dma (recvS k)) = Nc := rfl
  have hN₂ : (oSl c k).view.amount (SemLoc.dma (lclS (slot k))) = Nc := rfl
  unfold owesX Tok Rows Pending lclFlight slotAt rows
  iintro ⟨#Hctx, Hslot, Hat, ⟨Ht₁, Ht₂⟩, ⟨Hrc, Hrp⟩, Hv, ⟨%W, HL⟩⟩ Hk
  ihave Hs := (pointsTo_share (PosShare.mem_left_op_right fullShare)).1 $$ Hslot
  icases Hs with ⟨HsL, HsR⟩
  ihave #HI₁ := (ctx_inv_send m K c k) $$ Hctx
  ihave #HI₂ := (ctx_inv_recv m K (peer c) k) $$ Hctx
  ihave #Hr₁ := (ctx_reached_send m K c k) $$ Hctx
  ihave #Hr₂ := (ctx_reached_recv m K (peer c) k) $$ Hctx
  iapply (Rounds.wp_send_pointsTo 𝒱₀ ER (Rd m) (c : Thread nD τ) none (c' := Dev.tc (peer c)) (src := gSl (slot k)) (dst := oSl c k)
    (q := fullShare.left) (fs := gC m c k) (fd := O0 m (peer c)) (κ₁ := K (c, jSend k)) (κ₂ := K (peer c, jRecv k))
    (sS := .dma (sendS k)) (sem := .dma (recvS k)) (r₁ := 0) (r₂ := 0) (d₁ := ()) (d₂ := ()) (W := W)
    hd₁ hd₂ () () Nc hN₁ (amount_send m c k ()) (amount_recv m (peer c) k ()) O hO hpay₁ hpay₂ (routes_peer c))
    $$ [HsL Hrp HL Ht₁ Ht₂]
  · isplitr; · iexact HI₁
    isplitr; · iexact HI₂
    isplitl [HsL]; · iexact HsL
    isplitl [Hrp]; · iexact Hrp
    isplitl [HL]; · iexact HL
    isplitl [Ht₁]; · iexact Ht₁
    isplitr; · iexact Hr₁
    isplitl [Ht₂]; · iexact Ht₂
    iexact Hr₂
  iintro ⟨Hc, HL⟩
  iapply (Transfers.wp_dmaLocal EC 𝒱₀ (c : Thread nD τ) none (src := gSl (slot k)) (via := .same) (dst := oSl c k)
    (sm := .dma (lclS (slot k))) (q := fullShare.right) (fs := gC m c k) (Sd := (oSl c k).view.set) (fd := O0 m c)
    () Nc hN₂ Nc_pos subset_rfl) $$ [HsR Hrc Hv]
  · isplitl [HsR]; · iexact HsR
    isplitl [Hrc]; · iexact Hrc
    iexact Hv
  iintro Hf
  iapply Hk
  isplitr [HL]
  · isplitl [Hc]; · iexact Hc
    isplitl [Hat]; · iexact Hat
    iapply (Transfers.Flight_mono EC (c : Thread nD τ) (sep_mono_left (Entails.of_eq e₃))) $$ Hf
  · iexists W; iexact HL

/-- The drain of pushed chunk `j`: the send cell's wait returns the lent half of the slot, the local copy's wait the other
    half and the device's own rows holding the chunk; the send cell closes. -/
theorem wp_drain (j : Fin 8) (O : CellTallies nD τ sig Unit) (hO : OnlyRecv c O) {h1 h2 h3 h4} :
    iprop(ctx m K ∗ Pending m c j ∗ owesX c O)
      ⊢ iprop((iprop(Done m c j ∗ slotAt c (slot j) fullShare (gC m c j) ∗ semVal ((c : Thread nD τ), SemLoc.dma (lclS (slot j))) 0 ∗ owesX c O)
              -∗ WP (kk ⟨⟩) Q)
          -∗ WP (.op (.waitDma2 (sendS j) (oSl c j) (gSl (slot j)) h1 h2) fun _ =>
                 .op (.waitDma2 (lclS (slot j)) (gSl (slot j)) (oSl c j) h3 h4) kk) Q) := by
  have hN₃ : (oSl c j).view.dmaCredit = Nc := rfl
  unfold owesX Pending Done lclFlight
  iintro ⟨#Hctx, ⟨Hc, Hat, Hf⟩, ⟨%W, HL⟩⟩ Hk
  ihave #HI := (ctx_inv_send m K c j) $$ Hctx
  ihave #Hlev := (ctx_lev m K) $$ Hctx
  ihave #Hmw₁ := (mayWait_low c (.dma (sendS j)) (role_send_ne j) O hO) $$ Hlev
  ihave #Hmw₂ := (mayWait_low c (.dma (lclS (slot j))) (role_lcl_ne (slot j)) O hO) $$ Hlev
  -- the send cell's wait: the whole of its one-duty round
  iapply (Rounds.wp_wait_rest_token 𝒱₀ ER (Rd m) (c : Thread nD τ) none (κ := K (c, jSend j))
    (w := .waitDma2 (sendS j) (oSl c j) (gSl (slot j)) h1 h2) (sm := .dma (sendS j)) (k' := Nc)
    (wpE_waitDma2_eq 𝒱₀ (c : Thread nD τ) none Set.univ) (Set.mem_univ _) () (O := O) (W := W) (R := 0) (T := ∅) (m := 0)
    ((Nat.zero_add _).trans (expect_send m c j).symm)) $$ [Hc HL Hat]
  · isplitr; · iexact HI
    isplitl [Hc]; · iexact Hc
    isplitl [HL]; · iexact HL
    isplitr; · iexact Hmw₁
    iexact Hat
  iintro ⟨HL, Hat, -, Hpay⟩
  ihave HsL := (Entails.of_eq (rest_send m c j)) $$ Hpay
  unfold sendPay
  imod (Rounds.cell_close ER (Rd m) (κ := K (c, jSend j)) (Set.mem_univ _) (fun h => h) (R := 0 + 1) (duties_later m _)) $$ [Hat] with Hv₁
  · isplitr; · iexact HI
    iexact Hat
  -- the local copy's wait
  iapply (Transfers.wp_waitLocalO EC 𝒱₀ (c : Thread nD τ) none (sem := lclS (slot j)) (srcw := gSl (slot j)) (dstw := oSl c j)
    () (N := Nc) hN₃ (D := iprop(rows c c j (outF m c) ∗ slotAt c (slot j) fullShare.right (gC m c j))) (O := O)
    (W := insert (SemLoc.dma (sendS j), ()) W)) $$ [Hf HL]
  · isplitl [Hf]; · iexact Hf
    isplitl [HL]; · iexact HL
    iexact Hmw₂
  iintro ⟨⟨Hrows, HsR⟩, Hv₂, HL⟩
  iapply Hk
  isplitl [Hrows Hv₁]
  · isplitl [Hrows]; · iexact Hrows
    iexact Hv₁
  isplitl [HsL HsR]
  · unfold slotAt
    iapply (pointsTo_share (PosShare.mem_left_op_right fullShare)).2
    isplitl [HsL]; · iexact HsL
    iexact HsR
  isplitl [Hv₂]; · iexact Hv₂
  iexists _; iexact HL

/-- The wait for chunk `k` of the partner's block: the rows it lands in hold the gathered array's; the receive cell closes. -/
theorem wp_waitrecv (k : Fin 8) {h1 h2} :
    iprop(ctx m K ∗ cred (tallyAt (recvCell c k) () Nc) ∗ atPos ER (recvCell c k) 0 ∅ 0 ∗ owesX c 0)
      ⊢ iprop((iprop(rows c (peer c) k (outF m c) ∗ semVal (recvCell c k) 0 ∗ owesX c 0) -∗ WP (kk ⟨⟩) Q)
          -∗ WP (.op (.waitDma2 (recvS k) (gSl (slot k)) (oSl c k) h1 h2) kk) Q) := by
  unfold owesX
  iintro ⟨#Hctx, Hc, Hat, ⟨%W, HL⟩⟩ Hk
  ihave #HI := (ctx_inv_recv m K c k) $$ Hctx
  iapply (Rounds.wp_wait_rest_token 𝒱₀ ER (Rd m) (c : Thread nD τ) none (κ := K (c, jRecv k))
    (w := .waitDma2 (recvS k) (gSl (slot k)) (oSl c k) h1 h2) (sm := .dma (recvS k)) (k' := Nc)
    (wpE_waitDma2_eq 𝒱₀ (c : Thread nD τ) none Set.univ) (Set.mem_univ _) () (O := 0) (W := W) (R := 0) (T := ∅) (m := 0)
    ((Nat.zero_add _).trans (expect_recv m c k).symm)) $$ [Hc HL Hat]
  · isplitr; · iexact HI
    isplitl [Hc]; · iexact Hc
    isplitl [HL]; · iexact HL
    isplitr; · rw [MayWait_zero]; iempintro
    iexact Hat
  iintro ⟨HL, Hat, -, Hpay⟩
  ihave Hrows := (Entails.of_eq (rest_recv m c k)) $$ Hpay
  unfold recvPay rows
  imod (Rounds.cell_close ER (Rd m) (κ := K (c, jRecv k)) (Set.mem_univ _) (fun h => h) (R := 0 + 1) (duties_later m _)) $$ [Hat] with Hv
  · isplitr; · iexact HI
    iexact Hat
  iapply Hk
  isplitl [Hrows]; · iexact Hrows
  isplitl [Hv]; · iexact Hv
  iexists _; iexact HL

/-! ### Axioms -/

/-- info: 'Cert.Kernel.AG.wp_push' depends on axioms: [propext, Classical.choice, Quot.sound] -/
#guard_msgs in #print axioms wp_push
/-- info: 'Cert.Kernel.AG.wp_drain' depends on axioms: [propext, Classical.choice, Quot.sound] -/
#guard_msgs in #print axioms wp_drain
/-- info: 'Cert.Kernel.AG.wp_waitrecv' depends on axioms: [propext, Classical.choice, Quot.sound] -/
#guard_msgs in #print axioms wp_waitrecv

end Cert.Kernel.AG

end
-- ==== Proof.KBody.lean ====
import proofs.«900681_g7700000000000682_dist_ag_v7x_xyz2x2x4_x_m8192_n1024_f32_1_alg».proof.Proof.KStepsA
import proofs.«900681_g7700000000000682_dist_ag_v7x_xyz2x2x4_x_m8192_n1024_f32_1_alg».proof.Proof.KStepsB
import proofs.«900681_g7700000000000682_dist_ag_v7x_xyz2x2x4_x_m8192_n1024_f32_1_alg».proof.Proof.Gen.Kernel.Skeleton

/-!
# One device's body

The body of the kernel on device `c`, from what the launch hands it to what it hands back: the prologue, the eight chunks
pushed through the two slots — chunk `k` drains chunk `k - 2` first —, the last two drained, the partner's eight chunks waited.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 17 → ℕ) (c : Dev nD)

/-! ### The pieces as chains -/

omit [FloatOps F] in
theorem barPay_chain : barPay m c ⊢ (iprop(rows (peer c) c 0 (O0 m (peer c)) ∗ rows (peer c) c 1 (O0 m (peer c)) ∗ rows (peer c) c 2 (O0 m (peer c)) ∗ rows (peer c) c 3 (O0 m (peer c)) ∗ rows (peer c) c 4 (O0 m (peer c)) ∗ rows (peer c) c 5 (O0 m (peer c)) ∗ rows (peer c) c 6 (O0 m (peer c)) ∗ rows (peer c) c 7 (O0 m (peer c))) : sProp 𝕄) :=
  Entails.of_eq (by unfold barPay rows; exact bigSep_fin8 _)

omit [FloatOps F] in
theorem x_halves : iprop(xAt m c fullShare.left ∗ xAt m c fullShare.right) ⊢ (xAt m c fullShare : sProp 𝕄) := by
  unfold xAt; exact (pointsTo_share (PosShare.mem_left_op_right fullShare)).2

omit [FloatOps F] in
theorem out_cut (f : S16384x1024.Idx → Elt F .f32) :
    ((((c : Thread nD τ).loc main_v1) ↦{fullShare} f : sProp 𝕄))
      ⊢ iprop((rows c c 0 f ∗ rows c c 1 f ∗ rows c c 2 f ∗ rows c c 3 f ∗ rows c c 4 f ∗ rows c c 5 f ∗ rows c c 6 f ∗ rows c c 7 f) ∗ (bigSep Finset.univ fun k : Fin 8 => rows c (peer c) k f)) := by
  rw [← bigSep_fin8 (fun k : Fin 8 => rows c c k f)]; exact (out_split c f).1

omit [FloatOps F] in
theorem out_join (f : S16384x1024.Idx → Elt F .f32) :
    iprop((rows c c 0 f ∗ rows c c 1 f ∗ rows c c 2 f ∗ rows c c 3 f ∗ rows c c 4 f ∗ rows c c 5 f ∗ rows c c 6 f ∗ rows c c 7 f) ∗ (rows c (peer c) 0 f ∗ rows c (peer c) 1 f ∗ rows c (peer c) 2 f ∗ rows c (peer c) 3 f ∗ rows c (peer c) 4 f ∗ rows c (peer c) 5 f ∗ rows c (peer c) 6 f ∗ rows c (peer c) 7 f))
      ⊢ ((((c : Thread nD τ).loc main_v1) ↦{fullShare} f : sProp 𝕄)) := by
  rw [← bigSep_fin8 (fun k : Fin 8 => rows c c k f), ← bigSep_fin8 (fun k : Fin 8 => rows c (peer c) k f)]; exact (out_split c f).2

omit [FloatOps F] in
theorem sems_join :
    iprop((semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0))
      ⊢ (iprop((bigSep Finset.univ fun k : Fin 8 => semVal (sendCell c k) 0) ∗ (bigSep Finset.univ fun k : Fin 8 => semVal (recvCell c k) 0)) : sProp 𝕄) := by
  rw [bigSep_fin8 (fun k : Fin 8 => (semVal (sendCell c k) 0 : sProp 𝕄)), bigSep_fin8 (fun k : Fin 8 => (semVal (recvCell c k) 0 : sProp 𝕄))]

/-- What device `c`'s body starts from, the names `K` of the cells' invariants and the staging buffer's contents fixed. -/
def bodyPre (f : S2x1024x1024.Idx → Elt F .f32) : sProp 𝕄 :=
  iprop(ctx m K ∗ linear c ∗ creds c ∗ localSems c ∗ xAt m c fullShare
    ∗ (((c : Thread nD τ).loc main_v1) ↦{fullShare} O0 m c)
    ∗ (((c : Thread nD τ).loc cc0_scratch0) ↦{fullShare} f) ∗ owesX c (O₀ c))

def bodyPost : sProp 𝕄 := iprop(Φ₁ m c ∗ owesX c 0)

set_option maxHeartbeats 4000000 in
set_option maxRecDepth 16384 in
/-- The body on device `c`, step by step: the prologue; chunk 0 and chunk 1 pushed as their copies land; for `k = 2 … 7`
    chunk `k - 2` drained, chunk `k` copied into the freed slot and pushed; chunks 6 and 7 drained; the partner's eight chunks
    waited; the pieces put together again. -/
theorem sound_body (f : S2x1024x1024.Idx → Elt F .f32) (Kt : PUnit → sProp 𝕄) :
    iprop(bodyPre m K c f ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Kt := by
  unfold cc0_body k0_part1 k0_part2 k0_part3 k0_part4 k0_part5 k0_part6 k0_part7 k0_part8 k0_part9 k0_part10 k0_part11 k0_part12 k0_part13 k0_part14 k0_part15
  simp only [semSignalWord, semWaitWord, Prog.lift, Prog.bind_op, Prog.bind_ret, Prog.pure_eq_ret, wp_deviceId]
  simp only [dev1_eq c]
  unfold bodyPre linear creds localSems
  rw [bigSep_fin8, bigSep_fin8, bigSep_fin8]
  iintro ⟨⟨#Hctx, ⟨HaB, HtB, ⟨⟨HaS0, HT0⟩, ⟨HaS1, HT1⟩, ⟨HaS2, HT2⟩, ⟨HaS3, HT3⟩, ⟨HaS4, HT4⟩, ⟨HaS5, HT5⟩, ⟨HaS6, HT6⟩, ⟨HaS7, HT7⟩⟩, HaR0, HaR1, HaR2, HaR3, HaR4, HaR5, HaR6, HaR7⟩,
    ⟨HcB, HcR0, HcR1, HcR2, HcR3, HcR4, HcR5, HcR6, HcR7⟩, ⟨HvC0, HvC1, HvL0, HvL1⟩, Hx, Hout, Hstg, HO⟩, Hk⟩
  -- the staging buffer is its two slots; the result array the sixteen chunk row blocks
  ihave Hstg' := (stage_split c f).1 $$ Hstg
  icases Hstg' with ⟨Hs0, Hs1⟩
  ihave Hout' := (out_cut c (O0 m c)) $$ Hout
  icases Hout' with ⟨⟨Hown0, Hown1, Hown2, Hown3, Hown4, Hown5, Hown6, Hown7⟩, Hpeer⟩
  -- the prologue
  iapply (wp_prologue m K c f) $$ [Hx Hs0 Hs1 HvC0 HvC1 HO HtB Hpeer HcB HaB]
  · isplitr; · iexact Hctx
    isplitl [Hx]; · iexact Hx
    isplitl [Hs0]; · iexact Hs0
    isplitl [Hs1]; · iexact Hs1
    isplitl [HvC0]; · iexact HvC0
    isplitl [HvC1]; · iexact HvC1
    isplitl [HO]; · iexact HO
    isplitl [HtB]; · iexact HtB
    isplitl [Hpeer]; · iexact Hpeer
    isplitl [HcB]; · iexact HcB
    iexact HaB
  iintro ⟨HF0, HxR0, HF1, HxR1, HO, Hbar⟩
  ihave Hbar' := (barPay_chain m c) $$ Hbar
  icases Hbar' with ⟨Hp0, Hp1, Hp2, Hp3, Hp4, Hp5, Hp6, Hp7⟩
  -- chunk 0 is in its slot
  iapply (wp_waitcopy m K c 0 fullShare.left (Orec c 8) (onlyRecv_Orec c 8)) $$ [HF0 HxR0 HO]
  · isplitr; · iexact Hctx
    isplitl [HF0]; · iexact HF0
    isplitl [HxR0]; · iexact HxR0
    iexact HO
  iintro ⟨Hs0, HxL, HvC0, HO⟩
  -- chunk 0 pushed
  iapply (wp_push m K c 0 _ (dev2_eq c) (Orec c 8) (Orec c 7) rfl) $$ [Hs0 HaS0 HT0 Hown0 Hp0 HvL0 HO]
  · isplitr; · iexact Hctx
    isplitl [Hs0]; · iexact Hs0
    isplitl [HaS0]; · iexact HaS0
    isplitl [HT0]; · iexact HT0
    isplitl [Hown0 Hp0]
    · unfold Rows
      isplitl [Hown0]; · iexact Hown0
      iexact Hp0
    isplitl [HvL0]; · iexact HvL0
    iexact HO
  iintro ⟨HP0, HO⟩
  -- chunk 1 is in its slot
  iapply (wp_waitcopy m K c 1 fullShare.right (Orec c 7) (onlyRecv_Orec c 7)) $$ [HF1 HxR1 HO]
  · isplitr; · iexact Hctx
    isplitl [HF1]; · iexact HF1
    isplitl [HxR1]; · iexact HxR1
    iexact HO
  iintro ⟨Hs1, HxRt, HvC1, HO⟩
  -- chunk 1 pushed
  iapply (wp_push m K c 1 _ (dev3_eq c) (Orec c 7) (Orec c 6) rfl) $$ [Hs1 HaS1 HT1 Hown1 Hp1 HvL1 HO]
  · isplitr; · iexact Hctx
    isplitl [Hs1]; · iexact Hs1
    isplitl [HaS1]; · iexact HaS1
    isplitl [HT1]; · iexact HT1
    isplitl [Hown1 Hp1]
    · unfold Rows
      isplitl [Hown1]; · iexact Hown1
      iexact Hp1
    isplitl [HvL1]; · iexact HvL1
    iexact HO
  iintro ⟨HP1, HO⟩
  -- the two halves of `x`'s share are one again
  ihave Hx := (x_halves m c) $$ [HxL HxRt]
  · isplitl [HxL]; · iexact HxL
    iexact HxRt
  -- chunk 0 drained
  iapply (wp_drain m K c 0 (Orec c 6) (onlyRecv_Orec c 6)) $$ [HP0 HO]
  · isplitr; · iexact Hctx
    isplitl [HP0]; · iexact HP0
    iexact HO
  iintro ⟨HD0, Hs0, HvL0, HO⟩
  -- chunk 2 starts into slot 0
  iapply (wp_enqcopy m c 2 fullShare (gC m c 0)) $$ [Hx Hs0 HvC0]
  · isplitl [Hx]; · iexact Hx
    isplitl [Hs0]; · iexact Hs0
    iexact HvC0
  iintro ⟨HF2, HxR2⟩
  -- chunk 2 is in its slot
  iapply (wp_waitcopy m K c 2 fullShare (Orec c 6) (onlyRecv_Orec c 6)) $$ [HF2 HxR2 HO]
  · isplitr; · iexact Hctx
    isplitl [HF2]; · iexact HF2
    isplitl [HxR2]; · iexact HxR2
    iexact HO
  iintro ⟨Hs0, Hx, HvC0, HO⟩
  -- chunk 2 pushed
  iapply (wp_push m K c 2 _ (dev4_eq c) (Orec c 6) (Orec c 5) rfl) $$ [Hs0 HaS2 HT2 Hown2 Hp2 HvL0 HO]
  · isplitr; · iexact Hctx
    isplitl [Hs0]; · iexact Hs0
    isplitl [HaS2]; · iexact HaS2
    isplitl [HT2]; · iexact HT2
    isplitl [Hown2 Hp2]
    · unfold Rows
      isplitl [Hown2]; · iexact Hown2
      iexact Hp2
    isplitl [HvL0]; · iexact HvL0
    iexact HO
  iintro ⟨HP2, HO⟩
  -- chunk 1 drained
  iapply (wp_drain m K c 1 (Orec c 5) (onlyRecv_Orec c 5)) $$ [HP1 HO]
  · isplitr; · iexact Hctx
    isplitl [HP1]; · iexact HP1
    iexact HO
  iintro ⟨HD1, Hs1, HvL1, HO⟩
  -- chunk 3 starts into slot 1
  iapply (wp_enqcopy m c 3 fullShare (gC m c 1)) $$ [Hx Hs1 HvC1]
  · isplitl [Hx]; · iexact Hx
    isplitl [Hs1]; · iexact Hs1
    iexact HvC1
  iintro ⟨HF3, HxR3⟩
  -- chunk 3 is in its slot
  iapply (wp_waitcopy m K c 3 fullShare (Orec c 5) (onlyRecv_Orec c 5)) $$ [HF3 HxR3 HO]
  · isplitr; · iexact Hctx
    isplitl [HF3]; · iexact HF3
    isplitl [HxR3]; · iexact HxR3
    iexact HO
  iintro ⟨Hs1, Hx, HvC1, HO⟩
  -- chunk 3 pushed
  iapply (wp_push m K c 3 _ (dev5_eq c) (Orec c 5) (Orec c 4) rfl) $$ [Hs1 HaS3 HT3 Hown3 Hp3 HvL1 HO]
  · isplitr; · iexact Hctx
    isplitl [Hs1]; · iexact Hs1
    isplitl [HaS3]; · iexact HaS3
    isplitl [HT3]; · iexact HT3
    isplitl [Hown3 Hp3]
    · unfold Rows
      isplitl [Hown3]; · iexact Hown3
      iexact Hp3
    isplitl [HvL1]; · iexact HvL1
    iexact HO
  iintro ⟨HP3, HO⟩
  -- chunk 2 drained
  iapply (wp_drain m K c 2 (Orec c 4) (onlyRecv_Orec c 4)) $$ [HP2 HO]
  · isplitr; · iexact Hctx
    isplitl [HP2]; · iexact HP2
    iexact HO
  iintro ⟨HD2, Hs0, HvL0, HO⟩
  -- chunk 4 starts into slot 0
  iapply (wp_enqcopy m c 4 fullShare (gC m c 2)) $$ [Hx Hs0 HvC0]
  · isplitl [Hx]; · iexact Hx
    isplitl [Hs0]; · iexact Hs0
    iexact HvC0
  iintro ⟨HF4, HxR4⟩
  -- chunk 4 is in its slot
  iapply (wp_waitcopy m K c 4 fullShare (Orec c 4) (onlyRecv_Orec c 4)) $$ [HF4 HxR4 HO]
  · isplitr; · iexact Hctx
    isplitl [HF4]; · iexact HF4
    isplitl [HxR4]; · iexact HxR4
    iexact HO
  iintro ⟨Hs0, Hx, HvC0, HO⟩
  -- chunk 4 pushed
  iapply (wp_push m K c 4 _ (dev6_eq c) (Orec c 4) (Orec c 3) rfl) $$ [Hs0 HaS4 HT4 Hown4 Hp4 HvL0 HO]
  · isplitr; · iexact Hctx
    isplitl [Hs0]; · iexact Hs0
    isplitl [HaS4]; · iexact HaS4
    isplitl [HT4]; · iexact HT4
    isplitl [Hown4 Hp4]
    · unfold Rows
      isplitl [Hown4]; · iexact Hown4
      iexact Hp4
    isplitl [HvL0]; · iexact HvL0
    iexact HO
  iintro ⟨HP4, HO⟩
  -- chunk 3 drained
  iapply (wp_drain m K c 3 (Orec c 3) (onlyRecv_Orec c 3)) $$ [HP3 HO]
  · isplitr; · iexact Hctx
    isplitl [HP3]; · iexact HP3
    iexact HO
  iintro ⟨HD3, Hs1, HvL1, HO⟩
  -- chunk 5 starts into slot 1
  iapply (wp_enqcopy m c 5 fullShare (gC m c 3)) $$ [Hx Hs1 HvC1]
  · isplitl [Hx]; · iexact Hx
    isplitl [Hs1]; · iexact Hs1
    iexact HvC1
  iintro ⟨HF5, HxR5⟩
  -- chunk 5 is in its slot
  iapply (wp_waitcopy m K c 5 fullShare (Orec c 3) (onlyRecv_Orec c 3)) $$ [HF5 HxR5 HO]
  · isplitr; · iexact Hctx
    isplitl [HF5]; · iexact HF5
    isplitl [HxR5]; · iexact HxR5
    iexact HO
  iintro ⟨Hs1, Hx, HvC1, HO⟩
  -- chunk 5 pushed
  iapply (wp_push m K c 5 _ (dev7_eq c) (Orec c 3) (Orec c 2) rfl) $$ [Hs1 HaS5 HT5 Hown5 Hp5 HvL1 HO]
  · isplitr; · iexact Hctx
    isplitl [Hs1]; · iexact Hs1
    isplitl [HaS5]; · iexact HaS5
    isplitl [HT5]; · iexact HT5
    isplitl [Hown5 Hp5]
    · unfold Rows
      isplitl [Hown5]; · iexact Hown5
      iexact Hp5
    isplitl [HvL1]; · iexact HvL1
    iexact HO
  iintro ⟨HP5, HO⟩
  -- chunk 4 drained
  iapply (wp_drain m K c 4 (Orec c 2) (onlyRecv_Orec c 2)) $$ [HP4 HO]
  · isplitr; · iexact Hctx
    isplitl [HP4]; · iexact HP4
    iexact HO
  iintro ⟨HD4, Hs0, HvL0, HO⟩
  -- chunk 6 starts into slot 0
  iapply (wp_enqcopy m c 6 fullShare (gC m c 4)) $$ [Hx Hs0 HvC0]
  · isplitl [Hx]; · iexact Hx
    isplitl [Hs0]; · iexact Hs0
    iexact HvC0
  iintro ⟨HF6, HxR6⟩
  -- chunk 6 is in its slot
  iapply (wp_waitcopy m K c 6 fullShare (Orec c 2) (onlyRecv_Orec c 2)) $$ [HF6 HxR6 HO]
  · isplitr; · iexact Hctx
    isplitl [HF6]; · iexact HF6
    isplitl [HxR6]; · iexact HxR6
    iexact HO
  iintro ⟨Hs0, Hx, HvC0, HO⟩
  -- chunk 6 pushed
  iapply (wp_push m K c 6 _ (dev8_eq c) (Orec c 2) (Orec c 1) rfl) $$ [Hs0 HaS6 HT6 Hown6 Hp6 HvL0 HO]
  · isplitr; · iexact Hctx
    isplitl [Hs0]; · iexact Hs0
    isplitl [HaS6]; · iexact HaS6
    isplitl [HT6]; · iexact HT6
    isplitl [Hown6 Hp6]
    · unfold Rows
      isplitl [Hown6]; · iexact Hown6
      iexact Hp6
    isplitl [HvL0]; · iexact HvL0
    iexact HO
  iintro ⟨HP6, HO⟩
  -- chunk 5 drained
  iapply (wp_drain m K c 5 (Orec c 1) (onlyRecv_Orec c 1)) $$ [HP5 HO]
  · isplitr; · iexact Hctx
    isplitl [HP5]; · iexact HP5
    iexact HO
  iintro ⟨HD5, Hs1, HvL1, HO⟩
  -- chunk 7 starts into slot 1
  iapply (wp_enqcopy m c 7 fullShare (gC m c 5)) $$ [Hx Hs1 HvC1]
  · isplitl [Hx]; · iexact Hx
    isplitl [Hs1]; · iexact Hs1
    iexact HvC1
  iintro ⟨HF7, HxR7⟩
  -- chunk 7 is in its slot
  iapply (wp_waitcopy m K c 7 fullShare (Orec c 1) (onlyRecv_Orec c 1)) $$ [HF7 HxR7 HO]
  · isplitr; · iexact Hctx
    isplitl [HF7]; · iexact HF7
    isplitl [HxR7]; · iexact HxR7
    iexact HO
  iintro ⟨Hs1, Hx, HvC1, HO⟩
  -- chunk 7 pushed
  iapply (wp_push m K c 7 _ (dev9_eq c) (Orec c 1) (Orec c 0) rfl) $$ [Hs1 HaS7 HT7 Hown7 Hp7 HvL1 HO]
  · isplitr; · iexact Hctx
    isplitl [Hs1]; · iexact Hs1
    isplitl [HaS7]; · iexact HaS7
    isplitl [HT7]; · iexact HT7
    isplitl [Hown7 Hp7]
    · unfold Rows
      isplitl [Hown7]; · iexact Hown7
      iexact Hp7
    isplitl [HvL1]; · iexact HvL1
    iexact HO
  iintro ⟨HP7, HO⟩
  -- chunk 6 drained
  iapply (wp_drain m K c 6 (Orec c 0) (onlyRecv_Orec c 0)) $$ [HP6 HO]
  · isplitr; · iexact Hctx
    isplitl [HP6]; · iexact HP6
    iexact HO
  iintro ⟨HD6, Hs0, HvL0, HO⟩
  -- chunk 7 drained
  iapply (wp_drain m K c 7 (Orec c 0) (onlyRecv_Orec c 0)) $$ [HP7 HO]
  · isplitr; · iexact Hctx
    isplitl [HP7]; · iexact HP7
    iexact HO
  iintro ⟨HD7, Hs1, HvL1, HO⟩
  -- the partner's chunk 0 has landed
  iapply (wp_waitrecv m K c 0) $$ [HcR0 HaR0 HO]
  · isplitr; · iexact Hctx
    isplitl [HcR0]; · iexact HcR0
    isplitl [HaR0]; · iexact HaR0
    iexact HO
  iintro ⟨HR0, HvR0, HO⟩
  -- the partner's chunk 1 has landed
  iapply (wp_waitrecv m K c 1) $$ [HcR1 HaR1 HO]
  · isplitr; · iexact Hctx
    isplitl [HcR1]; · iexact HcR1
    isplitl [HaR1]; · iexact HaR1
    iexact HO
  iintro ⟨HR1, HvR1, HO⟩
  -- the partner's chunk 2 has landed
  iapply (wp_waitrecv m K c 2) $$ [HcR2 HaR2 HO]
  · isplitr; · iexact Hctx
    isplitl [HcR2]; · iexact HcR2
    isplitl [HaR2]; · iexact HaR2
    iexact HO
  iintro ⟨HR2, HvR2, HO⟩
  -- the partner's chunk 3 has landed
  iapply (wp_waitrecv m K c 3) $$ [HcR3 HaR3 HO]
  · isplitr; · iexact Hctx
    isplitl [HcR3]; · iexact HcR3
    isplitl [HaR3]; · iexact HaR3
    iexact HO
  iintro ⟨HR3, HvR3, HO⟩
  -- the partner's chunk 4 has landed
  iapply (wp_waitrecv m K c 4) $$ [HcR4 HaR4 HO]
  · isplitr; · iexact Hctx
    isplitl [HcR4]; · iexact HcR4
    isplitl [HaR4]; · iexact HaR4
    iexact HO
  iintro ⟨HR4, HvR4, HO⟩
  -- the partner's chunk 5 has landed
  iapply (wp_waitrecv m K c 5) $$ [HcR5 HaR5 HO]
  · isplitr; · iexact Hctx
    isplitl [HcR5]; · iexact HcR5
    isplitl [HaR5]; · iexact HaR5
    iexact HO
  iintro ⟨HR5, HvR5, HO⟩
  -- the partner's chunk 6 has landed
  iapply (wp_waitrecv m K c 6) $$ [HcR6 HaR6 HO]
  · isplitr; · iexact Hctx
    isplitl [HcR6]; · iexact HcR6
    isplitl [HaR6]; · iexact HaR6
    iexact HO
  iintro ⟨HR6, HvR6, HO⟩
  -- the partner's chunk 7 has landed
  iapply (wp_waitrecv m K c 7) $$ [HcR7 HaR7 HO]
  · isplitr; · iexact Hctx
    isplitl [HcR7]; · iexact HcR7
    isplitl [HaR7]; · iexact HaR7
    iexact HO
  iintro ⟨HR7, HvR7, HO⟩
  -- the end: the pieces put together again
  rw [wp_ret]; imodintro
  iapply Hk
  unfold bodyPost Φ₁ localSems Done
  icases HD0 with ⟨HDr0, HvS0⟩
  icases HD1 with ⟨HDr1, HvS1⟩
  icases HD2 with ⟨HDr2, HvS2⟩
  icases HD3 with ⟨HDr3, HvS3⟩
  icases HD4 with ⟨HDr4, HvS4⟩
  icases HD5 with ⟨HDr5, HvS5⟩
  icases HD6 with ⟨HDr6, HvS6⟩
  icases HD7 with ⟨HDr7, HvS7⟩
  isplitr [HO]
  · isplitl [Hx]; · iexact Hx
    isplitl [HDr0 HDr1 HDr2 HDr3 HDr4 HDr5 HDr6 HDr7 HR0 HR1 HR2 HR3 HR4 HR5 HR6 HR7]
    · iapply (out_join c (outF m c))
      isplitl [HDr0 HDr1 HDr2 HDr3 HDr4 HDr5 HDr6 HDr7]
      · isplitl [HDr0]; · iexact HDr0
        isplitl [HDr1]; · iexact HDr1
        isplitl [HDr2]; · iexact HDr2
        isplitl [HDr3]; · iexact HDr3
        isplitl [HDr4]; · iexact HDr4
        isplitl [HDr5]; · iexact HDr5
        isplitl [HDr6]; · iexact HDr6
        iexact HDr7
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
    isplitl [Hs0 Hs1]
    · iapply (stage_join c (gC m c 6) (gC m c 7))
      isplitl [Hs0]; · iexact Hs0
      iexact Hs1
    isplitl [HvC0 HvC1 HvL0 HvL1]
    · isplitl [HvC0]; · iexact HvC0
      isplitl [HvC1]; · iexact HvC1
      isplitl [HvL0]; · iexact HvL0
      iexact HvL1
    iapply (sems_join c)
    isplitl [HvS0 HvS1 HvS2 HvS3 HvS4 HvS5 HvS6 HvS7]
    · isplitl [HvS0]; · iexact HvS0
      isplitl [HvS1]; · iexact HvS1
      isplitl [HvS2]; · iexact HvS2
      isplitl [HvS3]; · iexact HvS3
      isplitl [HvS4]; · iexact HvS4
      isplitl [HvS5]; · iexact HvS5
      isplitl [HvS6]; · iexact HvS6
      iexact HvS7
    · isplitl [HvR0]; · iexact HvR0
      isplitl [HvR1]; · iexact HvR1
      isplitl [HvR2]; · iexact HvR2
      isplitl [HvR3]; · iexact HvR3
      isplitl [HvR4]; · iexact HvR4
      isplitl [HvR5]; · iexact HvR5
      isplitl [HvR6]; · iexact HvR6
      iexact HvR7
  · iexact HO

omit [FloatOps F] in
theorem bigSep_W0 (Φ : Fin cfg0.W → sProp 𝕄) : bigSep Finset.univ Φ = iprop(emp) := by
  rw [show (Finset.univ : Finset (Fin cfg0.W)) = ∅ from Finset.univ_eq_empty]; exact bigSep_empty

end Body

/-- The library's body obligation on device `c`. -/
theorem body_obligation (c : Dev nD) : BodyObligation (dats (F := F) m 0 c) (defs₀ (F := F)) 𝒱₀ () Set.univ := fun t => by
  rw [fin_N0 t, bigSep_W0, bigSep_W0]
  show iprop(Φ₀ m c ∗ (dats m 0 c).owesAt () t0_0.castSucc ∗ emp)
    ⊢ wp frame (wpE (defs₀ (F := F)) 𝒱₀ (c : Thread nD τ) none) Set.univ
      (cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4)
      (fun _ => iprop(Φ₁ m c ∗ (dats m 0 c).owesAt () t0_0.succ ∗ emp))
  unfold Φ₀ start stageAny Dat.owesAt Pipeline.owesWithin
  rw [show (dats m 0 c).owed t0_0.castSucc = O₀ c from rfl, show (dats m 0 c).owed t0_0.succ = 0 from rfl]
  iintro ⟨⟨⟨⟨%K, Hctx, Hlin⟩, Hcr, Hls, Hx, Hout⟩, ⟨%f, Hstg⟩⟩, ⟨%W, %hW, HO⟩, -⟩
  iapply (sound_body m K c f _)
  unfold bodyPre
  isplitl [Hctx Hlin Hcr Hls Hx Hout Hstg HO]
  · isplitl [Hctx]; · iexact Hctx
    isplitl [Hlin]; · iexact Hlin
    isplitl [Hcr]; · iexact Hcr
    isplitl [Hls]; · iexact Hls
    isplitl [Hx]; · iexact Hx
    isplitl [Hout]; · iexact Hout
    isplitl [Hstg]; · iexact Hstg
    unfold owesX; iexists W; iexact HO
  · unfold bodyPost owesX
    iintro ⟨H1, ⟨%W', HO⟩⟩
    isplitl [H1]; · iexact H1
    isplitl [HO]
    · iexists W'
      isplitr; · ipureintro; exact fun _ _ => Or.inl trivial
      iexact HO
    · iempintro

end Cert.Kernel.AG

end
-- ==== Proof.KLaunch.lean ====
import proofs.«900681_g7700000000000682_dist_ag_v7x_xyz2x2x4_x_m8192_n1024_f32_1_alg».proof.Proof.KProto
import proofs.«900681_g7700000000000682_dist_ag_v7x_xyz2x2x4_x_m8192_n1024_f32_1_alg».proof.Proof.Gen.Kernel.Frame

/-!
# The launch

From every device's body obligation to the run of @main on the sixteen devices: every weakly fair execution terminates,
each device's result array ends holding the gathered array, its block of `x` what it held.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- Every device's result array holds the gathered array, and its block of `x` is as launched. -/
def QC : PUnit × MemSt nD τ sig (Elt F) → Prop := fun r =>
  ∀ c : Dev nD, r.2.mem ((c.tc : Thread nD τ).loc main_v1) = outF m c
    ∧ r.2.mem ((c.tc : Thread nD τ).loc main_arg0) = m ((c.tc : Thread nD τ).loc main_arg0)

/-! ## The kernel's own semaphores and the exchange's cells -/

/-- The kernel's own (scoped) semaphores: all twenty DMA semaphores. -/
abbrev osem : Fin 20 → SemLoc sig := fun i => .dma i

theorem ownSemFacts : Pipeline.OwnSemFacts cfg0.spec osem := by decide

/-- The index of the cell a role names. -/
def jOf : Role → Fin 17
  | .bar => jBar
  | .send k => jSend k
  | .recv k => jRecv k
  | .other => jBar

theorem jOf_csem (j : Fin 17) : jOf (role (csem j)) = j := by revert j; decide

theorem csem_injective : Function.Injective csem :=
  fun a b h => (jOf_csem a).symm.trans ((congrArg (fun s => jOf (role s)) h).trans (jOf_csem b))

theorem kcell_injective : Function.Injective (kcell : Dev nD × Fin 17 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

theorem jSend_injective : Function.Injective jSend := by decide
theorem jRecv_injective : Function.Injective jRecv := by decide

/-- The seventeen indices: the barrier's, the eight send cells', the eight receive cells'. -/
theorem univ17 : (Finset.univ : Finset (Fin 17))
    = insert jBar (Finset.univ.map ⟨jSend, jSend_injective⟩ ∪ Finset.univ.map ⟨jRecv, jRecv_injective⟩) := by decide

omit [FloatOps F] in
/-- A device's seventeen cells, by kind. -/
theorem bigSep_cells (c : Dev nD) (Φ : GSem nD τ sig → sProp 𝕄) :
    (bigSep Finset.univ fun j : Fin 17 => Φ (kcell (c, j)))
      = iprop(Φ (barCell c) ∗ (bigSep Finset.univ fun k : Fin 8 => Φ (sendCell c k)) ∗ (bigSep Finset.univ fun k : Fin 8 => Φ (recvCell c k))) := by
  rw [univ17, bigSep_insert (by decide), bigSep_union (by decide), bigSep_map, bigSep_map]
  simp only [kcell, Function.Embedding.coeFn_mk, csem_bar, csem_send, csem_recv]
  rfl

theorem copyS_injective : Function.Injective copyS := by decide
theorem lclS_injective : Function.Injective lclS := by decide
theorem sendS_injective : Function.Injective sendS := by decide
theorem recvS_injective : Function.Injective recvS := by decide

/-- The twenty DMA semaphores: two of the copies into the slots, two of the local copies out of them, eight send, eight receive. -/
theorem univ20 : (Finset.univ : Finset (Fin 20))
    = (Finset.univ.map ⟨copyS, copyS_injective⟩ ∪ Finset.univ.map ⟨lclS, lclS_injective⟩)
      ∪ (Finset.univ.map ⟨sendS, sendS_injective⟩ ∪ Finset.univ.map ⟨recvS, recvS_injective⟩) := by decide

omit [FloatOps F] in
/-- The own semaphores at zero: the four local cells' counters, the eight send cells', the eight receive cells'. -/
theorem ownSems0_eq (c : Dev nD) : (Pipeline.ownSems0 (Ix := Unit) (Name := ℕ) (U := UU) (Lvl := ℕ) (Val := Elt F) (τ := τ) osem c : sProp 𝕄)
    = iprop(((semVal ((c : Thread nD τ), SemLoc.dma (copyS 0)) 0 ∗ semVal ((c : Thread nD τ), SemLoc.dma (copyS 1)) 0)
        ∗ (semVal ((c : Thread nD τ), SemLoc.dma (lclS 0)) 0 ∗ semVal ((c : Thread nD τ), SemLoc.dma (lclS 1)) 0))
      ∗ ((bigSep Finset.univ fun k : Fin 8 => semVal (sendCell c k) 0) ∗ (bigSep Finset.univ fun k : Fin 8 => semVal (recvCell c k) 0))) := by
  unfold Pipeline.ownSems0
  rw [univ20, bigSep_union (by decide), bigSep_union (by decide), bigSep_union (by decide), bigSep_map, bigSep_map, bigSep_map, bigSep_map,
    bigSep_univ_two, bigSep_univ_two]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 17 => semVal (kcell (c, j)) 0) ∗ localSems c) := by
  refine BIBase.Entails.trans ?_ (sep_mono_left (Entails.of_eq (bigSep_cells c (fun g => (semVal g 0 : sProp 𝕄))).symm))
  rw [ownSems0_eq, unscopedSems0_eq]
  unfold localSems
  iintro ⟨⟨⟨⟨H0, H1⟩, H2, H3⟩, HS, HR⟩, HB⟩
  isplitl [HB HS HR]
  · isplitl [HB]; · iexact HB
    isplitl [HS] <;> iassumption
  · isplitl [H0]; · iexact H0
    isplitl [H1]; · iexact H1
    isplitl [H2] <;> iassumption

omit [FloatOps F] in
/-- Back: the twenty counters at zero are the own semaphores at zero. -/
theorem ownSems0_intro (c : Dev nD) :
    iprop(localSems c ∗ (bigSep Finset.univ fun k : Fin 8 => semVal (sendCell c k) 0) ∗ (bigSep Finset.univ fun k : Fin 8 => semVal (recvCell c k) 0))
      ⊢ (Pipeline.ownSems0 (Ix := Unit) (Name := ℕ) (U := UU) (Lvl := ℕ) (Val := Elt F) (τ := τ) osem c : sProp 𝕄) := by
  rw [ownSems0_eq]
  unfold localSems
  iintro ⟨⟨H0, H1, H2, H3⟩, HS, HR⟩
  isplitl [H0 H1 H2 H3]
  · isplitl [H0 H1]
    · isplitl [H0] <;> iassumption
    · isplitl [H2] <;> iassumption
  · isplitl [HS] <;> iassumption

/-! ## The launch credit -/

omit [FloatOps F] in
/-- What the partners owe one receive cell. -/
theorem launch_recv1 (c : Dev nD) (k : Fin 8) :
    (Pipeline.launchCred (fun d => tallyAt (recvCell (peer d) k) () Nc) c : sProp 𝕄) ⊢ cred (tallyAt (recvCell c k) () Nc) :=
  Pipeline.launchCred_tallyAt (SemLoc.dma (recvS k)) peer peer peer_peer peer_peer () Nc c

omit [FloatOps F] in
/-- What the partners owe the barrier cell. -/
theorem launch_bar (c : Dev nD) :
    (Pipeline.launchCred (fun d => tallyAt (barCell (peer d)) () 1) c : sProp 𝕄) ⊢ cred (tallyAt (barCell c) () 1) :=
  Pipeline.launchCred_tallyAt (SemLoc.reg barS) peer peer peer_peer peer_peer () 1 c

/-- The receive credits of cells `8 - n … 7`, the highest first: what `Orec` of the partner deals. -/
def recvCreds (c : Dev nD) : ℕ → sProp 𝕄
  | 0 => iprop(emp)
  | n + 1 => iprop(recvCreds c n ∗ cred (tallyAt (recvCell c ⟨(7 - n) % 8, Nat.mod_lt _ (by decide)⟩) () Nc))

omit [FloatOps F] in
theorem launch_Orec (c : Dev nD) : ∀ n, (Pipeline.launchCred (fun d => Orec d n) c : sProp 𝕄) ⊢ recvCreds c n
  | 0 => Entails.of_eq (Pipeline.launchCred_zero c)
  | n + 1 => by
    refine (Entails.of_eq (Pipeline.launchCred_add (fun d => Orec d n)
      (fun d => tallyAt (recvCell (peer d) ⟨(7 - n) % 8, Nat.mod_lt _ (by decide)⟩) () Nc) c)).trans ?_
    exact BI.sep_mono (launch_Orec c n) (launch_recv1 c _)

omit [FloatOps F] in
theorem recvCreds_all (c : Dev nD) : (recvCreds c 8 : sProp 𝕄) ⊢ bigSep Finset.univ fun k : Fin 8 => cred (tallyAt (recvCell c k) () Nc) := by
  rw [bigSep_fin8]
  show iprop(((((((((emp ∗ cred (tallyAt (recvCell c 7) () Nc)) ∗ cred (tallyAt (recvCell c 6) () Nc)) ∗ cred (tallyAt (recvCell c 5) () Nc))
    ∗ cred (tallyAt (recvCell c 4) () Nc)) ∗ cred (tallyAt (recvCell c 3) () Nc)) ∗ cred (tallyAt (recvCell c 2) () Nc))
    ∗ cred (tallyAt (recvCell c 1) () Nc)) ∗ cred (tallyAt (recvCell c 0) () Nc))) ⊢ _
  iintro ⟨⟨⟨⟨⟨⟨⟨⟨-, H7⟩, H6⟩, H5⟩, H4⟩, H3⟩, H2⟩, H1⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- The launch deals device `c` its barrier's unit and its eight receive cells' chunk credits: what its partner owes. -/
theorem creds_intro (c : Dev nD) : (Pipeline.launchCred O₀ c : sProp 𝕄) ⊢ creds c := by
  refine (Entails.of_eq (Pipeline.launchCred_add (fun d => Orec d 8) (fun d => tallyAt (barCell (peer d)) () 1) c)).trans ?_
  unfold creds
  iintro ⟨HR, HB⟩
  isplitl [HB]
  · iapply (launch_bar (F := F) c); iexact HB
  · iapply (recvCreds_all (F := F) c); iapply (launch_Orec (F := F) c 8); iexact HR

/-! ## The launch element and what it deals -/

/-- The exchange's cells: seventeen a device. -/
def exchCells : Finset (GSem nD τ sig) := Finset.univ.map ⟨kcell, kcell_injective⟩

/-- One duty token a cell. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def exchToks : Finset (GSem nD τ sig × ℕ × Unit) := Finset.univ.map ⟨tokOf, tokOf_injective⟩

/-- The launch element: the pipeline library's copy, the exchange's copy, no local counter booked. -/
def u₀ : UU :=
  (initOf (Pipeline.cells cfgs cellOf_inj) (Pipeline.launchToks cfgs cellOf_inj), (initOf exchCells exchToks, 1))

/-- What the launch element deals device `c`: its seventeen cells' round states, positions, reached records, and the
    tokens minted for its own cells. -/
def G (c : Dev nD) : sProp 𝕄 :=
  iprop((bigSep Finset.univ fun j : Fin 17 => roundState ER (Rd m) (kcell (c, j)) 0)
    ∗ (bigSep Finset.univ fun j : Fin 17 => iprop(atPos ER (kcell (c, j)) 0 ∅ 0 ∗ reached ER (kcell (c, j)) 0))
    ∗ (bigSep Finset.univ fun j : Fin 17 => dutyTok ER (kcell (c, j)) 0 ()))

/-- What the global step makes of it. -/
def G' (c : Dev nD) : sProp 𝕄 := iprop((∃ K, records m K ∗ linear c) ∗ localSems c)

omit [FloatOps F] in
theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun j : Fin 17 => Φ (kcell (c, j)) := by
    unfold exchCells; rw [bigSep_map, bigSep_univ_prod]; rfl
  have hT : bigSep exchToks (fun x => (dutyTok ER x.1 x.2.1 x.2.2 : sProp 𝕄))
      = bigSep Finset.univ fun c : Dev nD => bigSep Finset.univ fun j : Fin 17 => dutyTok ER (kcell (c, j)) 0 () := by
    unfold exchToks; rw [bigSep_map, bigSep_univ_prod]; rfl
  iintro HX
  imod (Rounds.fund ER (Rd m) exchCells exchToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem launch_elem : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HE, -⟩
  imod (fund_exch m) $$ HE with HG
  imodintro
  isplitl [HP] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 17 => iprop(∃ κ : ℕ, cellInv ER (Rd m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : Fin 17 => semVal (kcell (c, j)) 0) ∗ bigSep Finset.univ fun j : Fin 17 => roundState ER (Rd m) (kcell (c, j)) 0)
      ⊢ (|={Set.univ}=> bigSep Finset.univ fun j : Fin 17 => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The partner map as a permutation of the devices. -/
def peerEquiv : Dev nD ≃ Dev nD := ⟨peer, peer, peer_peer, peer_peer⟩

omit [FloatOps F] in
/-- The tokens dealt to the payers: a barrier's and a receive cell's to the partner, a send cell's stays. -/
theorem toks_around :
    (bigSep Finset.univ fun c : Dev nD => iprop(dutyTok ER (barCell c) 0 () ∗ (bigSep Finset.univ fun k : Fin 8 => dutyTok ER (sendCell c k) 0 ())
        ∗ (bigSep Finset.univ fun k : Fin 8 => dutyTok ER (recvCell c k) 0 ())) : sProp 𝕄)
      ⊢ bigSep Finset.univ fun c : Dev nD => iprop(dutyTok ER (barCell (peer c)) 0 () ∗ (bigSep Finset.univ fun k : Fin 8 => dutyTok ER (sendCell c k) 0 ())
        ∗ (bigSep Finset.univ fun k : Fin 8 => dutyTok ER (recvCell (peer c) k) 0 ())) := by
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun k : Fin 8 => dutyTok ER (recvCell c k) 0 () : sProp 𝕄))]
  iintro ⟨H1, H2, H3⟩
  isplitl [H1]; · iexact H1
  isplitl [H2]; · iexact H2
  iexact H3

omit [FloatOps F] in
theorem linear_intro (c : Dev nD) :
    iprop((atPos ER (barCell c) 0 ∅ 0 ∗ (bigSep Finset.univ fun k : Fin 8 => atPos ER (sendCell c k) 0 ∅ 0)
          ∗ (bigSep Finset.univ fun k : Fin 8 => atPos ER (recvCell c k) 0 ∅ 0))
        ∗ (dutyTok ER (barCell (peer c)) 0 () ∗ (bigSep Finset.univ fun k : Fin 8 => dutyTok ER (sendCell c k) 0 ())
          ∗ (bigSep Finset.univ fun k : Fin 8 => dutyTok ER (recvCell (peer c) k) 0 ())))
      ⊢ (linear c : sProp 𝕄) := by
  unfold linear Tok
  rw [bigSep_sep', bigSep_sep']
  iintro ⟨⟨HaB, HaS, HaR⟩, HtB, HtS, HtR⟩
  isplitl [HaB]; · iexact HaB
  isplitl [HtB]; · iexact HtB
  isplitl [HaS HtS HtR]
  · isplitl [HaS]; · iexact HaS
    isplitl [HtS] <;> iassumption
  iexact HaR

omit [FloatOps F] in
/-- Every device's positions and the tokens of the duties it pays. -/
theorem linear_all :
    iprop((bigSep Finset.univ fun c : Dev nD => bigSep Finset.univ fun j : Fin 17 => (atPos ER (kcell (c, j)) 0 ∅ 0 : sProp 𝕄))
        ∗ (bigSep Finset.univ fun c : Dev nD => bigSep Finset.univ fun j : Fin 17 => (dutyTok ER (kcell (c, j)) 0 () : sProp 𝕄)))
      ⊢ bigSep Finset.univ fun c : Dev nD => (linear c : sProp 𝕄) := by
  have e1 (c : Dev nD) : (bigSep Finset.univ fun j : Fin 17 => (atPos ER (kcell (c, j)) 0 ∅ 0 : sProp 𝕄))
      = iprop(atPos ER (barCell c) 0 ∅ 0 ∗ (bigSep Finset.univ fun k : Fin 8 => atPos ER (sendCell c k) 0 ∅ 0)
          ∗ (bigSep Finset.univ fun k : Fin 8 => atPos ER (recvCell c k) 0 ∅ 0)) := bigSep_cells c (fun g => atPos ER g 0 ∅ 0)
  have e2 (c : Dev nD) : (bigSep Finset.univ fun j : Fin 17 => (dutyTok ER (kcell (c, j)) 0 () : sProp 𝕄))
      = iprop(dutyTok ER (barCell c) 0 () ∗ (bigSep Finset.univ fun k : Fin 8 => dutyTok ER (sendCell c k) 0 ())
          ∗ (bigSep Finset.univ fun k : Fin 8 => dutyTok ER (recvCell c k) 0 ())) := bigSep_cells c (fun g => dutyTok ER g 0 ())
  rw [bigSep_congr (s := Finset.univ) (fun (c : Dev nD) _ => e1 c), bigSep_congr (s := Finset.univ) (fun (c : Dev nD) _ => e2 c)]
  refine BIBase.Entails.trans ?_ (bigSep_mono (s := Finset.univ) fun c _ => linear_intro (F := F) c)
  refine BIBase.Entails.trans ?_ (Entails.of_eq (bigSep_sep' Finset.univ _ _).symm)
  iintro ⟨Hat, Htok⟩
  ihave Htk := (toks_around (F := F)) $$ Htok
  isplitl [Hat] <;> iassumption

omit [FloatOps F] in
theorem ghost_intro (K : Dev nD × Fin 17 → ℕ) (c : Dev nD) : iprop(records m K ∗ (linear c ∗ localSems c)) ⊢ G' m c := by
  unfold G'
  iintro ⟨#HR, Hl, Hs⟩
  isplitl [Hl]
  · iexists K
    isplitr; · iexact HR
    iexact Hl
  · iexact Hs

omit [FloatOps F] in
theorem regroup :
    (bigSep Finset.univ fun c : Dev nD => iprop((bigSep Finset.univ fun j : Fin 17 => iprop(∃ κ : ℕ, cellInv ER (Rd m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) : sProp 𝕄)
      ⊢ bigSep Finset.univ (G' m) := by
  rw [bigSep_sep', bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  iintro ⟨HI, ⟨Hat, #HR⟩, Htok, Hloc⟩
  ihave HK := (BI.bigSep_exists_pi Finset.univ (fun (ck : Dev nD × Fin 17) (κ : ℕ) => (cellInv ER (Rd m) κ (kcell ck) : sProp 𝕄))) $$ HI
  icases HK with ⟨%K, #HI⟩
  ihave Hlin := (linear_all (F := F)) $$ [Hat Htok]
  · isplitl [Hat] <;> iassumption
  iapply (bigSep_with_persistent (R := records m K) fun c _ => ghost_intro m K c)
  isplitr
  · unfold records; isplitl; · iexact HI
    iexact HR
  · rw [bigSep_sep']
    isplitl [Hlin] <;> iassumption

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start ctx xAt X O0
  iintro ⟨⟨Hx, Ho⟩, Hlev, Hcr, -, ⟨%K, Hrec, Hlin⟩, Hloc⟩
  ihave Hc := (creds_intro (F := F) c) $$ Hcr
  imodintro
  isplitl
  · isplitl [Hrec Hlev Hlin]
    · iexists K
      isplitl [Hrec Hlev]
      · isplitl [Hrec] <;> iassumption
      · iexact Hlin
    isplitl [Hc]; · iexact Hc
    isplitl [Hloc]; · iexact Hloc
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ stageAny
  iintro ⟨Hs, -, ⟨%f, Hr⟩⟩
  isplitl [Hs]; · iexact Hs
  iexists f; iexact Hr

/-- What a device hands back outside its scoped storage: `x` as launched, the result array gathered. -/
def Yc (c : Dev nD) : sProp 𝕄 := iprop(xAt m c fullShare ∗ (((c : Thread nD τ).loc main_v1) ↦{fullShare} outF m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc stageAny
  iintro ⟨Hx, Ho, ⟨%f, Hst⟩, Hloc, HS, HR⟩
  isplitl [Hx Ho]; · isplitl [Hx] <;> iassumption
  isplitl [Hloc HS HR]
  · iapply (ownSems0_intro (F := F) c)
    isplitl [Hloc]; · iexact Hloc
    isplitl [HS] <;> iassumption
  · iexists f; iexact Hst

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- Given every device's body obligation: at the compiled mesh of sixteen devices, for any float values, from any memory with
    zero counters, every weakly fair execution of @main terminates, nothing faults, and every final state satisfies `QC`. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := launch_elem m)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = outF m c
      ∧ s.mem ((c : Thread nD τ).loc main_arg0) = m ((c : Thread nD τ).loc main_arg0))
    (hY := fun c s' => by
      unfold Yc xAt
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- info: 'Cert.Kernel.AG.run_main_of' depends on axioms: [propext, Classical.choice, Quot.sound] -/
#guard_msgs in #print axioms run_main_of

end Cert.Kernel.AG

end
-- ==== Proof.KRun.lean ====
import proofs.«900681_g7700000000000682_dist_ag_v7x_xyz2x2x4_x_m8192_n1024_f32_1_alg».proof.Proof.KBody
import proofs.«900681_g7700000000000682_dist_ag_v7x_xyz2x2x4_x_m8192_n1024_f32_1_alg».proof.Proof.KLaunch

/-!
# The run

The launch applied to every device's body: the run of @main on the sixteen devices.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- At the compiled mesh of sixteen devices, for any float values, from any memory with zero counters: every weakly fair
    execution of @main terminates, nothing faults, each device's result array ends holding the gathered array and its
    block of `x` what it held. -/
theorem run_main : θ_run defs (onTc (τ := τ) (main (F := F))) ⟨m, fun _ => 0, ρ⟩ (QC m) :=
  run_main_of m ρ (body_obligation m)

end Cert.Kernel.AG

end
-- ==== Proof.Ref.lean ====
import proofs.«900681_g7700000000000682_dist_ag_v7x_xyz2x2x4_x_m8192_n1024_f32_1_alg».proof.Proof.Gen.ReferenceIdeal
import Idealize.ShloMosaic.Lib.StableHlo.Run

/-!
# The reference's run

The reference gathers nothing: it is given the whole array `x` on one device and returns it.  Its @main is the empty
line of host operations followed by the return, so every weakly fair execution terminates at once, and every buffer
of the device ends holding what it held at launch.
-/

noncomputable section

namespace Cert.ReferenceIdeal.AG

open Cert.ReferenceIdeal Cert.ReferenceIdeal.Gen

open Idealize.ShloMosaic
open Idealize.ShloMosaic.TcCoe
open Idealize.SL.Sem
open Idealize.ShloMosaic.StableHlo

variable {F : FTy → Type} [FloatOps F]

/-- @main is the empty line of operations. -/
theorem main_eq (c : Dev nD) : main (F := F) c = seq [] := rfl

/-- The signature scopes no buffer and no semaphore: the program has no kernel. -/
theorem scopedRefs_eq : (Finset.univ.filter fun b : Ref sig .tc => b.isScoped) = ∅ := by decide
theorem scopedSems_eq : (Finset.univ.filter fun sm : SemLoc sig => sm.isScoped .tc) = ∅ := by decide

/-- On the one device, for any float values, from any memory with zero counters: every weakly fair execution of
    @main terminates, nothing faults, and every buffer ends at its launch contents (the fold of no operation over
    the launch contents is the launch contents). -/
theorem run (m' : (ℓ : Loc nD τ sig) → Buf (Elt F) ℓ) (g' : Dev nD → PrngReg) :
    θ_run (defs (F := F)) (onTc (τ := τ) (main (F := F))) ⟨m', fun _ => 0, g'⟩
      (fun r => ∀ (d : Dev nD) (b : Ref sig .tc), r.2.mem ((d.tc : Thread nD τ).loc b) = m' ((d.tc : Thread nD τ).loc b)) :=
  (θ_run defs _ _).mono (fun _ h d b => h d b)
    (run_seq scopedRefs_eq scopedSems_eq defs main (fun _ => []) main_eq (fun _ => trivial) m' g'
      (fun _ _ h => absurd h List.not_mem_nil))

end Cert.ReferenceIdeal.AG

end
-- ==== Proof.lean ====
/-
  The proof of `Cert.Claim`: the pairwise all-gather on sixteen devices against the identity on one.

  The mesh is 2 x 2 x 4 and `x` is cut along its rows by the first mesh axis: device `c` holds rows
  `8192 (c / 8) … 8192 (c / 8) + 8191` of the whole `x`.  Device `c` and its partner `(c + 8) % 16` differ in the
  first mesh coordinate only, so between them they hold both halves.  Each copies its half, eight chunks of 1024 rows,
  into its own result array and into its partner's at the rows its first coordinate names; so every device's result
  array ends holding both halves in place — the gathered array — and, the halves being the two parts of the whole `x`,
  the gathered array is the whole `x` (`outF_whole`).  The reference is handed the whole `x` and returns it.

  The claims: each program's run with its argument unchanged (the kernel's run, stated for any float values, read at
  the bit-exact and at the ideal instance; the reference's run of no operation); the idealization rewrote nothing;
  and at the ideal instance the value every result buffer ends holding is the reference's argument array.
-/
import proofs.«900681_g7700000000000682_dist_ag_v7x_xyz2x2x4_x_m8192_n1024_f32_1_alg».proof.Defs
import proofs.«900681_g7700000000000682_dist_ag_v7x_xyz2x2x4_x_m8192_n1024_f32_1_alg».proof.Proof.Gen.Kernel
import proofs.«900681_g7700000000000682_dist_ag_v7x_xyz2x2x4_x_m8192_n1024_f32_1_alg».proof.Proof.Gen.Kernel.Skeleton
import proofs.«900681_g7700000000000682_dist_ag_v7x_xyz2x2x4_x_m8192_n1024_f32_1_alg».proof.Proof.Gen.Kernel.Launch
import proofs.«900681_g7700000000000682_dist_ag_v7x_xyz2x2x4_x_m8192_n1024_f32_1_alg».proof.Proof.Gen.Kernel.Points
import proofs.«900681_g7700000000000682_dist_ag_v7x_xyz2x2x4_x_m8192_n1024_f32_1_alg».proof.Proof.Gen.Kernel.Frame
import proofs.«900681_g7700000000000682_dist_ag_v7x_xyz2x2x4_x_m8192_n1024_f32_1_alg».proof.Proof.Gen.KernelIdeal
import proofs.«900681_g7700000000000682_dist_ag_v7x_xyz2x2x4_x_m8192_n1024_f32_1_alg».proof.Proof.Gen.KernelIdeal.Skeleton
import proofs.«900681_g7700000000000682_dist_ag_v7x_xyz2x2x4_x_m8192_n1024_f32_1_alg».proof.Proof.Gen.KernelIdeal.Launch
import proofs.«900681_g7700000000000682_dist_ag_v7x_xyz2x2x4_x_m8192_n1024_f32_1_alg».proof.Proof.Gen.KernelIdeal.Points
import proofs.«900681_g7700000000000682_dist_ag_v7x_xyz2x2x4_x_m8192_n1024_f32_1_alg».proof.Proof.Gen.KernelIdeal.Frame
import proofs.«900681_g7700000000000682_dist_ag_v7x_xyz2x2x4_x_m8192_n1024_f32_1_alg».proof.Proof.Gen.ReferenceIdeal
import proofs.«900681_g7700000000000682_dist_ag_v7x_xyz2x2x4_x_m8192_n1024_f32_1_alg».proof.Proof.Gen.Pre_finite_inputs_Kernel
import proofs.«900681_g7700000000000682_dist_ag_v7x_xyz2x2x4_x_m8192_n1024_f32_1_alg».proof.Proof.Gen.Pre_finite_inputs_ReferenceIdeal
import Idealize.ShloMosaic.Adequacy
import Idealize.ShloMosaic.Init
import proofs.«900681_g7700000000000682_dist_ag_v7x_xyz2x2x4_x_m8192_n1024_f32_1_alg».proof.Proof.Run
import proofs.«900681_g7700000000000682_dist_ag_v7x_xyz2x2x4_x_m8192_n1024_f32_1_alg».proof.Proof.KRun
import proofs.«900681_g7700000000000682_dist_ag_v7x_xyz2x2x4_x_m8192_n1024_f32_1_alg».proof.Proof.Values
import proofs.«900681_g7700000000000682_dist_ag_v7x_xyz2x2x4_x_m8192_n1024_f32_1_alg».proof.Proof.Ref

noncomputable section

namespace Cert.Proof

open Idealize.ShloMosaic Idealize.ShloMosaic.TcCoe Idealize.SL.Sem

/-! ## The frames -/

/-- The kernel as printed, at the bit-exact instance: its run on the sixteen devices, the result arrays dropped. -/
theorem frame_k : Cert.frame_Kernel := fun m g _ =>
  (θ_run (Cert.Kernel.defs (F := Bits)) _ _).mono (fun _ h c => (h c).2) (Cert.Kernel.AG.run_main (F := Bits) m g)

/-- The same run read at the ideal instance. -/
theorem frame_ki : Cert.frame_KernelIdeal := fun m g _ =>
  (θ_run (Cert.KernelIdeal.defs (F := Ideal)) _ _).mono (fun _ h c => (h c).2) (Cert.KernelIdeal.AG.run_main (F := Ideal) m g)

/-- The reference returns its argument: every buffer ends as launched, the argument array among them. -/
theorem frame_ri : Cert.frame_ReferenceIdeal := fun m g _ =>
  (θ_run (Cert.ReferenceIdeal.defs (F := Ideal)) _ _).mono (fun _ h c => h c Cert.ReferenceIdeal.main_arg0)
    (Cert.ReferenceIdeal.AG.run (F := Ideal) m g)

/-- The ideal pass rewrote no operation of the kernel: nothing to preserve. -/
theorem preserves : Cert.preserves_Kernel_KernelIdeal := trivial

/-! ## The gathered array is the reference's result -/

/-- From memories where each device's block of `x` is its part of the reference's whole `x` (cut along the rows by the
    first mesh axis): every device's result array ends holding the gathered array, which is the whole `x`; the reference
    ends holding the whole `x` it was given; the arguments of both are unchanged.  The common value is the reference's
    argument array. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · exact (θ_run (Cert.KernelIdeal.defs (F := Ideal)) _ _).mono
      (fun _ h c => ⟨(h c).1.trans (Cert.KernelIdeal.AG.outF_whole (F := Ideal) m c _ hagree), (h c).2⟩)
      (Cert.KernelIdeal.AG.run_main (F := Ideal) m g)
  · exact (θ_run (Cert.ReferenceIdeal.defs (F := Ideal)) _ _).mono
      (fun _ h => ⟨h 0 Cert.ReferenceIdeal.main_arg0, h 0 Cert.ReferenceIdeal.main_arg0⟩)
      (Cert.ReferenceIdeal.AG.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
